-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S2000x128 : Shape := ⟨2, ![2000, 128]⟩
abbrev S800000x128 : Shape := ⟨2, ![800000, 128]⟩
abbrev S100000x1 : Shape := ⟨2, ![100000, 1]⟩
abbrev S1x128 : Shape := ⟨2, ![1, 128]⟩
abbrev S2000 : Shape := ⟨1, ![2000]⟩
abbrev S2000x1 : Shape := ⟨2, ![2000, 1]⟩

abbrev nBuf : Space → Nat
  | .hbm => 90
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S100000x128, .f32⟩
  | .hbm, ⟨47, _⟩ => ⟨S800000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S100000x128, .f32⟩
  | .hbm, ⟨83, _⟩ => ⟨S800000x1, .i32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S100000_S800000x1_S800000_n_0_0_1_wf : ScatterDims.WF S100000 S800000x1 S800000 [] [0] [0] 1
  dot_S2000x128_S128x128_S2000x128_1_0_0_1_n_n_wf : DotDims.WF S2000x128 S128x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S128x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S128x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S100000x128, .f32⟩
  | .hbm, ⟨76, _⟩ => ⟨S800000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S128x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S100000x128, .f32⟩
  | .hbm, ⟨104, _⟩ => ⟨S800000x1, .i32⟩
  | .hbm, ⟨105, _⟩ => ⟨S100000x128, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S128x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S100000, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S100000x128, .f32⟩
  | .hbm, ⟨126, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call2_cst : Ref sig .tc := ⟨.hbm, 89, rfl⟩
abbrev main_call2_v0 : Ref sig .tc := ⟨.hbm, 90, rfl⟩
abbrev main_v61 : Ref sig .tc := ⟨.hbm, 91, rfl⟩
abbrev main_v62 : Ref sig .tc := ⟨.hbm, 92, rfl⟩
abbrev main_c_10 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_14 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  transposes_S128x128_S128x128_1_0 : S128x128.Transposes [1, 0] S128x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.K.Reg0.lean ====
/-
  Region 0, the input projection: at grid point t the body loads rows 2000·t … 2000·t + 1999 of the feature array
  (window 0) and the whole weight matrix (window 1), and stores their product x · wᵀ over the whole block of the
  output window 2. Here, at any float instance and at any contents `V` of the buffers when the region is entered:
  what each window's block holds at a point, what the body leaves in the output's staging buffer, the body's
  triple, the pipeline's proof data, and the body obligation at every point.
-/
import proofs.«147368_j81793357185798_1_alg».proof.Proof.Gen.Kernel.Launch
import proofs.«147368_j81793357185798_1_alg».proof.Proof.Gen.Kernel.Skeleton
import proofs.«147368_j81793357185798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of the feature and output windows, and the whole weight matrix. -/
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

/-- What the body leaves in the output's staging buffer: its one store, over the whole block, of the payload of the
    two loaded blocks. -/
def out0_2 (x0 : Vec F S2000x128 .f32) (x1 : Vec F S128x128 .f32) : Vec F S2000x128 .f32 :=
  View.canon [⟨r0_x, k0_pay1 (View.ld x0 r0_x) (View.ld x1 r0_w)⟩]

/-- The one store covers the buffer. -/
theorem cover0_2 (p0 : Vec F S2000x128 .f32) (y : S2000x128.Idx) :
    ∃ pc ∈ ([⟨r0_x, p0⟩] : List (View.Piece (Elt F) S2000x128 .f32)), y ∈ pc.1.set :=
  View.cover_of_tiled [⟨r0_x, p0⟩] S2000x128.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  Region 1, the first middle layer: at grid point t the body loads rows 2000·t … 2000·t + 1999 of the neighbour mean
  (window 0), of the projected features (window 1) and of the residual (window 5), and the whole of the two weight
  matrices (windows 2 and 4) and of the bias row (window 3), and stores
  max (mean · wlᵀ + bias + h · wrᵀ) 0 + residual over the whole block of the output window 6. Here, at any float
  instance and at any contents `V` of the buffers when the region is entered: what each window's block holds at a
  point, what the body leaves in the output's staging buffer, the body's triple, the pipeline's proof data, and the
  body obligation at every point.
-/
import proofs.«147368_j81793357185798_1_alg».proof.Proof.Gen.Kernel.Launch
import proofs.«147368_j81793357185798_1_alg».proof.Proof.Gen.Kernel.Skeleton
import proofs.«147368_j81793357185798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole block of a row window, a whole weight matrix, and the whole bias row. -/
abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- What the body leaves in the output's staging buffer: its one store, over the whole block, of the payload of the
    six loaded blocks (the blocks in window order: mean, features, left weights, bias, right weights, residual). -/
def out1_6 (x0 x1 : Vec F S2000x128 .f32) (x2 : Vec F S128x128 .f32) (x3 : Vec F S1x128 .f32) (x4 : Vec F S128x128 .f32)
    (x5 : Vec F S2000x128 .f32) : Vec F S2000x128 .f32 :=
  View.canon [⟨r1_x, k1_pay1 (View.ld x0 r1_x) (View.ld x2 r1_w) (View.ld x3 r1_b) (View.ld x1 r1_x) (View.ld x4 r1_w) (View.ld x5 r1_x)⟩]

/-- The one store covers the buffer. -/
theorem cover1_6 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 2000000 in
/-- The body on whole staging memrefs, the inputs' at contents `x0` … `x5` and the output's at anything, runs to the
    continuation holding the inputs' as they were and the output's at `out1_6 x0 x1 x2 x3 x4 x5`. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (arg7 : Memref sig .tc .vmem S2000x128 .f32) (harg7 : arg7.IsWhole)
    (x0 x1 : Vec F S2000x128 .f32) (x2 : Vec F S128x128 .f32) (x3 : Vec F S1x128 .f32) (x4 : Vec F S128x128 .f32)
    (x5 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_mid_kernel i arg1 harg1 arg2 harg2 arg3 harg3 arg4 harg4 arg5 harg5 arg6 harg6 arg7 harg7) K := by
  simp only [cc1__sage_mid_kernel_eq_skeleton]; unfold cc1__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block and the output's at `out1_6` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t)
    (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  Region 2, the second middle layer: at grid point t the body loads rows 2000·t … 2000·t + 1999 of the mean array
  (window 0), of the hidden array (window 1) and of the residual (window 5, the same array as window 1), the two
  whole weight matrices (windows 2 and 4) and the bias row (window 3), and stores
  max(mean · wlᵀ + bias + h · wrᵀ, 0) + residual over the whole block of the output window 6. Here, at any float
  instance and at any contents `V` of the buffers when the region is entered: what each window's block holds at a
  point, what the body leaves in the output's staging buffer, the body's triple, the pipeline's proof data (windows 1
  and 5 each hold one half of the share of their common array), the body obligation at every point, and the passage
  between the region's unscoped buffers and the windows' arrays at entry and exit.
-/
import proofs.«147368_j81793357185798_1_alg».proof.Proof.Gen.Kernel.Launch
import proofs.«147368_j81793357185798_1_alg».proof.Proof.Gen.Kernel.Skeleton
import proofs.«147368_j81793357185798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole block of a row window, a whole weight matrix, and the whole bias row. -/
abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- What the body leaves in the output's staging buffer: its one store, over the whole block, of the payload of the
    six loaded blocks. -/
def out2_6 (x0 x1 : Vec F S2000x128 .f32) (x2 : Vec F S128x128 .f32) (x3 : Vec F S1x128 .f32) (x4 : Vec F S128x128 .f32)
    (x5 : Vec F S2000x128 .f32) : Vec F S2000x128 .f32 :=
  View.canon [⟨r2_x, k2_pay1 (View.ld x0 r2_x) (View.ld x2 r2_w) (View.ld x3 r2_b) (View.ld x1 r2_x) (View.ld x4 r2_w) (View.ld x5 r2_x)⟩]

/-- The one store covers the buffer. -/
theorem cover2_6 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole staging memrefs, the inputs' at contents `x0` … `x5` and the output's at anything, runs to the
    continuation holding the inputs' as they were and the output's at `out2_6 x0 … x5`. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
    (arg6 : Memref sig .tc .vmem S2000x128 .f32) (harg6 : arg6.IsWhole) (arg7 : Memref sig .tc .vmem S2000x128 .f32) (harg7 : arg7.IsWhole)
    (x0 x1 : Vec F S2000x128 .f32) (x2 : Vec F S128x128 .f32) (x3 : Vec F S1x128 .f32) (x4 : Vec F S128x128 .f32)
    (x5 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__sage_mid_kernel i arg1 harg1 arg2 harg2 arg3 harg3 arg4 harg4 arg5 harg5 arg6 harg6 arg7 harg7) K := by
  simp only [cc2__sage_mid_kernel_eq_skeleton]; unfold cc2__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`: the arrays as the region finds them; after the body at point `t` each
    input's buffer at its block and the output's at `out2_6` of the input blocks; the invariant the scoped rest and the
    generator register, untouched; nothing owed; full shares, but for windows 1 and 5, which read one array and hold
    the left and the right half of its share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨1, _⟩ => fullShare.left
    | ⟨5, _⟩ => fullShare.right
    | ⟨0, _⟩ => fullShare
    | ⟨2, _⟩ => fullShare
    | ⟨3, _⟩ => fullShare
    | ⟨4, _⟩ => fullShare
    | ⟨6, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t)
    (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entry and exit: the unscoped buffers and the windows' arrays

The seven windows stand on six buffers, windows 1 and 5 on one. At entry that buffer, whole at the full share, is
split into its left and right halves, one for each of the two windows; at exit both halves hold the same contents
and join back. -/

/-- The region's unscoped buffers are the buffers behind the windows' arrays and the rest. -/
theorem split2 (c : Dev nD) (V₁ : (b : Ref sig .tc) → Buf (Elt F) ((c : Thread nD τ).loc b)) :
    (unscopedBufs c V₁ : sProp 𝕄)
      = iprop(Pipeline.arrBufs spec2 c V₁ ∗ Pipeline.unscopedRest (Ix := Unit) (Name := ℕ) (U := UR sig nD τ) (Lvl := ℕ) spec2 c V₁) :=
  Pipeline.unscopedBufs_split₀ (fun _ : Unit => cfg2) () winFacts₀2.arr_unscoped c V₁

/-- The buffers behind the windows' arrays, one by one: six of them. -/
theorem arrBufs2_eq (c : Dev nD) (V₁ : (b : Ref sig .tc) → Buf (Elt F) ((c : Thread nD τ).loc b)) :
    (Pipeline.arrBufs spec2 c V₁ : sProp 𝕄)
      = iprop((((c : Thread nD τ).loc main_v43) ↦{fullShare} V₁ main_v43) ∗ (((c : Thread nD τ).loc main_v30) ↦{fullShare} V₁ main_v30)
        ∗ (((c : Thread nD τ).loc main_arg6) ↦{fullShare} V₁ main_arg6) ∗ (((c : Thread nD τ).loc main_v44) ↦{fullShare} V₁ main_v44)
        ∗ (((c : Thread nD τ).loc main_arg8) ↦{fullShare} V₁ main_arg8) ∗ (((c : Thread nD τ).loc main_v45) ↦{fullShare} V₁ main_v45)) := by
  unfold Pipeline.arrBufs
  rw [bigSep_eq_bigSepL_of_eq [main_v43, main_v30, main_arg6, main_v44, main_arg8, main_v45] (by decide) (by decide)]
  rfl

/-- The windows' arrays at contents `G`, one by one: each a whole buffer, windows 1 and 5 at the two halves. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v43) ↦{fullShare} G 0) ∗ (((c : Thread nD τ).loc main_v30) ↦{fullShare.left} G 1)
        ∗ (((c : Thread nD τ).loc main_arg6) ↦{fullShare} G 2) ∗ (((c : Thread nD τ).loc main_v44) ↦{fullShare} G 3)
        ∗ (((c : Thread nD τ).loc main_arg8) ↦{fullShare} G 4) ∗ (((c : Thread nD τ).loc main_v30) ↦{fullShare.right} G 5)
        ∗ (((c : Thread nD τ).loc main_v45) ↦{fullShare} G 6)) := by
  have h : ((dat2 V c).arrays G : sProp 𝕄)
      = bigSep Finset.univ fun w : Fin cfg2.W => (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY: the unscoped buffers at `V` are the windows' arrays at the proof data's entry contents and the rest. -/
theorem entry2 (c : Dev nD) :
    (unscopedBufs c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [split2, arrBufs2_eq, arrays2_eq]
  rw [show (dat2 V c).arrAt 0 0 = V c main_v43 from rfl, show (dat2 V c).arrAt 1 0 = V c main_v30 from rfl,
    show (dat2 V c).arrAt 2 0 = V c main_arg6 from rfl, show (dat2 V c).arrAt 3 0 = V c main_v44 from rfl,
    show (dat2 V c).arrAt 4 0 = V c main_arg8 from rfl, show (dat2 V c).arrAt 5 0 = V c main_v30 from rfl,
    show (dat2 V c).arrAt 6 0 = V c main_v45 from rfl]
  iintro ⟨⟨H0, H1, H2, H3, H4, H6⟩, Hrest⟩
  ihave H15 := (pointsTo_share (PosShare.mem_left_op_right fullShare)).1 $$ H1
  icases H15 with ⟨H1, H5⟩
  isplitr [Hrest]
  · isplitl [H0]; · iexact H0
    isplitl [H1]; · iexact H1
    isplitl [H2]; · iexact H2
    isplitl [H3]; · iexact H3
    isplitl [H4]; · iexact H4
    isplitl [H5]; · iexact H5
    iexact H6
  · iexact Hrest

/-- EXIT: the windows' arrays at what the pipeline leaves and the rest at `V` are the unscoped buffers at any `V'` that
    has the arrays at those contents and agrees with `V` off them. -/
theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs c V' : sProp 𝕄) := by
  have hr : (Pipeline.unscopedRest (Ix := Unit) (Name := ℕ) (U := UR sig nD τ) (Lvl := ℕ) spec2 c (V c) : sProp 𝕄)
      = Pipeline.unscopedRest (Ix := Unit) (Name := ℕ) (U := UR sig nD τ) (Lvl := ℕ) spec2 c V' := by
    unfold Pipeline.unscopedRest
    exact bigSep_congr fun b hb => by rw [hrest b (Finset.mem_sdiff.mp hb).2]
  rw [split2, arrBufs2_eq, arrays2_eq, hr]
  rw [hF 0, hF 1, hF 2, hF 3, hF 4, hF 5, hF 6]
  iintro ⟨⟨H0, H1, H2, H3, H4, H5, H6⟩, Hrest⟩
  isplitr [Hrest]
  · isplitl [H0]; · iexact H0
    isplitl [H1 H5]
    · iapply (pointsTo_share (PosShare.mem_left_op_right fullShare)).2
      isplitl [H1]; · iexact H1
      iexact H5
    isplitl [H2]; · iexact H2
    isplitl [H3]; · iexact H3
    isplitl [H4]; · iexact H4
    iexact H6
  · iexact Hrest

end Cert.Kernel.Fr

end
-- ==== Proof.K.Reg3.lean ====
/-
  Region 3, the last layer with its row normalisation: at grid point t the body loads rows 2000·t … 2000·t + 1999 of
  the neighbour means (window 0) and of the previous layer's features (window 1), the two whole weight matrices
  (windows 2 and 4) and the bias row (window 3); it forms z = mean · wlᵀ + bias + h · wrᵀ, divides every row of z by
  the larger of its Euclidean norm and a small positive constant, and stores the result over the whole block of the
  output window 5. Here, at any float instance and at any contents `V` of the buffers when the region is entered:
  what each window's block holds at a point, what the body leaves in the output's staging buffer, the body's
  triple, the pipeline's proof data, and the body obligation at every point.
-/
import proofs.«147368_j81793357185798_1_alg».proof.Proof.Gen.Kernel.Launch
import proofs.«147368_j81793357185798_1_alg».proof.Proof.Gen.Kernel.Skeleton
import proofs.«147368_j81793357185798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole block of a row window, a whole weight matrix, and the whole bias row. -/
abbrev r3_x : Rect S2000x128 := Rect.unit (s := S2000x128) ![0, 0] S2000x128.size inb_S2000x128_S2000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

/-- What the body leaves in the output's staging buffer: its one store, over the whole block, of the payload of the
    five loaded blocks (means, left weights, bias, features, right weights, in the payload's order). -/
def out3_5 (x0 x1 : Vec F S2000x128 .f32) (x2 : Vec F S128x128 .f32) (x3 : Vec F S1x128 .f32) (x4 : Vec F S128x128 .f32) : Vec F S2000x128 .f32 :=
  View.canon [⟨r3_x, k3_pay1 (View.ld x0 r3_x) (View.ld x2 r3_w) (View.ld x3 r3_b) (View.ld x1 r3_x) (View.ld x4 r3_w)⟩]

/-- The one store covers the buffer. -/
theorem cover3_5 (p0 : Vec F S2000x128 .f32) (y : S2000x128.Idx) :
    ∃ pc ∈ ([⟨r3_x, p0⟩] : List (View.Piece (Elt F) S2000x128 .f32)), y ∈ pc.1.set :=
  View.cover_of_tiled [⟨r3_x, p0⟩] S2000x128.size (by rfl) y

set_option maxHeartbeats 1000000 in
/-- The body on whole staging memrefs, the inputs' at contents `x0` … `x4` and the output's at anything, runs to the
    continuation holding the inputs' as they were and the output's at `out3_5 x0 x1 x2 x3 x4`. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (x0 x1 : Vec F S2000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__sage_final_kernel i arg1 harg1 arg2 harg2 arg3 harg3 arg4 harg4 arg5 harg5 arg6 harg6) K := by
  simp only [cc3__sage_final_kernel_eq_skeleton]; unfold cc3__sage_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Fold.lean ====
/-
  The buffers' contents at each boundary of @main, as a fold from the launch memory: a host stretch applies its
  operations; a kernel region changes exactly one buffer, its output array, which ends at what the pipeline's
  write-backs leave (the proof data's `arrAt` at the last point). Region 0 is entered at `T2` and left at `U3`, region 1
  at `T4` / `U5`, region 2 at `T6` / `U7`, region 3 at `T8` / `U9`. The conditional frame states its valuations over
  unknown region results `outs`; instantiated at the results named here they are these contents.
-/
import proofs.«147368_j81793357185798_1_alg».proof.Proof.K.Reg0
import proofs.«147368_j81793357185798_1_alg».proof.Proof.K.Reg1
import proofs.«147368_j81793357185798_1_alg».proof.Proof.K.Reg2
import proofs.«147368_j81793357185798_1_alg».proof.Proof.K.Reg3
import proofs.«147368_j81793357185798_1_alg».proof.Proof.Gen.Kernel.Regions

set_option maxRecDepth 16384
-- one declaration at a time: each unfolds a region's proof data, and side by side they hold several gigabytes
set_option Elab.async false

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A valuation read at the TensorCore's references: what a region's proof data take. -/
abbrev onRefs (W : Dev nD → Valuation τ sig (Elt F)) : (c : Dev nD) → (b : Ref sig .tc) → Buf (Elt F) ((c : Thread nD τ).loc b) :=
  fun c b => W c b

/-- Region 0's entry: the launch memory after the two first host stretches. -/
abbrev T2 : Dev nD → Valuation τ sig (Elt F) := fun c => V2 m c
/-- What region 0 leaves in its output array. -/
def x3 (c : Dev nD) : Buf (Elt F) ((c : Thread nD τ).loc main_v15) := (dat0 (onRefs (T2 m)) c).arrAt 2 cfg0.N
/-- Region 0's exit. -/
def U3 (c : Dev nD) : Valuation τ sig (Elt F) := Function.update (T2 m c) main_v15 (x3 m c)
/-- Region 1's entry. -/
abbrev T4 : Dev nD → Valuation τ sig (Elt F) := fun c => StableHlo.after hostOps1 (U3 m c)
def x5 (c : Dev nD) : Buf (Elt F) ((c : Thread nD τ).loc main_v30) := (dat1 (onRefs (T4 m)) c).arrAt 6 cfg1.N
def U5 (c : Dev nD) : Valuation τ sig (Elt F) := Function.update (T4 m c) main_v30 (x5 m c)
/-- Region 2's entry. -/
abbrev T6 : Dev nD → Valuation τ sig (Elt F) := fun c => StableHlo.after hostOps2 (U5 m c)
def x7 (c : Dev nD) : Buf (Elt F) ((c : Thread nD τ).loc main_v45) := (dat2 (onRefs (T6 m)) c).arrAt 6 cfg2.N
def U7 (c : Dev nD) : Valuation τ sig (Elt F) := Function.update (T6 m c) main_v45 (x7 m c)
/-- Region 3's entry. -/
abbrev T8 : Dev nD → Valuation τ sig (Elt F) := fun c => StableHlo.after hostOps3 (U7 m c)
def x9 (c : Dev nD) : Buf (Elt F) ((c : Thread nD τ).loc main_v60) := (dat3 (onRefs (T8 m)) c).arrAt 5 cfg3.N
/-- The end of @main. -/
def U9 (c : Dev nD) : Valuation τ sig (Elt F) := Function.update (T8 m c) main_v60 (x9 m c)

/-- The regions' results, in the conditional frame's form: after item J − 1 the buffers hold the exit contents above. -/
def outs : Outs (F := F) := fun J r c =>
  if J = 3 then U3 m c r else if J = 5 then U5 m c r else if J = 7 then U7 m c r else U9 m c r

/-- The conditional frame's unknowns at the four items that are regions: the exit contents above. -/
theorem outs_3 (r : Ref sig .tc) (c : Dev nD) : outs m 3 r c = U3 m c r := if_pos rfl
theorem outs_5 (r : Ref sig .tc) (c : Dev nD) : outs m 5 r c = U5 m c r := (if_neg (by decide)).trans (if_pos rfl)
theorem outs_7 (r : Ref sig .tc) (c : Dev nD) : outs m 7 r c = U7 m c r :=
  (if_neg (by decide)).trans ((if_neg (by decide)).trans (if_pos rfl))
theorem outs_9 (r : Ref sig .tc) (c : Dev nD) : outs m 9 r c = U9 m c r :=
  (if_neg (by decide)).trans ((if_neg (by decide)).trans (if_neg (by decide)))

/-- A region's exit contents at its output array: what the pipeline leaves there. -/
theorem U3_self (c : Dev nD) : U3 m c main_v15 = x3 m c := by unfold U3; exact Function.update_self _ _ _
theorem U5_self (c : Dev nD) : U5 m c main_v30 = x5 m c := by unfold U5; exact Function.update_self _ _ _
theorem U7_self (c : Dev nD) : U7 m c main_v45 = x7 m c := by unfold U7; exact Function.update_self _ _ _
theorem U9_self (c : Dev nD) : U9 m c main_v60 = x9 m c := by unfold U9; exact Function.update_self _ _ _

theorem V3_eq (c : Dev nD) : V3 m (outs m) c = U3 m c := by
  show Function.update (V2 m c) main_v15 (outs m 3 main_v15 c) = _
  rw [outs_3, U3_self]; rfl
theorem V4_eq (c : Dev nD) : V4 m (outs m) c = T4 m c := by
  show StableHlo.after hostOps1 (V3 m (outs m) c) = _
  rw [V3_eq]
theorem V5_eq (c : Dev nD) : V5 m (outs m) c = U5 m c := by
  show Function.update (V4 m (outs m) c) main_v30 (outs m 5 main_v30 c) = _
  rw [V4_eq, outs_5, U5_self]; rfl
theorem V6_eq (c : Dev nD) : V6 m (outs m) c = T6 m c := by
  show StableHlo.after hostOps2 (V5 m (outs m) c) = _
  rw [V5_eq]
theorem V7_eq (c : Dev nD) : V7 m (outs m) c = U7 m c := by
  show Function.update (V6 m (outs m) c) main_v45 (outs m 7 main_v45 c) = _
  rw [V6_eq, outs_7, U7_self]; rfl
theorem V8_eq (c : Dev nD) : V8 m (outs m) c = T8 m c := by
  show StableHlo.after hostOps3 (V7 m (outs m) c) = _
  rw [V7_eq]
theorem V9_eq (c : Dev nD) : V9 m (outs m) c = U9 m c := by
  show Function.update (V8 m (outs m) c) main_v60 (outs m 9 main_v60 c) = _
  rw [V8_eq, outs_9, U9_self]; rfl

/-- The result buffer at the end is what region 3 leaves. -/
theorem outs9 (c : Dev nD) : outs m 9 main_v60 c = x9 m c := (outs_9 m main_v60 c).trans (U9_self m c)

end Cert.Kernel.Fr

end
-- ==== Proof.K.Run.lean ====
/-
  The frame of the whole program: @main is host stretches and four kernel regions in turn. Each region is a segment
  over the thread state "every unscoped buffer of the core at the boundary's contents (Fold), the generator register at
  some state, nothing owed": at its entry the region's arrays are split out of the unscoped buffers, at its exit they are
  put back with the output array at what the pipeline's write-backs left. Region 2 hands one array to two input
  windows, which hold it at complementary halves of the full share. The host stretches, the chaining and the launch
  are the conditional frame's.
-/
import proofs.«147368_j81793357185798_1_alg».proof.Proof.K.Fold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 4) → (c : Dev nD) → Dat τ (Elt F) Unit ℕ (UR sig nD τ) ℕ (cfgs p) c
  | ⟨0, _⟩ => fun c => dat0 (onRefs (T2 m)) c
  | ⟨1, _⟩ => fun c => dat1 (onRefs (T4 m)) c
  | ⟨2, _⟩ => fun c => dat2 (onRefs (T6 m)) c
  | ⟨3, _⟩ => fun c => dat3 (onRefs (T8 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)

/-! ## Region 0 -/

/-- Region 0's exit contents off its output array are its entry contents. -/
theorem U3_of (c : Dev nD) (r : Ref sig .tc) (h : r ≠ main_v15) : U3 m c r = T2 m c r := by
  unfold U3; exact Function.update_of_ne (StableHlo.devRef_ne_of_ne h) _ _

/-- At region 0's exit each of its arrays holds what the pipeline leaves: an input its entry contents, the output
    what the write-backs left. -/
theorem hF0 (c : Dev nD) (w : Fin cfg0.W) :
    (dat0 (onRefs (T2 m)) c).arrAt w cfg0.N = onRefs (U3 m) c (Pipeline.arrRef spec0 w) := by
  match w with
  | ⟨0, _⟩ => exact (((dat0 (onRefs (T2 m)) c).arrAt_in 0 rfl _).trans (A_eq0 (onRefs (T2 m)) c 0)).trans (U3_of m c main_arg0 (by decide)).symm
  | ⟨1, _⟩ => exact (((dat0 (onRefs (T2 m)) c).arrAt_in 1 rfl _).trans (A_eq0 (onRefs (T2 m)) c 1)).trans (U3_of m c main_arg2 (by decide)).symm
  | ⟨2, _⟩ => exact (U3_self m c).symm
/-- Every other buffer holds what it held at entry. -/
theorem hrest0 (c : Dev nD) : ∀ b, b ∉ Finset.univ.image (Pipeline.arrRef spec0) → onRefs (U3 m) c b = onRefs (T2 m) c b :=
  fun b hb => U3_of m c b fun e => by subst e; exact hb (Finset.mem_image.mpr ⟨2, Finset.mem_univ _, rfl⟩)

set_option backward.isDefEq.respectTransparency.types false in
/-- Region 0 over the thread state "every unscoped buffer at the boundary's contents, the generator register at
    some state, nothing owed": entered at `T2`, left at `U3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (onRefs (T2 m)) c).loose
  hwaits := Pipeline.hwaits_of_owed_zero _ _ _ _ L lv 0 fun _ _ => rfl
  pre c := iprop(StableHlo.held (c : Thread nD τ) (Pipeline.ucRefs τ sig) (T2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec0 c (onRefs (T2 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (onRefs (T2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (onRefs (T2 m) c) (onRefs (U3 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Region 1's exit contents off its output array are its entry contents. -/
theorem U5_of (c : Dev nD) (r : Ref sig .tc) (h : r ≠ main_v30) : U5 m c r = T4 m c r := by
  unfold U5; exact Function.update_of_ne (StableHlo.devRef_ne_of_ne h) _ _

set_option maxHeartbeats 2000000 in
/-- At region 1's exit each of its arrays holds what the pipeline leaves: an input its entry contents, the output
    what the write-backs left. -/
theorem hF1 (c : Dev nD) (w : Fin cfg1.W) :
    (dat1 (onRefs (T4 m)) c).arrAt w cfg1.N = onRefs (U5 m) c (Pipeline.arrRef spec1 w) := by
  match w with
  | ⟨0, _⟩ => exact (((dat1 (onRefs (T4 m)) c).arrAt_in 0 rfl _).trans (A_eq1 (onRefs (T4 m)) c 0)).trans (U5_of m c main_v28 (by decide)).symm
  | ⟨1, _⟩ => exact (((dat1 (onRefs (T4 m)) c).arrAt_in 1 rfl _).trans (A_eq1 (onRefs (T4 m)) c 1)).trans (U5_of m c main_v15 (by decide)).symm
  | ⟨2, _⟩ => exact (((dat1 (onRefs (T4 m)) c).arrAt_in 2 rfl _).trans (A_eq1 (onRefs (T4 m)) c 2)).trans (U5_of m c main_arg3 (by decide)).symm
  | ⟨3, _⟩ => exact (((dat1 (onRefs (T4 m)) c).arrAt_in 3 rfl _).trans (A_eq1 (onRefs (T4 m)) c 3)).trans (U5_of m c main_v29 (by decide)).symm
  | ⟨4, _⟩ => exact (((dat1 (onRefs (T4 m)) c).arrAt_in 4 rfl _).trans (A_eq1 (onRefs (T4 m)) c 4)).trans (U5_of m c main_arg5 (by decide)).symm
  | ⟨5, _⟩ => exact (((dat1 (onRefs (T4 m)) c).arrAt_in 5 rfl _).trans (A_eq1 (onRefs (T4 m)) c 5)).trans (U5_of m c main_arg0 (by decide)).symm
  | ⟨6, _⟩ => exact (U5_self m c).symm
/-- Every other buffer holds what it held at entry. -/
theorem hrest1 (c : Dev nD) : ∀ b, b ∉ Finset.univ.image (Pipeline.arrRef spec1) → onRefs (U5 m) c b = onRefs (T4 m) c b :=
  fun b hb => U5_of m c b fun e => by subst e; exact hb (Finset.mem_image.mpr ⟨6, Finset.mem_univ _, rfl⟩)

set_option backward.isDefEq.respectTransparency.types false in
/-- Region 1 over the thread state "every unscoped buffer at the boundary's contents, the generator register at
    some state, nothing owed": entered at `T4`, left at `U5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (onRefs (T4 m)) c).loose
  hwaits := Pipeline.hwaits_of_owed_zero _ _ _ _ L lv 1 fun _ _ => rfl
  pre c := iprop(StableHlo.held (c : Thread nD τ) (Pipeline.ucRefs τ sig) (T4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (onRefs (T4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (onRefs (T4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (onRefs (T4 m) c) (onRefs (U5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Region 2's exit contents off its output array are its entry contents. -/
theorem U7_of (c : Dev nD) (r : Ref sig .tc) (h : r ≠ main_v45) : U7 m c r = T6 m c r := by
  unfold U7; exact Function.update_of_ne (StableHlo.devRef_ne_of_ne h) _ _

set_option maxHeartbeats 2000000 in
/-- At region 2's exit each of its arrays holds what the pipeline leaves: an input its entry contents, the output
    what the write-backs left. -/
theorem hF2 (c : Dev nD) (w : Fin cfg2.W) :
    (dat2 (onRefs (T6 m)) c).arrAt w cfg2.N = onRefs (U7 m) c (Pipeline.arrRef spec2 w) := by
  match w with
  | ⟨0, _⟩ => exact (((dat2 (onRefs (T6 m)) c).arrAt_in 0 rfl _).trans (A_eq2 (onRefs (T6 m)) c 0)).trans (U7_of m c main_v43 (by decide)).symm
  | ⟨1, _⟩ => exact (((dat2 (onRefs (T6 m)) c).arrAt_in 1 rfl _).trans (A_eq2 (onRefs (T6 m)) c 1)).trans (U7_of m c main_v30 (by decide)).symm
  | ⟨2, _⟩ => exact (((dat2 (onRefs (T6 m)) c).arrAt_in 2 rfl _).trans (A_eq2 (onRefs (T6 m)) c 2)).trans (U7_of m c main_arg6 (by decide)).symm
  | ⟨3, _⟩ => exact (((dat2 (onRefs (T6 m)) c).arrAt_in 3 rfl _).trans (A_eq2 (onRefs (T6 m)) c 3)).trans (U7_of m c main_v44 (by decide)).symm
  | ⟨4, _⟩ => exact (((dat2 (onRefs (T6 m)) c).arrAt_in 4 rfl _).trans (A_eq2 (onRefs (T6 m)) c 4)).trans (U7_of m c main_arg8 (by decide)).symm
  | ⟨5, _⟩ => exact (((dat2 (onRefs (T6 m)) c).arrAt_in 5 rfl _).trans (A_eq2 (onRefs (T6 m)) c 5)).trans (U7_of m c main_v30 (by decide)).symm
  | ⟨6, _⟩ => exact (U7_self m c).symm
/-- Every other buffer holds what it held at entry. -/
theorem hrest2 (c : Dev nD) : ∀ b, b ∉ Finset.univ.image (Pipeline.arrRef spec2) → onRefs (U7 m) c b = onRefs (T6 m) c b :=
  fun b hb => U7_of m c b fun e => by subst e; exact hb (Finset.mem_image.mpr ⟨6, Finset.mem_univ _, rfl⟩)

set_option backward.isDefEq.respectTransparency.types false in
/-- Region 2 over the thread state "every unscoped buffer at the boundary's contents, the generator register at
    some state, nothing owed": entered at `T6`, left at `U7`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (onRefs (T6 m)) c).loose
  hwaits := Pipeline.hwaits_of_owed_zero _ _ _ _ L lv 2 fun _ _ => rfl
  pre c := iprop(StableHlo.held (c : Thread nD τ) (Pipeline.ucRefs τ sig) (T6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec2 c (onRefs (T6 m) c)
  hentry c := by
    rw [Pipeline.ownSems0_none]
    have hsplit := entry2 (onRefs (T6 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (onRefs (T6 m) c))
        ⊢ (unscopedBufs c (onRefs (U7 m) c) : sProp 𝕄) :=
      exit2 (onRefs (T6 m)) c (onRefs (U7 m) c) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- Region 3's exit contents off its output array are its entry contents. -/
theorem U9_of (c : Dev nD) (r : Ref sig .tc) (h : r ≠ main_v60) : U9 m c r = T8 m c r := by
  unfold U9; exact Function.update_of_ne (StableHlo.devRef_ne_of_ne h) _ _

set_option maxHeartbeats 2000000 in
/-- At region 3's exit each of its arrays holds what the pipeline leaves: an input its entry contents, the output
    what the write-backs left. -/
theorem hF3 (c : Dev nD) (w : Fin cfg3.W) :
    (dat3 (onRefs (T8 m)) c).arrAt w cfg3.N = onRefs (U9 m) c (Pipeline.arrRef spec3 w) := by
  match w with
  | ⟨0, _⟩ => exact (((dat3 (onRefs (T8 m)) c).arrAt_in 0 rfl _).trans (A_eq3 (onRefs (T8 m)) c 0)).trans (U9_of m c main_v58 (by decide)).symm
  | ⟨1, _⟩ => exact (((dat3 (onRefs (T8 m)) c).arrAt_in 1 rfl _).trans (A_eq3 (onRefs (T8 m)) c 1)).trans (U9_of m c main_v45 (by decide)).symm
  | ⟨2, _⟩ => exact (((dat3 (onRefs (T8 m)) c).arrAt_in 2 rfl _).trans (A_eq3 (onRefs (T8 m)) c 2)).trans (U9_of m c main_arg9 (by decide)).symm
  | ⟨3, _⟩ => exact (((dat3 (onRefs (T8 m)) c).arrAt_in 3 rfl _).trans (A_eq3 (onRefs (T8 m)) c 3)).trans (U9_of m c main_v59 (by decide)).symm
  | ⟨4, _⟩ => exact (((dat3 (onRefs (T8 m)) c).arrAt_in 4 rfl _).trans (A_eq3 (onRefs (T8 m)) c 4)).trans (U9_of m c main_arg11 (by decide)).symm
  | ⟨5, _⟩ => exact (U9_self m c).symm
/-- Every other buffer holds what it held at entry. -/
theorem hrest3 (c : Dev nD) : ∀ b, b ∉ Finset.univ.image (Pipeline.arrRef spec3) → onRefs (U9 m) c b = onRefs (T8 m) c b :=
  fun b hb => U9_of m c b fun e => by subst e; exact hb (Finset.mem_image.mpr ⟨5, Finset.mem_univ _, rfl⟩)

set_option backward.isDefEq.respectTransparency.types false in
/-- Region 3 over the thread state "every unscoped buffer at the boundary's contents, the generator register at
    some state, nothing owed": entered at `T8`, left at `U9`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (onRefs (T8 m)) c).loose
  hwaits := Pipeline.hwaits_of_owed_zero _ _ _ _ L lv 3 fun _ _ => rfl
  pre c := iprop(StableHlo.held (c : Thread nD τ) (Pipeline.ucRefs τ sig) (T8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec3 c (onRefs (T8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (onRefs (T8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (onRefs (T8 m) c) (onRefs (U9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side -/

/-- The launch element yields the pipeline library's at every staging cell. -/
theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the riding state on every core at once. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- THE FRAME at any float instance: from any memory with zero counters every weakly fair execution of @main
    terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond (F := F) (m := m) (EP := emb₁) (ι := ()) (𝒱₀ := 𝒱₀) (L := L) (lv := lv) (hL := fun _ _ => rfl) (ρ := ρ)
    (outs := outs m) (pdats := pdats m) (O₀ := 0) (G := fun _ => (BI.emp : sProp 𝕄))
    (u₀ := initOf (Pipeline.cells cfgs cellOf_inj) (Pipeline.launchToks cfgs cellOf_inj)) (hu₀ := hu₀)
    (E := fun _ c => R c) (hE0 := hE0 ρ) (hE4 := fun c => by iintro ⟨-, H⟩; iexact H)
    (R0 := reg0 m) (hpre0 := fun c => .rfl) (hpost0 := fun c => by rw [V3_eq]; exact .rfl)
    (R1 := reg1 m) (hpre1 := fun c => by rw [V4_eq]; exact .rfl) (hpost1 := fun c => by rw [V5_eq]; exact .rfl)
    (R2 := reg2 m) (hpre2 := fun c => by rw [V6_eq]; exact .rfl) (hpost2 := fun c => by rw [V7_eq]; exact .rfl)
    (R3 := reg3 m) (hpre3 := fun c => by rw [V8_eq]; exact .rfl) (hpost3 := fun c => by rw [V9_eq]; exact .rfl)

end Cert.Kernel.Fr

end
-- ==== Proof.KI.Reg0.lean ====
/-
  Region 0, the input projection: at grid point t the body loads rows 2000·t … 2000·t + 1999 of the feature array
  (window 0) and the whole weight matrix (window 1), and stores their product x · wᵀ over the whole block of the
  output window 2. Here, at any float instance and at any contents `V` of the buffers when the region is entered:
  what each window's block holds at a point, what the body leaves in the output's staging buffer, the body's
  triple, the pipeline's proof data, and the body obligation at every point.
-/
import proofs.«147368_j81793357185798_1_alg».proof.Proof.Gen.KernelIdeal.Launch
import proofs.«147368_j81793357185798_1_alg».proof.Proof.Gen.KernelIdeal.Skeleton
import proofs.«147368_j81793357185798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of the feature and output windows, and the whole weight matrix. -/
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

/-- What the body leaves in the output's staging buffer: its one store, over the whole block, of the payload of the
    two loaded blocks. -/
def out0_2 (x0 : Vec F S2000x128 .f32) (x1 : Vec F S128x128 .f32) : Vec F S2000x128 .f32 :=
  View.canon [⟨r0_x, k0_pay1 (View.ld x0 r0_x) (View.ld x1 r0_w)⟩]

/-- The one store covers the buffer. -/
theorem cover0_2 (p0 : Vec F S2000x128 .f32) (y : S2000x128.Idx) :
    ∃ pc ∈ ([⟨r0_x, p0⟩] : List (View.Piece (Elt F) S2000x128 .f32)), y ∈ pc.1.set :=
  View.cover_of_tiled [⟨r0_x, p0⟩] S2000x128.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1, the first middle layer: at grid point t the body loads rows 2000·t … 2000·t + 1999 of the neighbour mean
  (window 0), of the projected features (window 1) and of the residual (window 5), and the whole of the two weight
  matrices (windows 2 and 4) and of the bias row (window 3), and stores
  max (mean · wlᵀ + bias + h · wrᵀ) 0 + residual over the whole block of the output window 6. Here, at any float
  instance and at any contents `V` of the buffers when the region is entered: what each window's block holds at a
  point, what the body leaves in the output's staging buffer, the body's triple, the pipeline's proof data, and the
  body obligation at every point.
-/
import proofs.«147368_j81793357185798_1_alg».proof.Proof.Gen.KernelIdeal.Launch
import proofs.«147368_j81793357185798_1_alg».proof.Proof.Gen.KernelIdeal.Skeleton
import proofs.«147368_j81793357185798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole block of a row window, a whole weight matrix, and the whole bias row. -/
abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

/-- What the body leaves in the output's staging buffer: its one store, over the whole block, of the payload of the
    six loaded blocks (the blocks in window order: mean, features, left weights, bias, right weights, residual). -/
def out1_6 (x0 x1 : Vec F S2000x128 .f32) (x2 : Vec F S128x128 .f32) (x3 : Vec F S1x128 .f32) (x4 : Vec F S128x128 .f32)
    (x5 : Vec F S2000x128 .f32) : Vec F S2000x128 .f32 :=
  View.canon [⟨r1_x, k1_pay1 (View.ld x0 r1_x) (View.ld x2 r1_w) (View.ld x3 r1_b) (View.ld x1 r1_x) (View.ld x4 r1_w) (View.ld x5 r1_x)⟩]

/-- The one store covers the buffer. -/
theorem cover1_6 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 2000000 in
/-- The body on whole staging memrefs, the inputs' at contents `x0` … `x5` and the output's at anything, runs to the
    continuation holding the inputs' as they were and the output's at `out1_6 x0 x1 x2 x3 x4 x5`. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (arg7 : Memref sig .tc .vmem S2000x128 .f32) (harg7 : arg7.IsWhole)
    (x0 x1 : Vec F S2000x128 .f32) (x2 : Vec F S128x128 .f32) (x3 : Vec F S1x128 .f32) (x4 : Vec F S128x128 .f32)
    (x5 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_mid_kernel i arg1 harg1 arg2 harg2 arg3 harg3 arg4 harg4 arg5 harg5 arg6 harg6 arg7 harg7) K := by
  simp only [cc1__sage_mid_kernel_eq_skeleton]; unfold cc1__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block and the output's at `out1_6` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t)
    (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  Region 2, the second middle layer: at grid point t the body loads rows 2000·t … 2000·t + 1999 of the mean array
  (window 0), of the hidden array (window 1) and of the residual (window 5, the same array as window 1), the two
  whole weight matrices (windows 2 and 4) and the bias row (window 3), and stores
  max(mean · wlᵀ + bias + h · wrᵀ, 0) + residual over the whole block of the output window 6. Here, at any float
  instance and at any contents `V` of the buffers when the region is entered: what each window's block holds at a
  point, what the body leaves in the output's staging buffer, the body's triple, the pipeline's proof data (windows 1
  and 5 each hold one half of the share of their common array), the body obligation at every point, and the passage
  between the region's unscoped buffers and the windows' arrays at entry and exit.
-/
import proofs.«147368_j81793357185798_1_alg».proof.Proof.Gen.KernelIdeal.Launch
import proofs.«147368_j81793357185798_1_alg».proof.Proof.Gen.KernelIdeal.Skeleton
import proofs.«147368_j81793357185798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole block of a row window, a whole weight matrix, and the whole bias row. -/
abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- What the body leaves in the output's staging buffer: its one store, over the whole block, of the payload of the
    six loaded blocks. -/
def out2_6 (x0 x1 : Vec F S2000x128 .f32) (x2 : Vec F S128x128 .f32) (x3 : Vec F S1x128 .f32) (x4 : Vec F S128x128 .f32)
    (x5 : Vec F S2000x128 .f32) : Vec F S2000x128 .f32 :=
  View.canon [⟨r2_x, k2_pay1 (View.ld x0 r2_x) (View.ld x2 r2_w) (View.ld x3 r2_b) (View.ld x1 r2_x) (View.ld x4 r2_w) (View.ld x5 r2_x)⟩]

/-- The one store covers the buffer. -/
theorem cover2_6 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole staging memrefs, the inputs' at contents `x0` … `x5` and the output's at anything, runs to the
    continuation holding the inputs' as they were and the output's at `out2_6 x0 … x5`. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
    (arg6 : Memref sig .tc .vmem S2000x128 .f32) (harg6 : arg6.IsWhole) (arg7 : Memref sig .tc .vmem S2000x128 .f32) (harg7 : arg7.IsWhole)
    (x0 x1 : Vec F S2000x128 .f32) (x2 : Vec F S128x128 .f32) (x3 : Vec F S1x128 .f32) (x4 : Vec F S128x128 .f32)
    (x5 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__sage_mid_kernel i arg1 harg1 arg2 harg2 arg3 harg3 arg4 harg4 arg5 harg5 arg6 harg6 arg7 harg7) K := by
  simp only [cc2__sage_mid_kernel_eq_skeleton]; unfold cc2__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`: the arrays as the region finds them; after the body at point `t` each
    input's buffer at its block and the output's at `out2_6` of the input blocks; the invariant the scoped rest and the
    generator register, untouched; nothing owed; full shares, but for windows 1 and 5, which read one array and hold
    the left and the right half of its share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨1, _⟩ => fullShare.left
    | ⟨5, _⟩ => fullShare.right
    | ⟨0, _⟩ => fullShare
    | ⟨2, _⟩ => fullShare
    | ⟨3, _⟩ => fullShare
    | ⟨4, _⟩ => fullShare
    | ⟨6, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t)
    (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entry and exit: the unscoped buffers and the windows' arrays

The seven windows stand on six buffers, windows 1 and 5 on one. At entry that buffer, whole at the full share, is
split into its left and right halves, one for each of the two windows; at exit both halves hold the same contents
and join back. -/

/-- The region's unscoped buffers are the buffers behind the windows' arrays and the rest. -/
theorem split2 (c : Dev nD) (V₁ : (b : Ref sig .tc) → Buf (Elt F) ((c : Thread nD τ).loc b)) :
    (unscopedBufs c V₁ : sProp 𝕄)
      = iprop(Pipeline.arrBufs spec2 c V₁ ∗ Pipeline.unscopedRest (Ix := Unit) (Name := ℕ) (U := UR sig nD τ) (Lvl := ℕ) spec2 c V₁) :=
  Pipeline.unscopedBufs_split₀ (fun _ : Unit => cfg2) () winFacts₀2.arr_unscoped c V₁

/-- The buffers behind the windows' arrays, one by one: six of them. -/
theorem arrBufs2_eq (c : Dev nD) (V₁ : (b : Ref sig .tc) → Buf (Elt F) ((c : Thread nD τ).loc b)) :
    (Pipeline.arrBufs spec2 c V₁ : sProp 𝕄)
      = iprop((((c : Thread nD τ).loc main_v43) ↦{fullShare} V₁ main_v43) ∗ (((c : Thread nD τ).loc main_v30) ↦{fullShare} V₁ main_v30)
        ∗ (((c : Thread nD τ).loc main_arg6) ↦{fullShare} V₁ main_arg6) ∗ (((c : Thread nD τ).loc main_v44) ↦{fullShare} V₁ main_v44)
        ∗ (((c : Thread nD τ).loc main_arg8) ↦{fullShare} V₁ main_arg8) ∗ (((c : Thread nD τ).loc main_v45) ↦{fullShare} V₁ main_v45)) := by
  unfold Pipeline.arrBufs
  rw [bigSep_eq_bigSepL_of_eq [main_v43, main_v30, main_arg6, main_v44, main_arg8, main_v45] (by decide) (by decide)]
  rfl

/-- The windows' arrays at contents `G`, one by one: each a whole buffer, windows 1 and 5 at the two halves. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v43) ↦{fullShare} G 0) ∗ (((c : Thread nD τ).loc main_v30) ↦{fullShare.left} G 1)
        ∗ (((c : Thread nD τ).loc main_arg6) ↦{fullShare} G 2) ∗ (((c : Thread nD τ).loc main_v44) ↦{fullShare} G 3)
        ∗ (((c : Thread nD τ).loc main_arg8) ↦{fullShare} G 4) ∗ (((c : Thread nD τ).loc main_v30) ↦{fullShare.right} G 5)
        ∗ (((c : Thread nD τ).loc main_v45) ↦{fullShare} G 6)) := by
  have h : ((dat2 V c).arrays G : sProp 𝕄)
      = bigSep Finset.univ fun w : Fin cfg2.W => (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY: the unscoped buffers at `V` are the windows' arrays at the proof data's entry contents and the rest. -/
theorem entry2 (c : Dev nD) :
    (unscopedBufs c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [split2, arrBufs2_eq, arrays2_eq]
  rw [show (dat2 V c).arrAt 0 0 = V c main_v43 from rfl, show (dat2 V c).arrAt 1 0 = V c main_v30 from rfl,
    show (dat2 V c).arrAt 2 0 = V c main_arg6 from rfl, show (dat2 V c).arrAt 3 0 = V c main_v44 from rfl,
    show (dat2 V c).arrAt 4 0 = V c main_arg8 from rfl, show (dat2 V c).arrAt 5 0 = V c main_v30 from rfl,
    show (dat2 V c).arrAt 6 0 = V c main_v45 from rfl]
  iintro ⟨⟨H0, H1, H2, H3, H4, H6⟩, Hrest⟩
  ihave H15 := (pointsTo_share (PosShare.mem_left_op_right fullShare)).1 $$ H1
  icases H15 with ⟨H1, H5⟩
  isplitr [Hrest]
  · isplitl [H0]; · iexact H0
    isplitl [H1]; · iexact H1
    isplitl [H2]; · iexact H2
    isplitl [H3]; · iexact H3
    isplitl [H4]; · iexact H4
    isplitl [H5]; · iexact H5
    iexact H6
  · iexact Hrest

/-- EXIT: the windows' arrays at what the pipeline leaves and the rest at `V` are the unscoped buffers at any `V'` that
    has the arrays at those contents and agrees with `V` off them. -/
theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs c V' : sProp 𝕄) := by
  have hr : (Pipeline.unscopedRest (Ix := Unit) (Name := ℕ) (U := UR sig nD τ) (Lvl := ℕ) spec2 c (V c) : sProp 𝕄)
      = Pipeline.unscopedRest (Ix := Unit) (Name := ℕ) (U := UR sig nD τ) (Lvl := ℕ) spec2 c V' := by
    unfold Pipeline.unscopedRest
    exact bigSep_congr fun b hb => by rw [hrest b (Finset.mem_sdiff.mp hb).2]
  rw [split2, arrBufs2_eq, arrays2_eq, hr]
  rw [hF 0, hF 1, hF 2, hF 3, hF 4, hF 5, hF 6]
  iintro ⟨⟨H0, H1, H2, H3, H4, H5, H6⟩, Hrest⟩
  isplitr [Hrest]
  · isplitl [H0]; · iexact H0
    isplitl [H1 H5]
    · iapply (pointsTo_share (PosShare.mem_left_op_right fullShare)).2
      isplitl [H1]; · iexact H1
      iexact H5
    isplitl [H2]; · iexact H2
    isplitl [H3]; · iexact H3
    isplitl [H4]; · iexact H4
    iexact H6
  · iexact Hrest

end Cert.KernelIdeal.Fr

end
-- ==== Proof.KI.Reg3.lean ====
/-
  Region 3, the last layer with its row normalisation: at grid point t the body loads rows 2000·t … 2000·t + 1999 of
  the neighbour means (window 0) and of the previous layer's features (window 1), the two whole weight matrices
  (windows 2 and 4) and the bias row (window 3); it forms z = mean · wlᵀ + bias + h · wrᵀ, divides every row of z by
  the larger of its Euclidean norm and a small positive constant, and stores the result over the whole block of the
  output window 5. Here, at any float instance and at any contents `V` of the buffers when the region is entered:
  what each window's block holds at a point, what the body leaves in the output's staging buffer, the body's
  triple, the pipeline's proof data, and the body obligation at every point.
-/
import proofs.«147368_j81793357185798_1_alg».proof.Proof.Gen.KernelIdeal.Launch
import proofs.«147368_j81793357185798_1_alg».proof.Proof.Gen.KernelIdeal.Skeleton
import proofs.«147368_j81793357185798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole block of a row window, a whole weight matrix, and the whole bias row. -/
abbrev r3_x : Rect S2000x128 := Rect.unit (s := S2000x128) ![0, 0] S2000x128.size inb_S2000x128_S2000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

/-- What the body leaves in the output's staging buffer: its one store, over the whole block, of the payload of the
    five loaded blocks (means, left weights, bias, features, right weights, in the payload's order). -/
def out3_5 (x0 x1 : Vec F S2000x128 .f32) (x2 : Vec F S128x128 .f32) (x3 : Vec F S1x128 .f32) (x4 : Vec F S128x128 .f32) : Vec F S2000x128 .f32 :=
  View.canon [⟨r3_x, k3_pay1 (View.ld x0 r3_x) (View.ld x2 r3_w) (View.ld x3 r3_b) (View.ld x1 r3_x) (View.ld x4 r3_w)⟩]

/-- The one store covers the buffer. -/
theorem cover3_5 (p0 : Vec F S2000x128 .f32) (y : S2000x128.Idx) :
    ∃ pc ∈ ([⟨r3_x, p0⟩] : List (View.Piece (Elt F) S2000x128 .f32)), y ∈ pc.1.set :=
  View.cover_of_tiled [⟨r3_x, p0⟩] S2000x128.size (by rfl) y

set_option maxHeartbeats 1000000 in
/-- The body on whole staging memrefs, the inputs' at contents `x0` … `x4` and the output's at anything, runs to the
    continuation holding the inputs' as they were and the output's at `out3_5 x0 x1 x2 x3 x4`. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S2000x128 .f32) (harg6 : arg6.IsWhole)
    (x0 x1 : Vec F S2000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__sage_final_kernel i arg1 harg1 arg2 harg2 arg3 harg3 arg4 harg4 arg5 harg5 arg6 harg6) K := by
  simp only [cc3__sage_final_kernel_eq_skeleton]; unfold cc3__sage_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Fold.lean ====
/-
  The buffers' contents at each boundary of @main, as a fold from the launch memory: a host stretch applies its
  operations; a kernel region changes exactly one buffer, its output array, which ends at what the pipeline's
  write-backs leave (the proof data's `arrAt` at the last point). Region 0 is entered at `T2` and left at `U3`, region 1
  at `T4` / `U5`, region 2 at `T6` / `U7`, region 3 at `T8` / `U9`. The conditional frame states its valuations over
  unknown region results `outs`; instantiated at the results named here they are these contents.
-/
import proofs.«147368_j81793357185798_1_alg».proof.Proof.KI.Reg0
import proofs.«147368_j81793357185798_1_alg».proof.Proof.KI.Reg1
import proofs.«147368_j81793357185798_1_alg».proof.Proof.KI.Reg2
import proofs.«147368_j81793357185798_1_alg».proof.Proof.KI.Reg3
import proofs.«147368_j81793357185798_1_alg».proof.Proof.Gen.KernelIdeal.Regions

set_option maxRecDepth 16384
-- one declaration at a time: each unfolds a region's proof data, and side by side they hold several gigabytes
set_option Elab.async false

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A valuation read at the TensorCore's references: what a region's proof data take. -/
abbrev onRefs (W : Dev nD → Valuation τ sig (Elt F)) : (c : Dev nD) → (b : Ref sig .tc) → Buf (Elt F) ((c : Thread nD τ).loc b) :=
  fun c b => W c b

/-- Region 0's entry: the launch memory after the two first host stretches. -/
abbrev T2 : Dev nD → Valuation τ sig (Elt F) := fun c => V2 m c
/-- What region 0 leaves in its output array. -/
def x3 (c : Dev nD) : Buf (Elt F) ((c : Thread nD τ).loc main_v15) := (dat0 (onRefs (T2 m)) c).arrAt 2 cfg0.N
/-- Region 0's exit. -/
def U3 (c : Dev nD) : Valuation τ sig (Elt F) := Function.update (T2 m c) main_v15 (x3 m c)
/-- Region 1's entry. -/
abbrev T4 : Dev nD → Valuation τ sig (Elt F) := fun c => StableHlo.after hostOps1 (U3 m c)
def x5 (c : Dev nD) : Buf (Elt F) ((c : Thread nD τ).loc main_v30) := (dat1 (onRefs (T4 m)) c).arrAt 6 cfg1.N
def U5 (c : Dev nD) : Valuation τ sig (Elt F) := Function.update (T4 m c) main_v30 (x5 m c)
/-- Region 2's entry. -/
abbrev T6 : Dev nD → Valuation τ sig (Elt F) := fun c => StableHlo.after hostOps2 (U5 m c)
def x7 (c : Dev nD) : Buf (Elt F) ((c : Thread nD τ).loc main_v45) := (dat2 (onRefs (T6 m)) c).arrAt 6 cfg2.N
def U7 (c : Dev nD) : Valuation τ sig (Elt F) := Function.update (T6 m c) main_v45 (x7 m c)
/-- Region 3's entry. -/
abbrev T8 : Dev nD → Valuation τ sig (Elt F) := fun c => StableHlo.after hostOps3 (U7 m c)
def x9 (c : Dev nD) : Buf (Elt F) ((c : Thread nD τ).loc main_v60) := (dat3 (onRefs (T8 m)) c).arrAt 5 cfg3.N
/-- The end of @main. -/
def U9 (c : Dev nD) : Valuation τ sig (Elt F) := Function.update (T8 m c) main_v60 (x9 m c)

/-- The regions' results, in the conditional frame's form: after item J − 1 the buffers hold the exit contents above. -/
def outs : Outs (F := F) := fun J r c =>
  if J = 3 then U3 m c r else if J = 5 then U5 m c r else if J = 7 then U7 m c r else U9 m c r

/-- The conditional frame's unknowns at the four items that are regions: the exit contents above. -/
theorem outs_3 (r : Ref sig .tc) (c : Dev nD) : outs m 3 r c = U3 m c r := if_pos rfl
theorem outs_5 (r : Ref sig .tc) (c : Dev nD) : outs m 5 r c = U5 m c r := (if_neg (by decide)).trans (if_pos rfl)
theorem outs_7 (r : Ref sig .tc) (c : Dev nD) : outs m 7 r c = U7 m c r :=
  (if_neg (by decide)).trans ((if_neg (by decide)).trans (if_pos rfl))
theorem outs_9 (r : Ref sig .tc) (c : Dev nD) : outs m 9 r c = U9 m c r :=
  (if_neg (by decide)).trans ((if_neg (by decide)).trans (if_neg (by decide)))

/-- A region's exit contents at its output array: what the pipeline leaves there. -/
theorem U3_self (c : Dev nD) : U3 m c main_v15 = x3 m c := by unfold U3; exact Function.update_self _ _ _
theorem U5_self (c : Dev nD) : U5 m c main_v30 = x5 m c := by unfold U5; exact Function.update_self _ _ _
theorem U7_self (c : Dev nD) : U7 m c main_v45 = x7 m c := by unfold U7; exact Function.update_self _ _ _
theorem U9_self (c : Dev nD) : U9 m c main_v60 = x9 m c := by unfold U9; exact Function.update_self _ _ _

theorem V3_eq (c : Dev nD) : V3 m (outs m) c = U3 m c := by
  show Function.update (V2 m c) main_v15 (outs m 3 main_v15 c) = _
  rw [outs_3, U3_self]; rfl
theorem V4_eq (c : Dev nD) : V4 m (outs m) c = T4 m c := by
  show StableHlo.after hostOps1 (V3 m (outs m) c) = _
  rw [V3_eq]
theorem V5_eq (c : Dev nD) : V5 m (outs m) c = U5 m c := by
  show Function.update (V4 m (outs m) c) main_v30 (outs m 5 main_v30 c) = _
  rw [V4_eq, outs_5, U5_self]; rfl
theorem V6_eq (c : Dev nD) : V6 m (outs m) c = T6 m c := by
  show StableHlo.after hostOps2 (V5 m (outs m) c) = _
  rw [V5_eq]
theorem V7_eq (c : Dev nD) : V7 m (outs m) c = U7 m c := by
  show Function.update (V6 m (outs m) c) main_v45 (outs m 7 main_v45 c) = _
  rw [V6_eq, outs_7, U7_self]; rfl
theorem V8_eq (c : Dev nD) : V8 m (outs m) c = T8 m c := by
  show StableHlo.after hostOps3 (V7 m (outs m) c) = _
  rw [V7_eq]
theorem V9_eq (c : Dev nD) : V9 m (outs m) c = U9 m c := by
  show Function.update (V8 m (outs m) c) main_v60 (outs m 9 main_v60 c) = _
  rw [V8_eq, outs_9, U9_self]; rfl

/-- The result buffer at the end is what region 3 leaves. -/
theorem outs9 (c : Dev nD) : outs m 9 main_v60 c = x9 m c := (outs_9 m main_v60 c).trans (U9_self m c)

end Cert.KernelIdeal.Fr

end
-- ==== Proof.KI.Run.lean ====
/-
  The frame of the whole program: @main is host stretches and four kernel regions in turn. Each region is a segment
  over the thread state "every unscoped buffer of the core at the boundary's contents (Fold), the generator register at
  some state, nothing owed": at its entry the region's arrays are split out of the unscoped buffers, at its exit they are
  put back with the output array at what the pipeline's write-backs left. Region 2 hands one array to two input
  windows, which hold it at complementary halves of the full share. The host stretches, the chaining and the launch
  are the conditional frame's.
-/
import proofs.«147368_j81793357185798_1_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 4) → (c : Dev nD) → Dat τ (Elt F) Unit ℕ (UR sig nD τ) ℕ (cfgs p) c
  | ⟨0, _⟩ => fun c => dat0 (onRefs (T2 m)) c
  | ⟨1, _⟩ => fun c => dat1 (onRefs (T4 m)) c
  | ⟨2, _⟩ => fun c => dat2 (onRefs (T6 m)) c
  | ⟨3, _⟩ => fun c => dat3 (onRefs (T8 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)

/-! ## Region 0 -/

/-- Region 0's exit contents off its output array are its entry contents. -/
theorem U3_of (c : Dev nD) (r : Ref sig .tc) (h : r ≠ main_v15) : U3 m c r = T2 m c r := by
  unfold U3; exact Function.update_of_ne (StableHlo.devRef_ne_of_ne h) _ _

/-- At region 0's exit each of its arrays holds what the pipeline leaves: an input its entry contents, the output
    what the write-backs left. -/
theorem hF0 (c : Dev nD) (w : Fin cfg0.W) :
    (dat0 (onRefs (T2 m)) c).arrAt w cfg0.N = onRefs (U3 m) c (Pipeline.arrRef spec0 w) := by
  match w with
  | ⟨0, _⟩ => exact (((dat0 (onRefs (T2 m)) c).arrAt_in 0 rfl _).trans (A_eq0 (onRefs (T2 m)) c 0)).trans (U3_of m c main_arg0 (by decide)).symm
  | ⟨1, _⟩ => exact (((dat0 (onRefs (T2 m)) c).arrAt_in 1 rfl _).trans (A_eq0 (onRefs (T2 m)) c 1)).trans (U3_of m c main_arg2 (by decide)).symm
  | ⟨2, _⟩ => exact (U3_self m c).symm
/-- Every other buffer holds what it held at entry. -/
theorem hrest0 (c : Dev nD) : ∀ b, b ∉ Finset.univ.image (Pipeline.arrRef spec0) → onRefs (U3 m) c b = onRefs (T2 m) c b :=
  fun b hb => U3_of m c b fun e => by subst e; exact hb (Finset.mem_image.mpr ⟨2, Finset.mem_univ _, rfl⟩)

set_option backward.isDefEq.respectTransparency.types false in
/-- Region 0 over the thread state "every unscoped buffer at the boundary's contents, the generator register at
    some state, nothing owed": entered at `T2`, left at `U3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (onRefs (T2 m)) c).loose
  hwaits := Pipeline.hwaits_of_owed_zero _ _ _ _ L lv 0 fun _ _ => rfl
  pre c := iprop(StableHlo.held (c : Thread nD τ) (Pipeline.ucRefs τ sig) (T2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec0 c (onRefs (T2 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (onRefs (T2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (onRefs (T2 m) c) (onRefs (U3 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Region 1's exit contents off its output array are its entry contents. -/
theorem U5_of (c : Dev nD) (r : Ref sig .tc) (h : r ≠ main_v30) : U5 m c r = T4 m c r := by
  unfold U5; exact Function.update_of_ne (StableHlo.devRef_ne_of_ne h) _ _

set_option maxHeartbeats 2000000 in
/-- At region 1's exit each of its arrays holds what the pipeline leaves: an input its entry contents, the output
    what the write-backs left. -/
theorem hF1 (c : Dev nD) (w : Fin cfg1.W) :
    (dat1 (onRefs (T4 m)) c).arrAt w cfg1.N = onRefs (U5 m) c (Pipeline.arrRef spec1 w) := by
  match w with
  | ⟨0, _⟩ => exact (((dat1 (onRefs (T4 m)) c).arrAt_in 0 rfl _).trans (A_eq1 (onRefs (T4 m)) c 0)).trans (U5_of m c main_v28 (by decide)).symm
  | ⟨1, _⟩ => exact (((dat1 (onRefs (T4 m)) c).arrAt_in 1 rfl _).trans (A_eq1 (onRefs (T4 m)) c 1)).trans (U5_of m c main_v15 (by decide)).symm
  | ⟨2, _⟩ => exact (((dat1 (onRefs (T4 m)) c).arrAt_in 2 rfl _).trans (A_eq1 (onRefs (T4 m)) c 2)).trans (U5_of m c main_arg3 (by decide)).symm
  | ⟨3, _⟩ => exact (((dat1 (onRefs (T4 m)) c).arrAt_in 3 rfl _).trans (A_eq1 (onRefs (T4 m)) c 3)).trans (U5_of m c main_v29 (by decide)).symm
  | ⟨4, _⟩ => exact (((dat1 (onRefs (T4 m)) c).arrAt_in 4 rfl _).trans (A_eq1 (onRefs (T4 m)) c 4)).trans (U5_of m c main_arg5 (by decide)).symm
  | ⟨5, _⟩ => exact (((dat1 (onRefs (T4 m)) c).arrAt_in 5 rfl _).trans (A_eq1 (onRefs (T4 m)) c 5)).trans (U5_of m c main_arg0 (by decide)).symm
  | ⟨6, _⟩ => exact (U5_self m c).symm
/-- Every other buffer holds what it held at entry. -/
theorem hrest1 (c : Dev nD) : ∀ b, b ∉ Finset.univ.image (Pipeline.arrRef spec1) → onRefs (U5 m) c b = onRefs (T4 m) c b :=
  fun b hb => U5_of m c b fun e => by subst e; exact hb (Finset.mem_image.mpr ⟨6, Finset.mem_univ _, rfl⟩)

set_option backward.isDefEq.respectTransparency.types false in
/-- Region 1 over the thread state "every unscoped buffer at the boundary's contents, the generator register at
    some state, nothing owed": entered at `T4`, left at `U5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (onRefs (T4 m)) c).loose
  hwaits := Pipeline.hwaits_of_owed_zero _ _ _ _ L lv 1 fun _ _ => rfl
  pre c := iprop(StableHlo.held (c : Thread nD τ) (Pipeline.ucRefs τ sig) (T4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (onRefs (T4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (onRefs (T4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (onRefs (T4 m) c) (onRefs (U5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Region 2's exit contents off its output array are its entry contents. -/
theorem U7_of (c : Dev nD) (r : Ref sig .tc) (h : r ≠ main_v45) : U7 m c r = T6 m c r := by
  unfold U7; exact Function.update_of_ne (StableHlo.devRef_ne_of_ne h) _ _

set_option maxHeartbeats 2000000 in
/-- At region 2's exit each of its arrays holds what the pipeline leaves: an input its entry contents, the output
    what the write-backs left. -/
theorem hF2 (c : Dev nD) (w : Fin cfg2.W) :
    (dat2 (onRefs (T6 m)) c).arrAt w cfg2.N = onRefs (U7 m) c (Pipeline.arrRef spec2 w) := by
  match w with
  | ⟨0, _⟩ => exact (((dat2 (onRefs (T6 m)) c).arrAt_in 0 rfl _).trans (A_eq2 (onRefs (T6 m)) c 0)).trans (U7_of m c main_v43 (by decide)).symm
  | ⟨1, _⟩ => exact (((dat2 (onRefs (T6 m)) c).arrAt_in 1 rfl _).trans (A_eq2 (onRefs (T6 m)) c 1)).trans (U7_of m c main_v30 (by decide)).symm
  | ⟨2, _⟩ => exact (((dat2 (onRefs (T6 m)) c).arrAt_in 2 rfl _).trans (A_eq2 (onRefs (T6 m)) c 2)).trans (U7_of m c main_arg6 (by decide)).symm
  | ⟨3, _⟩ => exact (((dat2 (onRefs (T6 m)) c).arrAt_in 3 rfl _).trans (A_eq2 (onRefs (T6 m)) c 3)).trans (U7_of m c main_v44 (by decide)).symm
  | ⟨4, _⟩ => exact (((dat2 (onRefs (T6 m)) c).arrAt_in 4 rfl _).trans (A_eq2 (onRefs (T6 m)) c 4)).trans (U7_of m c main_arg8 (by decide)).symm
  | ⟨5, _⟩ => exact (((dat2 (onRefs (T6 m)) c).arrAt_in 5 rfl _).trans (A_eq2 (onRefs (T6 m)) c 5)).trans (U7_of m c main_v30 (by decide)).symm
  | ⟨6, _⟩ => exact (U7_self m c).symm
/-- Every other buffer holds what it held at entry. -/
theorem hrest2 (c : Dev nD) : ∀ b, b ∉ Finset.univ.image (Pipeline.arrRef spec2) → onRefs (U7 m) c b = onRefs (T6 m) c b :=
  fun b hb => U7_of m c b fun e => by subst e; exact hb (Finset.mem_image.mpr ⟨6, Finset.mem_univ _, rfl⟩)

set_option backward.isDefEq.respectTransparency.types false in
/-- Region 2 over the thread state "every unscoped buffer at the boundary's contents, the generator register at
    some state, nothing owed": entered at `T6`, left at `U7`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (onRefs (T6 m)) c).loose
  hwaits := Pipeline.hwaits_of_owed_zero _ _ _ _ L lv 2 fun _ _ => rfl
  pre c := iprop(StableHlo.held (c : Thread nD τ) (Pipeline.ucRefs τ sig) (T6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec2 c (onRefs (T6 m) c)
  hentry c := by
    rw [Pipeline.ownSems0_none]
    have hsplit := entry2 (onRefs (T6 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (onRefs (T6 m) c))
        ⊢ (unscopedBufs c (onRefs (U7 m) c) : sProp 𝕄) :=
      exit2 (onRefs (T6 m)) c (onRefs (U7 m) c) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- Region 3's exit contents off its output array are its entry contents. -/
theorem U9_of (c : Dev nD) (r : Ref sig .tc) (h : r ≠ main_v60) : U9 m c r = T8 m c r := by
  unfold U9; exact Function.update_of_ne (StableHlo.devRef_ne_of_ne h) _ _

set_option maxHeartbeats 2000000 in
/-- At region 3's exit each of its arrays holds what the pipeline leaves: an input its entry contents, the output
    what the write-backs left. -/
theorem hF3 (c : Dev nD) (w : Fin cfg3.W) :
    (dat3 (onRefs (T8 m)) c).arrAt w cfg3.N = onRefs (U9 m) c (Pipeline.arrRef spec3 w) := by
  match w with
  | ⟨0, _⟩ => exact (((dat3 (onRefs (T8 m)) c).arrAt_in 0 rfl _).trans (A_eq3 (onRefs (T8 m)) c 0)).trans (U9_of m c main_v58 (by decide)).symm
  | ⟨1, _⟩ => exact (((dat3 (onRefs (T8 m)) c).arrAt_in 1 rfl _).trans (A_eq3 (onRefs (T8 m)) c 1)).trans (U9_of m c main_v45 (by decide)).symm
  | ⟨2, _⟩ => exact (((dat3 (onRefs (T8 m)) c).arrAt_in 2 rfl _).trans (A_eq3 (onRefs (T8 m)) c 2)).trans (U9_of m c main_arg9 (by decide)).symm
  | ⟨3, _⟩ => exact (((dat3 (onRefs (T8 m)) c).arrAt_in 3 rfl _).trans (A_eq3 (onRefs (T8 m)) c 3)).trans (U9_of m c main_v59 (by decide)).symm
  | ⟨4, _⟩ => exact (((dat3 (onRefs (T8 m)) c).arrAt_in 4 rfl _).trans (A_eq3 (onRefs (T8 m)) c 4)).trans (U9_of m c main_arg11 (by decide)).symm
  | ⟨5, _⟩ => exact (U9_self m c).symm
/-- Every other buffer holds what it held at entry. -/
theorem hrest3 (c : Dev nD) : ∀ b, b ∉ Finset.univ.image (Pipeline.arrRef spec3) → onRefs (U9 m) c b = onRefs (T8 m) c b :=
  fun b hb => U9_of m c b fun e => by subst e; exact hb (Finset.mem_image.mpr ⟨5, Finset.mem_univ _, rfl⟩)

set_option backward.isDefEq.respectTransparency.types false in
/-- Region 3 over the thread state "every unscoped buffer at the boundary's contents, the generator register at
    some state, nothing owed": entered at `T8`, left at `U9`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (onRefs (T8 m)) c).loose
  hwaits := Pipeline.hwaits_of_owed_zero _ _ _ _ L lv 3 fun _ _ => rfl
  pre c := iprop(StableHlo.held (c : Thread nD τ) (Pipeline.ucRefs τ sig) (T8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec3 c (onRefs (T8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (onRefs (T8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (onRefs (T8 m) c) (onRefs (U9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side -/

/-- The launch element yields the pipeline library's at every staging cell. -/
theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the riding state on every core at once. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- THE FRAME at any float instance: from any memory with zero counters every weakly fair execution of @main
    terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond (F := F) (m := m) (EP := emb₁) (ι := ()) (𝒱₀ := 𝒱₀) (L := L) (lv := lv) (hL := fun _ _ => rfl) (ρ := ρ)
    (outs := outs m) (pdats := pdats m) (O₀ := 0) (G := fun _ => (BI.emp : sProp 𝕄))
    (u₀ := initOf (Pipeline.cells cfgs cellOf_inj) (Pipeline.launchToks cfgs cellOf_inj)) (hu₀ := hu₀)
    (E := fun _ c => R c) (hE0 := hE0 ρ) (hE4 := fun c => by iintro ⟨-, H⟩; iexact H)
    (R0 := reg0 m) (hpre0 := fun c => .rfl) (hpost0 := fun c => by rw [V3_eq]; exact .rfl)
    (R1 := reg1 m) (hpre1 := fun c => by rw [V4_eq]; exact .rfl) (hpost1 := fun c => by rw [V5_eq]; exact .rfl)
    (R2 := reg2 m) (hpre2 := fun c => by rw [V6_eq]; exact .rfl) (hpost2 := fun c => by rw [V7_eq]; exact .rfl)
    (R3 := reg3 m) (hpre3 := fun c => by rw [V8_eq]; exact .rfl) (hpost3 := fun c => by rw [V9_eq]; exact .rfl)

end Cert.KernelIdeal.Fr

end
-- ==== Proof.KI.RunV.lean ====
/-
  The conditional run of the whole program with the result read: given one segment record per kernel region, every
  weakly fair execution of @main terminates, every argument array ends as launched, and the result buffer `main_v60`
  ends holding what region 3 leaves in it (`outs 9 main_v60 c`) — read off the last valuation, where the final
  `Function.update` put it.
-/
import proofs.«147368_j81793357185798_1_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- `θ_run_regions_kit_dev`'s implicit arguments are found by unifying its conclusion with this one, which takes unfolding
-- plain definitions in a metavariable's type
set_option backward.isDefEq.respectTransparency.types false in
/-- THE CONDITIONAL RUN, THE RESULT READ TOO: the result buffer `main_v60` holds what region 3 leaves, `outs 9 main_v60 c`. For any user algebra, level assignment, launch dues and ghost resources, any rest states
    `E` the launch makes on every core at once (`hE0`) and that end owing nothing (`hE4`), any contents the regions
    leave (`outs`) and any proof data: GIVEN, per region K, a segment record entered from this module's thread state
    before it and left at the one after it (`RK`, `hpreK`, `hpostK`), every weakly fair execution of @main from memory `m`
    with zero counters terminates and every final memory holds each argument as launched (the post claims.py's frame
    claim states, at any `F`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c)) :
    θ_run defs (onTc (τ := τ) (main (F := F))) ⟨m, fun _ => 0, ρ⟩ (fun r => ∀ c : Dev nD,
      r.2.mem ((c.tc : Thread nD τ).loc main_v60) = outs 9 main_v60 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v60) = outs 9 main_v60 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨(h (Proc.devRef .tc main_v60) (Finset.mem_filter.mpr ⟨StableHlo.devRef_mem_tcRefs main_v60, by decide⟩)).trans (Function.update_self _ _ _),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c),
        (h (Proc.devRef .tc main_arg11) (Finset.mem_filter.mpr ⟨StableHlo.devRef_mem_tcRefs main_arg11, by decide⟩)).trans (V9_main_arg11 m outs c)⟩
    · iexact HSI

end Cert.KernelIdeal.Gen

end
-- ==== Proof.KI.RunVal.lean ====
/-
  The run of the whole program with its result named: every weakly fair execution of @main terminates, the arguments
  end as launched, and the result buffer ends holding what region 3's write-backs leave in it — `x9`, the last
  region's `arrAt` at its entry contents `T8`.
-/
import proofs.«147368_j81793357185798_1_alg».proof.Proof.KI.Run
import proofs.«147368_j81793357185798_1_alg».proof.Proof.KI.RunV

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v60) = x9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (outs9 m c), (h c).2⟩)
    (run_cond (F := F) (m := m) (EP := emb₁) (ι := ()) (𝒱₀ := 𝒱₀) (L := L) (lv := lv) (hL := fun _ _ => rfl) (ρ := ρ)
      (outs := outs m) (pdats := pdats m) (O₀ := 0) (G := fun _ => (BI.emp : sProp 𝕄))
      (u₀ := initOf (Pipeline.cells cfgs cellOf_inj) (Pipeline.launchToks cfgs cellOf_inj)) (hu₀ := hu₀)
      (E := fun _ c => R c) (hE0 := hE0 ρ) (hE4 := fun c => by iintro ⟨-, H⟩; iexact H)
      (R0 := reg0 m) (hpre0 := fun c => .rfl) (hpost0 := fun c => by rw [V3_eq]; exact .rfl)
      (R1 := reg1 m) (hpre1 := fun c => by rw [V4_eq]; exact .rfl) (hpost1 := fun c => by rw [V5_eq]; exact .rfl)
      (R2 := reg2 m) (hpre2 := fun c => by rw [V6_eq]; exact .rfl) (hpost2 := fun c => by rw [V7_eq]; exact .rfl)
      (R3 := reg3 m) (hpre3 := fun c => by rw [V8_eq]; exact .rfl) (hpost3 := fun c => by rw [V9_eq]; exact .rfl))

end Cert.KernelIdeal.Fr

end
-- ==== Proof.Spec.lean ====
/-
  What the three kinds of kernel region compute, index by index, over the extended reals.

  Every region reads row blocks of one or two [100000, 128] arrays, one or two [128, 128] weight matrices and a
  [1, 128] bias row, and each entry (p, q) of its result depends only on row p of the arrays: it is built from
  `lin x w p q = ∑ k, x[p, k] · w[q, k]`, the entry (p, q) of x · wᵀ.
-/
import Idealize.ShloMosaic.PureOps.Ideal
import Idealize.ShloMosaic.Lib.ValueIdx

noncomputable section

namespace Cert.Spec

open Idealize.ShloMosaic Idealize.ShloMosaic.ValueIdx

/-- The node-feature arrays. -/
abbrev SN : Shape := ⟨2, ![100000, 128]⟩
/-- The weight matrices. -/
abbrev SW : Shape := ⟨2, ![128, 128]⟩
/-- A bias as a row. -/
abbrev SB : Shape := ⟨2, ![1, 128]⟩

/-- Row `p` of `x` against row `q` of `w`: the entry `(p, q)` of `x · wᵀ`. -/
def lin (x : SN.Idx → EReal) (w : SW.Idx → EReal) (p : Fin 100000) (q : Fin 128) : EReal :=
  ∑ k : Fin 128, x (ix2 p k) * w (ix2 q k)

/-- The input projection `x · wᵀ`. -/
def proj (x : SN.Idx → EReal) (w : SW.Idx → EReal) : SN.Idx → EReal := fun i => lin x w (i 0) (i 1)

/-- A SAGE layer before its nonlinearity, at `(p, q)`: `(mean · wlᵀ + b) + h · wrᵀ`. -/
def pre (mean h : SN.Idx → EReal) (wl : SW.Idx → EReal) (b : SB.Idx → EReal) (wr : SW.Idx → EReal)
    (p : Fin 100000) (q : Fin 128) : EReal :=
  lin mean wl p q + b (ix2 (0 : Fin 1) q) + lin h wr p q

/-- A middle layer: the positive part of `pre`, plus the residual. -/
def mid (mean h : SN.Idx → EReal) (wl : SW.Idx → EReal) (b : SB.Idx → EReal) (wr : SW.Idx → EReal)
    (res : SN.Idx → EReal) : SN.Idx → EReal :=
  fun i => max (pre mean h wl b wr (i 0) (i 1)) (Ideal.ofBits .f32 0x00000000#32) + res i

/-- The squared length of row `p` of `pre`. -/
def sq (mean h : SN.Idx → EReal) (wl : SW.Idx → EReal) (b : SB.Idx → EReal) (wr : SW.Idx → EReal)
    (p : Fin 100000) : EReal :=
  ∑ k : Fin 128, pre mean h wl b wr p k * pre mean h wl b wr p k

/-- The last layer: each row of `pre` divided by its length, the length kept above the literal `1e-12`. -/
def fin (mean h : SN.Idx → EReal) (wl : SW.Idx → EReal) (b : SB.Idx → EReal) (wr : SW.Idx → EReal) : SN.Idx → EReal :=
  fun i => Ideal.div (pre mean h wl b wr (i 0) (i 1))
    (max (Ideal.sqrt (sq mean h wl b wr (i 0))) (Ideal.ofBits .f32 0x2B8CBCCC#32))

end Cert.Spec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KI.Val0.lean ====
/-
  Region 0's value at the extended reals: the output array after the 50 points is the projection x · wᵀ of the
  feature array and the weight matrix as the region finds them. Entry (p, q) of the body's product at a point is
  the sum over k of the feature block's row p against the weight matrix's row q; row p of block t is row
  2000·t + p of the array, and the 50 blocks of 2000 rows tile the 100000 rows.
-/
import proofs.«147368_j81793357185798_1_alg».proof.Proof.KI.Reg0
import proofs.«147368_j81793357185798_1_alg».proof.Proof.Spec
import proofs.«147368_j81793357185798_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's product at an index -/

theorem mm_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mm_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mm_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block's product against the transposed weights, into the zero accumulator, at (p, q): row p of the block
    against row q of the weights. -/
theorem mmT_apply (x : FVec Ideal S2000x128 .f32) (w : FVec Ideal S128x128 .f32) (p : Fin 2000) (q : Fin 128) :
    matmul dot_S2000x128_S128x128_S2000x128_1_0_0_1_n_n none x
        (transpose S128x128 [1, 0] w transposes_S128x128_p1_0_S128x128) (constant (F := Ideal) S2000x128 .f32 0x00000000#32) (ix2 p q)
      = ∑ k : Fin 128, x (ix2 p k) * w (ix2 q k) := by
  refine (Ideal.matmul_constant_zero_apply dot_S2000x128_S128x128_S2000x128_1_0_0_1_n_n none x _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]
  exact congrArg (x (ix2 p k) * ·) (transpose_apply [1, 0] w transposes_S128x128_p1_0_S128x128 (ix2 k q) (ix2 q k) (fun b => match b with
    | ⟨0, _⟩ => rfl
    | ⟨1, _⟩ => rfl))

/-- The body's payload at (p, q). -/
theorem pay0_apply (x0 : Vec Ideal S2000x128 .f32) (x1 : Vec Ideal S128x128 .f32) (p : Fin 2000) (q : Fin 128) :
    k0_pay1 x0 x1 (ix2 p q) = ∑ k : Fin 128, x0 (ix2 p k) * x1 (ix2 q k) := by
  unfold k0_pay1
  exact mmT_apply x0 x1 p q

/-- The payload at (p, q) of the block is the projection at an index i of the array, when row p of the feature
    block is row i 0 of the array and row q of the loaded weights is row i 1 of the weight matrix. -/
theorem pay0_eq_proj (X : Cert.Spec.SN.Idx → EReal) (W : Cert.Spec.SW.Idx → EReal)
    (x0 : Vec Ideal S2000x128 .f32) (x1 : Vec Ideal S128x128 .f32) (p : Fin 2000) (q : Fin 128) (i : Cert.Spec.SN.Idx)
    (hx : ∀ k : Fin 128, x0 (ix2 p k) = X (ix2 (i 0) k))
    (hw : ∀ k : Fin 128, x1 (ix2 q k) = W (ix2 (i 1) k)) :
    k0_pay1 x0 x1 (ix2 p q) = Cert.Spec.proj X W i := by
  rw [pay0_apply]
  unfold Cert.Spec.proj Cert.Spec.lin
  exact Finset.sum_congr rfl fun k _ => by rw [hx k, hw k]

/-! ## From the blocks to the array -/

theorem hz0 : (![0, 0] : Fin 2 → Nat) = fun _ => 0 := funext fun a => by fin_cases a <;> rfl

/-- The printed index maps over the grid: the feature and output windows are at block row t, the weights at
    their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays as the region finds them. -/
theorem flushed0_eq (c : Dev nD) (t : Fin cfg0.N) :
    (dat0 V c).flushed 2 t = ((cfg0.win 2).blk t).view.read (Elt Ideal) (Cert.Spec.proj (V c main_arg0) (V c main_arg2)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := idx_facts0 t
  refine funext fun (j : S2000x128.Idx) => ?_
  obtain ⟨p, q, rfl⟩ : ∃ (p : Fin 2000) (q : Fin 128), j = ix2 p q := ⟨j 0, j 1, eq_ix2 j⟩
  show k0_pay1 (iblk0 V c 0 t) (iblk0 V c 1 t) (ix2 p q)
    = Cert.Spec.proj (V c main_arg0) (V c main_arg2) (((cfg0.win 2).blk t).view.emb (ix2 p q))
  refine pay0_eq_proj (V c main_arg0) (V c main_arg2) (iblk0 V c 0 t) (iblk0 V c 1 t) p q (((cfg0.win 2).blk t).view.emb (ix2 p q)) (fun k => ?_) (fun k => ?_)
  · show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_arg2 (((cfg0.win 1).blk t).view.emb (ix2 q k)) = V c main_arg2 _
    refine congrArg (V c main_arg2) (funext fun a => Fin.ext ?_)
    match a with
    | ⟨0, _⟩ => show win0_1.index t (0 : Fin 2) * 128 + 1 * q.val = win0_2.index t (1 : Fin 2) * 128 + 1 * q.val; omega
    | ⟨1, _⟩ => show win0_1.index t (1 : Fin 2) * 128 + 1 * k.val = k.val; omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- Row r of the array is in the block of point r / 2000, and every point writes its block back. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the projection of the feature array and the weight matrix. -/
theorem final0 (c : Dev nD) : (dat0 (F := Ideal) V c).arrAt 2 cfg0.N = Cert.Spec.proj (V c main_arg0) (V c main_arg2) :=
  (dat0 V c).arrAt_eq_of_cover 2 (Cert.Spec.proj (V c main_arg0) (V c main_arg2)) (fun t _ => flushed0_eq V c t) cover0

end Cert.KernelIdeal.Val

end
-- ==== Proof.KI.Val1.lean ====
/-
  Region 1 at the extended reals: the output array after the region is the middle layer's formula
  max (mean · wlᵀ + bias + h · wrᵀ) 0 + residual of the arrays as the region finds them. First the body's arithmetic at
  one entry (p, q) of a block: each product into the zero accumulator is the sum over k of row p of the block against
  row q of the weights, the bias row is read at q. Then the blocks: the block of a row window at point t is rows
  2000·t … 2000·t + 1999 of its array and the block of a whole window is its array, so entry (p, q) of what point t
  writes back is the formula at (2000·t + p, q); the fifty blocks cover the array.
-/
import proofs.«147368_j81793357185798_1_alg».proof.Proof.KI.Reg1
import proofs.«147368_j81793357185798_1_alg».proof.Proof.Spec
import proofs.«147368_j81793357185798_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic at an entry of the block -/

/-- Along a row of the left operand and a row of the transposed right operand: the four coordinates of the product's
    operand indices at output index `i` and contraction index `k`. -/
theorem mm1_lhs_0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm1_lhs_1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
theorem mm1_rhs_0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem mm1_rhs_1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times the transpose of a weight matrix, into the zero accumulator, at `(p, q)`: row `p` of the
    block against row `q` of the matrix. -/
theorem matmulT1_apply (x : FVec Ideal S2000x128 .f32) (w : FVec Ideal S128x128 .f32) (p : Fin 2000) (q : Fin 128) :
    matmul (F := Ideal) (φ₁ := .f32) (φ₂ := .f32) dot_S2000x128_S128x128_S2000x128_1_0_0_1_n_n none x (transpose S128x128 [1, 0] w transposes_S128x128_p1_0_S128x128)
        (constant (F := Ideal) S2000x128 .f32 0x00000000#32) (ix2 p q)
      = ∑ k : Fin 128, x (ix2 p k) * w (ix2 q k) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mm1_lhs_0 _ _
    | ⟨1, _⟩ => exact (mm1_lhs_1 _ _).trans hk)
  rw [el]
  congr 1
  refine transpose_apply [1, 0] w transposes_S128x128_p1_0_S128x128 _ (ix2 q k) fun b => ?_
  match b with
  | ⟨0, _⟩ => show k.val = _; exact ((mm1_rhs_0 (ix2 p q) _).trans hk).symm
  | ⟨1, _⟩ => show q.val = _; exact (mm1_rhs_1 (ix2 p q) _).symm

/-- The bias row laid over the block's rows reads, at `(p, q)`, the row's entry `q`. -/
theorem bias1_apply {α : Type} (x : S1x128.Idx → α) (p : Fin 2000) (q : Fin 128) :
    broadcastTo S2000x128 x broadcasts_S1x128_S2000x128 (ix2 p q) = x (ix2 (0 : Fin 1) q) := by
  refine broadcastTo_apply x broadcasts_S1x128_S2000x128 _ (ix2 (0 : Fin 1) q) fun a => ?_
  match a with
  | ⟨0, _⟩ => rfl
  | ⟨1, _⟩ => rfl

/-- The body's payload at `(p, q)` of the block: the positive part of row `p` of the mean block against row `q` of
    the left weights, plus the bias at `q`, plus row `p` of the feature block against row `q` of the right weights;
    plus the residual block's entry. -/
theorem pay1_apply (x0 : Vec Ideal S2000x128 .f32) (x2 : Vec Ideal S128x128 .f32) (x3 : Vec Ideal S1x128 .f32)
    (x1 : Vec Ideal S2000x128 .f32) (x4 : Vec Ideal S128x128 .f32) (x5 : Vec Ideal S2000x128 .f32) (p : Fin 2000) (q : Fin 128) :
    k1_pay1 x0 x2 x3 x1 x4 x5 (ix2 p q)
      = max ((∑ k : Fin 128, x0 (ix2 p k) * x2 (ix2 q k)) + x3 (ix2 (0 : Fin 1) q) + ∑ k : Fin 128, x1 (ix2 p k) * x4 (ix2 q k))
          (Ideal.ofBits .f32 0x00000000#32) + x5 (ix2 p q) := by
  unfold k1_pay1
  simp only [shapeCast_self]
  rw [addf_apply, maximumf_apply, addf_apply, addf_apply, matmulT1_apply, matmulT1_apply, broadcast_apply, bias1_apply]
  rfl

/-! ## From the blocks to the array -/

theorem hz1 : (![0, 0] : Fin 2 → Nat) = fun _ => 0 := funext fun a => match a with | ⟨0, _⟩ => rfl | ⟨1, _⟩ => rfl

/-- One entry of the block, over any arrays and any blocks that read them where the entry's row and column say: the
    body's payload is the middle layer's formula at the array's index `i`, when `i` is in column `q`, the row
    blocks' row `p` is the arrays' row `i 0`, and the whole windows' blocks are their arrays. -/
theorem point1 (mean h : Cert.Spec.SN.Idx → EReal) (wl : Cert.Spec.SW.Idx → EReal) (b : Cert.Spec.SB.Idx → EReal)
    (wr : Cert.Spec.SW.Idx → EReal) (res : Cert.Spec.SN.Idx → EReal)
    (x0 x1 : Vec Ideal S2000x128 .f32) (x2 : Vec Ideal S128x128 .f32) (x3 : Vec Ideal S1x128 .f32) (x4 : Vec Ideal S128x128 .f32)
    (x5 : Vec Ideal S2000x128 .f32) (i : Cert.Spec.SN.Idx) (p : Fin 2000) (q : Fin 128) (hq : (i 1).val = q.val)
    (h0 : ∀ k : Fin 128, x0 (ix2 p k) = mean (ix2 (i 0) k)) (h1 : ∀ k : Fin 128, x1 (ix2 p k) = h (ix2 (i 0) k))
    (h2 : ∀ y, x2 y = wl y) (h3 : ∀ y, x3 y = b y) (h4 : ∀ y, x4 y = wr y) (h5 : x5 (ix2 p q) = res i) :
    k1_pay1 x0 x2 x3 x1 x4 x5 (ix2 p q) = Cert.Spec.mid mean h wl b wr res i := by
  have e1 : i 1 = q := Fin.ext hq
  rw [pay1_apply]
  unfold Cert.Spec.mid Cert.Spec.pre Cert.Spec.lin
  simp only [h0, h1, h2, h3, h4, h5, e1]

/-- The windows' index maps, decided over the grid: a row window's block at point `t` is block `t` of the rows, a
    whole window's the one block there is. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- Row `y 0` of window 0's block at point `t` is row `2000·t + y 0` of its array. -/
theorem iblk1_0_apply (c : Dev nD) (t : Fin cfg1.N) (y : S2000x128.Idx) (i : S100000x128.Idx)
    (h0 : (i 0).val = 2000 * t.val + (y 0).val) (h1 : (i 1).val = (y 1).val) :
    (iblk1 V c 0 t : Vec Ideal S2000x128 .f32) y = (V c main_v28 : S100000x128.Idx → EReal) i := by
  have e := idx1 t
  unfold iblk1
  rw [View.read_apply]
  show V c main_v28 _ = V c main_v28 _
  congr 1
  funext a
  apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega
/-- Row `y 0` of window 1's block at point `t` is row `2000·t + y 0` of its array. -/
theorem iblk1_1_apply (c : Dev nD) (t : Fin cfg1.N) (y : S2000x128.Idx) (i : S100000x128.Idx)
    (h0 : (i 0).val = 2000 * t.val + (y 0).val) (h1 : (i 1).val = (y 1).val) :
    (iblk1 V c 1 t : Vec Ideal S2000x128 .f32) y = (V c main_v15 : S100000x128.Idx → EReal) i := by
  have e := idx1 t
  unfold iblk1
  rw [View.read_apply]
  show V c main_v15 _ = V c main_v15 _
  congr 1
  funext a
  apply Fin.ext
  match a with
  | ⟨0, _⟩ => show win1_1.index t (0 : Fin 2) * 2000 + 1 * (y 0).val = (i 0).val; omega
  | ⟨1, _⟩ => show win1_1.index t (1 : Fin 2) * 128 + 1 * (y 1).val = (i 1).val; omega
/-- Row `y 0` of window 5's block at point `t` is row `2000·t + y 0` of its array. -/
theorem iblk1_5_apply (c : Dev nD) (t : Fin cfg1.N) (y : S2000x128.Idx) (i : S100000x128.Idx)
    (h0 : (i 0).val = 2000 * t.val + (y 0).val) (h1 : (i 1).val = (y 1).val) :
    (iblk1 V c 5 t : Vec Ideal S2000x128 .f32) y = (V c main_arg0 : S100000x128.Idx → EReal) i := by
  have e := idx1 t
  unfold iblk1
  rw [View.read_apply]
  show V c main_arg0 _ = V c main_arg0 _
  congr 1
  funext a
  apply Fin.ext
  match a with
  | ⟨0, _⟩ => show win1_5.index t (0 : Fin 2) * 2000 + 1 * (y 0).val = (i 0).val; omega
  | ⟨1, _⟩ => show win1_5.index t (1 : Fin 2) * 128 + 1 * (y 1).val = (i 1).val; omega
/-- Window 2's block at any point is its whole array. -/
theorem iblk1_2_apply (c : Dev nD) (t : Fin cfg1.N) (y : S128x128.Idx) :
    (iblk1 V c 2 t : Vec Ideal S128x128 .f32) y = (V c main_arg3 : S128x128.Idx → EReal) y := by
  have e := idx1 t
  unfold iblk1
  rw [View.read_apply]
  show V c main_arg3 _ = V c main_arg3 _
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega
/-- Window 3's block at any point is its whole array. -/
theorem iblk1_3_apply (c : Dev nD) (t : Fin cfg1.N) (y : S1x128.Idx) :
    (iblk1 V c 3 t : Vec Ideal S1x128 .f32) y = (V c main_v29 : S1x128.Idx → EReal) y := by
  have e := idx1 t
  unfold iblk1
  rw [View.read_apply]
  show V c main_v29 _ = V c main_v29 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
/-- Window 4's block at any point is its whole array. -/
theorem iblk1_4_apply (c : Dev nD) (t : Fin cfg1.N) (y : S128x128.Idx) :
    (iblk1 V c 4 t : Vec Ideal S128x128 .f32) y = (V c main_arg5 : S128x128.Idx → EReal) y := by
  have e := idx1 t
  unfold iblk1
  rw [View.read_apply]
  show V c main_arg5 _ = V c main_arg5 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What point `t` writes back is block `t` of the middle layer's formula of the arrays as the region finds them. -/
theorem flushed1_eq (c : Dev nD) (t : Fin cfg1.N) :
    (dat1 (F := Ideal) V c).flushed 6 t = ((cfg1.win 6).blk t).view.read (Elt Ideal)
      (Cert.Spec.mid (V c main_v28) (V c main_v15) (V c main_arg3) (V c main_v29) (V c main_arg5) (V c main_arg0)) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S128x128) hz1, View.ld_unit_zero (S := S1x128) hz1]
  have e := idx1 t
  refine funext fun (j : S2000x128.Idx) => ?_
  obtain ⟨p, q, rfl⟩ : ∃ (p : Fin 2000) (q : Fin 128), j = ix2 p q := ⟨j 0, j 1, eq_ix2 j⟩
  rw [View.read_apply]
  have hi0 : ((((cfg1.win 6).blk t).view.emb (ix2 p q) : S100000x128.Idx) 0).val = 2000 * t.val + p.val := by
    show win1_6.index t (0 : Fin 2) * 2000 + 1 * p.val = _; omega
  have hi1 : ((((cfg1.win 6).blk t).view.emb (ix2 p q) : S100000x128.Idx) 1).val = q.val := by
    show win1_6.index t (1 : Fin 2) * 128 + 1 * q.val = _; omega
  exact point1 _ _ _ _ _ _ _ _ _ _ _ _ _ p q hi1
    (fun k => iblk1_0_apply V c t _ _ hi0 rfl) (fun k => iblk1_1_apply V c t _ _ hi0 rfl)
    (fun y => iblk1_2_apply V c t y) (fun y => iblk1_3_apply V c t y) (fun y => iblk1_4_apply V c t y)
    (iblk1_5_apply V c t _ _ hi0 hi1)

/-- An index of the array is in point `t`'s block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v30).slice (win1_6.rect t)).set ↔ _
  rw [View.set_slice_whole, Rect.mem_set_unit]
  exact Iff.rfl

/-- Every index of the array is in the block of the point its row falls to, row `r` to point `r / 2000`; every point
    writes its block back. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have ht : (i 0).val / 2000 < cfg1.N := by rw [hN]; omega
  have e := idx1 ⟨(i 0).val / 2000, ht⟩
  have ev : (⟨(i 0).val / 2000, ht⟩ : Fin cfg1.N).val = (i 0).val / 2000 := rfl
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    omega

/-- The output array after the region: the middle layer's formula of the arrays as the region finds them. -/
theorem final1 (c : Dev nD) : (dat1 (F := Ideal) V c).arrAt 6 cfg1.N
    = Cert.Spec.mid (V c main_v28) (V c main_v15) (V c main_arg3) (V c main_v29) (V c main_arg5) (V c main_arg0) :=
  (dat1 (F := Ideal) V c).arrAt_eq_of_cover 6
    (Cert.Spec.mid (V c main_v28) (V c main_v15) (V c main_arg3) (V c main_v29) (V c main_arg5) (V c main_arg0))
    (fun t _ => flushed1_eq V c t) (cover1)

end Cert.KernelIdeal.Val

end
-- ==== Proof.KI.Val2.lean ====
/-
  Region 2's value at the extended reals: the output array after the 50 points is the middle layer
  max(mean · wlᵀ + b + h · wrᵀ, 0) + h of the arrays as the region finds them, the hidden array h being read twice, as
  the second product's left operand and as the residual. Entry (p, q) of the body's result at a point depends only on
  row p of the three row blocks; row p of block t is row 2000·t + p of the array, and the 50 blocks of 2000 rows tile
  the 100000 rows.
-/
import proofs.«147368_j81793357185798_1_alg».proof.Proof.KI.Reg2
import proofs.«147368_j81793357185798_1_alg».proof.Proof.KI.Val0
import proofs.«147368_j81793357185798_1_alg».proof.Proof.Spec
import proofs.«147368_j81793357185798_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's result at an index -/

/-- The bias row broadcast over the 2000 rows reads, at (p, q), the row's entry q. -/
theorem bias2_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => rfl
    | ⟨1, _⟩ => rfl)

/-- The body's payload at (p, q): the positive part of the two products and the bias, plus the residual. -/
theorem pay2_apply (x0 x1 : Vec Ideal S2000x128 .f32) (x2 : Vec Ideal S128x128 .f32) (x3 : Vec Ideal S1x128 .f32)
    (x4 : Vec Ideal S128x128 .f32) (x5 : Vec Ideal S2000x128 .f32) (p : Fin 2000) (q : Fin 128) :
    k2_pay1 x0 x2 x3 x1 x4 x5 (ix2 p q)
      = max ((∑ k : Fin 128, x0 (ix2 p k) * x2 (ix2 q k)) + x3 (ix2 (0 : Fin 1) q) + ∑ k : Fin 128, x1 (ix2 p k) * x4 (ix2 q k))
          (Ideal.ofBits .f32 0x00000000#32) + x5 (ix2 p q) := by
  have h0 : shapeCast S2000x128 x0 shapeCasts_S2000x128_S2000x128 = x0 := shapeCast_self x0 _
  have h1 : shapeCast S2000x128 x1 shapeCasts_S2000x128_S2000x128 = x1 := shapeCast_self x1 _
  have h3 : shapeCast S1x128 x3 shapeCasts_S1x128_S1x128 = x3 := shapeCast_self x3 _
  have h5 : shapeCast S2000x128 x5 shapeCasts_S2000x128_S2000x128 = x5 := shapeCast_self x5 _
  have hA := mmT_apply x0 x2 p q
  have hB := mmT_apply x1 x4 p q
  have hb := bias2_apply x3 p q
  unfold k2_pay1
  rw [h0, h1, h3, h5]
  show max (matmul dot_S2000x128_S128x128_S2000x128_1_0_0_1_n_n none x0
        (transpose S128x128 [1, 0] x2 transposes_S128x128_p1_0_S128x128) (constant (F := Ideal) S2000x128 .f32 0x00000000#32) (ix2 p q)
      + broadcastTo S2000x128 x3 broadcasts_S1x128_S2000x128 (ix2 p q)
      + matmul dot_S2000x128_S128x128_S2000x128_1_0_0_1_n_n none x1
        (transpose S128x128 [1, 0] x4 transposes_S128x128_p1_0_S128x128) (constant (F := Ideal) S2000x128 .f32 0x00000000#32) (ix2 p q))
      (Ideal.ofBits .f32 0x00000000#32) + x5 (ix2 p q) = _
  rw [hA, hB, hb]

/-- The payload at (p, q) of the blocks is the middle layer at an index i of the arrays, when row p of each row block
    is row i 0 of its array, row q of each loaded weight matrix is row i 1 of that matrix, and the loaded bias row is
    the bias row. -/
theorem pay2_eq_mid (M H : Cert.Spec.SN.Idx → EReal) (Wl : Cert.Spec.SW.Idx → EReal) (B : Cert.Spec.SB.Idx → EReal)
    (Wr : Cert.Spec.SW.Idx → EReal) (R : Cert.Spec.SN.Idx → EReal)
    (x0 x1 : Vec Ideal S2000x128 .f32) (x2 : Vec Ideal S128x128 .f32) (x3 : Vec Ideal S1x128 .f32)
    (x4 : Vec Ideal S128x128 .f32) (x5 : Vec Ideal S2000x128 .f32) (p : Fin 2000) (q : Fin 128) (i : Cert.Spec.SN.Idx)
    (h0 : ∀ k : Fin 128, x0 (ix2 p k) = M (ix2 (i 0) k))
    (h1 : ∀ k : Fin 128, x1 (ix2 p k) = H (ix2 (i 0) k))
    (h2 : ∀ k : Fin 128, x2 (ix2 q k) = Wl (ix2 (i 1) k))
    (h3 : x3 (ix2 (0 : Fin 1) q) = B (ix2 (0 : Fin 1) (i 1)))
    (h4 : ∀ k : Fin 128, x4 (ix2 q k) = Wr (ix2 (i 1) k))
    (h5 : x5 (ix2 p q) = R i) :
    k2_pay1 x0 x2 x3 x1 x4 x5 (ix2 p q) = Cert.Spec.mid M H Wl B Wr R i := by
  have eA : (∑ k : Fin 128, x0 (ix2 p k) * x2 (ix2 q k)) = ∑ k : Fin 128, M (ix2 (i 0) k) * Wl (ix2 (i 1) k) :=
    Finset.sum_congr rfl fun k _ => by rw [h0 k, h2 k]
  have eB : (∑ k : Fin 128, x1 (ix2 p k) * x4 (ix2 q k)) = ∑ k : Fin 128, H (ix2 (i 0) k) * Wr (ix2 (i 1) k) :=
    Finset.sum_congr rfl fun k _ => by rw [h1 k, h4 k]
  rw [pay2_apply, eA, eB, h3, h5]
  rfl

/-! ## From the blocks to the array -/

theorem hz2 : (![0, 0] : Fin 2 → Nat) = fun _ => 0 := funext fun a => by fin_cases a <;> rfl

/-- The printed index maps over the grid: the three row windows and the output window are at block row t, the weight
    matrices and the bias row at their one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point t writes back is block t of the middle layer of the arrays as the region finds them. -/
theorem flushed2_eq (c : Dev nD) (t : Fin cfg2.N) :
    (dat2 V c).flushed 6 t = ((cfg2.win 6).blk t).view.read (Elt Ideal)
      (Cert.Spec.mid (V c main_v43) (V c main_v30) (V c main_arg6) (V c main_v44) (V c main_arg8) (V c main_v30)) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2, View.ld_unit_zero (S := S1x128) hz2]
  obtain ⟨e00, e01, e10, e11, e20, e21, e30, e31, e40, e41, e50, e51, e60, e61⟩ := idx_facts2 t
  refine funext fun (j : S2000x128.Idx) => ?_
  obtain ⟨p, q, rfl⟩ : ∃ (p : Fin 2000) (q : Fin 128), j = ix2 p q := ⟨j 0, j 1, eq_ix2 j⟩
  show k2_pay1 (iblk2 V c 0 t) (iblk2 V c 2 t) (iblk2 V c 3 t) (iblk2 V c 1 t) (iblk2 V c 4 t) (iblk2 V c 5 t) (ix2 p q)
    = Cert.Spec.mid (V c main_v43) (V c main_v30) (V c main_arg6) (V c main_v44) (V c main_arg8) (V c main_v30)
        (((cfg2.win 6).blk t).view.emb (ix2 p q))
  refine pay2_eq_mid (V c main_v43) (V c main_v30) (V c main_arg6) (V c main_v44) (V c main_arg8) (V c main_v30)
    (iblk2 V c 0 t) (iblk2 V c 1 t) (iblk2 V c 2 t) (iblk2 V c 3 t) (iblk2 V c 4 t) (iblk2 V c 5 t) p q
    (((cfg2.win 6).blk t).view.emb (ix2 p q)) (fun k => ?_) (fun k => ?_) (fun k => ?_) ?_ (fun k => ?_) ?_
  · show V c main_v43 (((cfg2.win 0).blk t).view.emb (ix2 p k)) = V c main_v43 _
    refine congrArg (V c main_v43) (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * k.val = k.val; omega
  · show V c main_v30 (((cfg2.win 1).blk t).view.emb (ix2 p k)) = V c main_v30 _
    refine congrArg (V c main_v30) (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * k.val = k.val; omega
  · show V c main_arg6 (((cfg2.win 2).blk t).view.emb (ix2 q k)) = V c main_arg6 _
    refine congrArg (V c main_arg6) (funext fun a => Fin.ext ?_)
    match a with
    | ⟨0, _⟩ => show win2_2.index t (0 : Fin 2) * 128 + 1 * q.val = win2_6.index t (1 : Fin 2) * 128 + 1 * q.val; omega
    | ⟨1, _⟩ => show win2_2.index t (1 : Fin 2) * 128 + 1 * k.val = k.val; omega
  · show V c main_v44 (((cfg2.win 3).blk t).view.emb (ix2 (0 : Fin 1) q)) = V c main_v44 _
    refine congrArg (V c main_v44) (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 128 + 1 * q.val = win2_6.index t (1 : Fin 2) * 128 + 1 * q.val; omega
  · show V c main_arg8 (((cfg2.win 4).blk t).view.emb (ix2 q k)) = V c main_arg8 _
    refine congrArg (V c main_arg8) (funext fun a => Fin.ext ?_)
    match a with
    | ⟨0, _⟩ => show win2_4.index t (0 : Fin 2) * 128 + 1 * q.val = win2_6.index t (1 : Fin 2) * 128 + 1 * q.val; omega
    | ⟨1, _⟩ => show win2_4.index t (1 : Fin 2) * 128 + 1 * k.val = k.val; omega
  · show V c main_v30 (((cfg2.win 5).blk t).view.emb (ix2 p q)) = V c main_v30 _
    refine congrArg (V c main_v30) (funext fun a => Fin.ext ?_)
    match a with
    | ⟨0, _⟩ => show win2_5.index t (0 : Fin 2) * 2000 + 1 * p.val = win2_6.index t (0 : Fin 2) * 2000 + 1 * p.val; omega
    | ⟨1, _⟩ => show win2_5.index t (1 : Fin 2) * 128 + 1 * q.val = win2_6.index t (1 : Fin 2) * 128 + 1 * q.val; omega

/-- An index of the array is in point t's block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v45).slice (win2_6.rect t)).set ↔ _
  rw [View.set_slice_whole, Rect.mem_set_unit]
  exact Iff.rfl

/-- Row r of the array is in the block of point r / 2000, and every point writes its block back. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨e00, e01, e10, e11, e20, e21, e30, e31, e40, e41, e50, e51, e60, e61⟩ := idx_facts2 t
  have ht : t.val = (i 0).val / 2000 := rfl
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The output array after the region: the middle layer of the arrays as the region finds them. -/
theorem final2 (c : Dev nD) : (dat2 (F := Ideal) V c).arrAt 6 cfg2.N
    = Cert.Spec.mid (V c main_v43) (V c main_v30) (V c main_arg6) (V c main_v44) (V c main_arg8) (V c main_v30) :=
  (dat2 V c).arrAt_eq_of_cover 6 (Cert.Spec.mid (V c main_v43) (V c main_v30) (V c main_arg6) (V c main_v44) (V c main_arg8) (V c main_v30))
    (fun t _ => flushed2_eq V c t) cover2

end Cert.KernelIdeal.Val

end
-- ==== Proof.KI.Val3.lean ====
/-
  Region 3 at the ideal values: the array its output window leaves is, index by index, the last layer of the arrays the
  region finds — each entry of (mean · wlᵀ + b) + h · wrᵀ divided by the Euclidean length of its row, the length kept
  above a small positive literal. First the body's arithmetic at an index of a block, then the blocks as rows of the
  arrays, then the 50 written-back blocks as one array.
-/
import proofs.«147368_j81793357185798_1_alg».proof.Proof.KI.Reg3
import proofs.«147368_j81793357185798_1_alg».proof.Proof.Spec
import proofs.«147368_j81793357185798_1_alg».proof.Proof.LibLayout
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Val
open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-! ## The body's arithmetic at an index of the block -/

/-- Row `p` of a block against row `q` of a weight matrix: the entry `(p, q)` of `x · wᵀ`. -/
def blin3 (x : FVec Ideal S2000x128 .f32) (w : FVec Ideal S128x128 .f32) (p : Fin 2000) (q : Fin 128) : EReal :=
  ∑ k : Fin 128, x (ix2 p k) * w (ix2 q k)

/-- The layer before its normalisation, on blocks: `(mean · wlᵀ + b) + h · wrᵀ` at `(p, q)`. -/
def bpre3 (x0 x1 : FVec Ideal S2000x128 .f32) (x2 : FVec Ideal S128x128 .f32) (x3 : FVec Ideal S1x128 .f32) (x4 : FVec Ideal S128x128 .f32)
    (p : Fin 2000) (q : Fin 128) : EReal :=
  blin3 x0 x2 p q + x3 (ix2 (0 : Fin 1) q) + blin3 x1 x4 p q

theorem lhs3_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs3_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs3_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs3_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product into a zero accumulator, at `(p, q)`: the sum over the shared coordinate. -/
theorem matmul3_apply (x : FVec Ideal S2000x128 .f32) (y : FVec Ideal S128x128 .f32) (p : Fin 2000) (q : Fin 128) :
    matmul dot_S2000x128_S128x128_S2000x128_1_0_0_1_n_n none x y (constant (F := Ideal) S2000x128 .f32 0x00000000#32) (ix2 p q)
      = ∑ k : Fin 128, x (ix2 p k) * y (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs3_0 _ _
    | ⟨1, _⟩ => exact (lhs3_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-- The transposed weight matrix at `(k, q)` is the matrix at `(q, k)`. -/
theorem transpose3_apply (w : FVec Ideal S128x128 .f32) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The bias row broadcast over the rows, at `(p, q)`, is the row's entry `q`. -/
theorem bias3_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => rfl
    | ⟨1, _⟩ => rfl)

/-- The layer before its normalisation, as the body computes it from its five loads. -/
def z3 (x0 x1 : FVec Ideal S2000x128 .f32) (x2 : FVec Ideal S128x128 .f32) (x3 : FVec Ideal S1x128 .f32) (x4 : FVec Ideal S128x128 .f32) :
    FVec Ideal S2000x128 .f32 :=
  addf (addf (matmul dot_S2000x128_S128x128_S2000x128_1_0_0_1_n_n none (shapeCast S2000x128 x0 shapeCasts_S2000x128_S2000x128)
        (transpose S128x128 [1, 0] x2 transposes_S128x128_p1_0_S128x128) (constant (F := Ideal) S2000x128 .f32 0x00000000#32))
      (broadcastTo S2000x128 (shapeCast S1x128 x3 shapeCasts_S1x128_S1x128) broadcasts_S1x128_S2000x128))
    (matmul dot_S2000x128_S128x128_S2000x128_1_0_0_1_n_n none (shapeCast S2000x128 x1 shapeCasts_S2000x128_S2000x128)
      (transpose S128x128 [1, 0] x4 transposes_S128x128_p1_0_S128x128) (constant (F := Ideal) S2000x128 .f32 0x00000000#32))

theorem z3_apply (x0 x1 : FVec Ideal S2000x128 .f32) (x2 : FVec Ideal S128x128 .f32) (x3 : FVec Ideal S1x128 .f32) (x4 : FVec Ideal S128x128 .f32)
    (p : Fin 2000) (q : Fin 128) : z3 x0 x1 x2 x3 x4 (ix2 p q) = bpre3 x0 x1 x2 x3 x4 p q := by
  unfold z3 bpre3 blin3
  rw [addf_apply, addf_apply, shapeCast_self, shapeCast_self, shapeCast_self, matmul3_apply, matmul3_apply, bias3_apply]
  refine congrArg₂ (· + ·) (congrArg (· + x3 (ix2 (0 : Fin 1) q)) (Finset.sum_congr rfl fun k _ => ?_)) (Finset.sum_congr rfl fun k _ => ?_)
  · exact congrArg (x0 (ix2 p k) * ·) (transpose3_apply x2 k q)
  · exact congrArg (x1 (ix2 p k) * ·) (transpose3_apply x4 k q)

/-- The lane sum of a block at row `p`: the sum of the row's 128 entries. -/
theorem rowsum3 (z : FVec Ideal S2000x128 .f32) (hφ : FKind.Formats .f32) (hacc : (0x00000000#32 : BitVec 32) = FKind.add.neutral .f32 hφ)
    (p : Fin 2000) :
    multiReduction (F := Ideal) .add [1] S2000 z 0x00000000#32 reduces_S2000x128_S2000 hφ hacc (ix1 p) = ∑ k : Fin 128, z (ix2 p k) := by
  refine (Ideal.multiReduction_add_single z 0x00000000#32 reduces_S2000x128_S2000 hφ hacc (ix1 p)).trans ?_
  refine Finset.sum_congr rfl fun k _ => congrArg z ?_
  funext c; apply Fin.ext
  match c with
  | ⟨0, _⟩ => rfl
  | ⟨1, _⟩ => rfl

/-- The row lengths as the body computes them from `z`: a column, kept above the literal. -/
def den3 (z : FVec Ideal S2000x128 .f32) : FVec Ideal S2000x1 .f32 :=
  maximumf (sqrt (shapeCast S2000x1 (multiReduction (F := Ideal) .add [1] S2000 (mulf z z) 0x00000000#32 reduces_S2000x128_S2000 (.inl rfl) rfl)
      shapeCasts_S2000_S2000x1))
    (broadcast S2000x1 (Scalar.ofBits (F := Ideal) .f32 0x2B8CBCCC#32))

theorem den3_apply (z : FVec Ideal S2000x128 .f32) (p : Fin 2000) (u : Fin 1) :
    den3 z (ix2 p u) = max (Ideal.sqrt (∑ k : Fin 128, z (ix2 p k) * z (ix2 p k))) (Ideal.ofBits .f32 0x2B8CBCCC#32) := by
  show max (Ideal.sqrt (shapeCast S2000x1 (multiReduction (F := Ideal) .add [1] S2000 (mulf z z) 0x00000000#32 reduces_S2000x128_S2000 (.inl rfl) rfl)
      shapeCasts_S2000_S2000x1 (ix2 p u))) (Ideal.ofBits .f32 0x2B8CBCCC#32) = _
  exact congrArg (fun s => max (Ideal.sqrt s) (Ideal.ofBits .f32 0x2B8CBCCC#32))
    ((Cert.LibLayout.shapeCast_a_a1_apply _ shapeCasts_S2000_S2000x1 p u).trans (rowsum3 (mulf z z) _ _ p))

/-- The payload is the quotient of `z` by its row lengths broadcast over the columns. -/
theorem pay3_eq (x0 x1 : FVec Ideal S2000x128 .f32) (x2 : FVec Ideal S128x128 .f32) (x3 : FVec Ideal S1x128 .f32) (x4 : FVec Ideal S128x128 .f32) :
    k3_pay1 (F := Ideal) x0 x2 x3 x1 x4
      = divf (z3 x0 x1 x2 x3 x4) (broadcastTo S2000x128 (den3 (z3 x0 x1 x2 x3 x4)) broadcasts_S2000x1_S2000x128) := rfl

/-- The payload at `(p, q)`: the entry of `pre` over the blocks divided by the length of its row, kept above the literal. -/
theorem pay3_apply (x0 x1 : FVec Ideal S2000x128 .f32) (x2 : FVec Ideal S128x128 .f32) (x3 : FVec Ideal S1x128 .f32) (x4 : FVec Ideal S128x128 .f32)
    (p : Fin 2000) (q : Fin 128) :
    k3_pay1 (F := Ideal) x0 x2 x3 x1 x4 (ix2 p q)
      = Ideal.div (bpre3 x0 x1 x2 x3 x4 p q)
          (max (Ideal.sqrt (∑ k : Fin 128, bpre3 x0 x1 x2 x3 x4 p k * bpre3 x0 x1 x2 x3 x4 p k)) (Ideal.ofBits .f32 0x2B8CBCCC#32)) := by
  rw [pay3_eq, divf_apply, Cert.LibLayout.broadcastTo_a1_ab_apply, den3_apply, z3_apply]
  simp only [z3_apply]

/-! ## From the blocks to the array -/

theorem hz3 : (![0, 0] : Fin 2 → Nat) = fun _ => 0 := funext fun a => by
  match a with
  | ⟨0, _⟩ => rfl
  | ⟨1, _⟩ => rfl

/-- The blocks' positions, decided over the grid: the row windows (means, features, output) sit at block row `t`, the
    weight matrices and the bias row at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The payload over blocks that are rows `2000·T …` of two arrays, the two weight matrices and the bias row, at an
    index of the block, is the last layer of those arrays at the index's place in the array. -/
theorem blockfin3 (mean h : Cert.Spec.SN.Idx → EReal) (wl : Cert.Spec.SW.Idx → EReal) (b : Cert.Spec.SB.Idx → EReal) (wr : Cert.Spec.SW.Idx → EReal)
    (x0 x1 : FVec Ideal S2000x128 .f32) (x2 : FVec Ideal S128x128 .f32) (x3 : FVec Ideal S1x128 .f32) (x4 : FVec Ideal S128x128 .f32) (T : ℕ)
    (h0 : ∀ (y : S2000x128.Idx) (i : S100000x128.Idx), (i 0).val = 2000 * T + (y 0).val → (i 1).val = (y 1).val → x0 y = mean i)
    (h1 : ∀ (y : S2000x128.Idx) (i : S100000x128.Idx), (i 0).val = 2000 * T + (y 0).val → (i 1).val = (y 1).val → x1 y = h i)
    (h2 : x2 = wl) (h3 : x3 = b) (h4 : x4 = wr)
    (j : S2000x128.Idx) (i : S100000x128.Idx) (hi0 : (i 0).val = 2000 * T + (j 0).val) (hi1 : (i 1).val = (j 1).val) :
    k3_pay1 (F := Ideal) x0 x2 x3 x1 x4 j = Cert.Spec.fin mean h wl b wr i := by
  obtain ⟨p, q, rfl⟩ : ∃ (p : Fin 2000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  subst h2 h3 h4
  have hpre : ∀ k : Fin 128, bpre3 x0 x1 x2 x3 x4 p k = Cert.Spec.pre mean h x2 x3 x4 P k := fun k => by
    unfold bpre3 blin3 Cert.Spec.pre Cert.Spec.lin
    refine congrArg₂ (· + ·) (congrArg (· + x3 (ix2 (0 : Fin 1) k)) (Finset.sum_congr rfl fun l _ => ?_)) (Finset.sum_congr rfl fun l _ => ?_)
    · exact congrArg (· * x2 (ix2 k l)) (h0 (ix2 p l) (ix2 P l) hi0 rfl)
    · exact congrArg (· * x4 (ix2 k l)) (h1 (ix2 p l) (ix2 P l) hi0 rfl)
  rw [pay3_apply]
  show _ = Ideal.div (Cert.Spec.pre mean h x2 x3 x4 P Q) (max (Ideal.sqrt (Cert.Spec.sq mean h x2 x3 x4 P)) (Ideal.ofBits .f32 0x2B8CBCCC#32))
  unfold Cert.Spec.sq
  simp only [hpre]

/-- A row window's block at point `t` is rows `2000·t … 2000·t + 1999` of its array; a whole window's is its array. -/
theorem iblk3_0_apply (c : Dev nD) (t : Fin cfg3.N) (y : S2000x128.Idx) (i : S100000x128.Idx)
    (hi0 : (i 0).val = 2000 * t.val + (y 0).val) (hi1 : (i 1).val = (y 1).val) :
    (iblk3 V c 0 t : FVec Ideal S2000x128 .f32) y = (V c main_v58 : S100000x128.Idx → EReal) i := by
  obtain ⟨e0, e1, -⟩ := idx_facts3 t
  unfold iblk3
  rw [View.read_apply]
  show V c main_v58 _ = V c main_v58 _
  congr 1
  funext a; apply Fin.ext
  match a with
  | ⟨0, _⟩ => show win3_0.index t (0 : Fin 2) * 2000 + 1 * (y 0).val = (i 0).val; rw [e0, hi0]; omega
  | ⟨1, _⟩ => show win3_0.index t (1 : Fin 2) * 128 + 1 * (y 1).val = (i 1).val; rw [e1, hi1]; omega

theorem iblk3_1_apply (c : Dev nD) (t : Fin cfg3.N) (y : S2000x128.Idx) (i : S100000x128.Idx)
    (hi0 : (i 0).val = 2000 * t.val + (y 0).val) (hi1 : (i 1).val = (y 1).val) :
    (iblk3 V c 1 t : FVec Ideal S2000x128 .f32) y = (V c main_v45 : S100000x128.Idx → EReal) i := by
  obtain ⟨-, -, e0, e1, -⟩ := idx_facts3 t
  unfold iblk3
  rw [View.read_apply]
  show V c main_v45 _ = V c main_v45 _
  congr 1
  funext a; apply Fin.ext
  match a with
  | ⟨0, _⟩ => show win3_1.index t (0 : Fin 2) * 2000 + 1 * (y 0).val = (i 0).val; rw [e0, hi0]; omega
  | ⟨1, _⟩ => show win3_1.index t (1 : Fin 2) * 128 + 1 * (y 1).val = (i 1).val; rw [e1, hi1]; omega

theorem iblk3_2_eq (c : Dev nD) (t : Fin cfg3.N) :
    (iblk3 V c 2 t : FVec Ideal S128x128 .f32) = (V c main_arg9 : S128x128.Idx → EReal) := by
  obtain ⟨-, -, -, -, e0, e1, -⟩ := idx_facts3 t
  funext y
  unfold iblk3
  rw [View.read_apply]
  show V c main_arg9 _ = V c main_arg9 _
  congr 1
  funext a; apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem iblk3_3_eq (c : Dev nD) (t : Fin cfg3.N) :
    (iblk3 V c 3 t : FVec Ideal S1x128 .f32) = (V c main_v59 : S1x128.Idx → EReal) := by
  obtain ⟨-, -, -, -, -, -, e0, e1, -⟩ := idx_facts3 t
  funext y
  unfold iblk3
  rw [View.read_apply]
  show V c main_v59 _ = V c main_v59 _
  congr 1
  funext a; apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem iblk3_4_eq (c : Dev nD) (t : Fin cfg3.N) :
    (iblk3 V c 4 t : FVec Ideal S128x128 .f32) = (V c main_arg11 : S128x128.Idx → EReal) := by
  obtain ⟨-, -, -, -, -, -, -, -, e0, e1, -⟩ := idx_facts3 t
  funext y
  unfold iblk3
  rw [View.read_apply]
  show V c main_arg11 _ = V c main_arg11 _
  congr 1
  funext a; apply Fin.ext
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- What point `t` writes back is block `t` of the last layer of the arrays as the region finds them. -/
theorem flushed3_eq (c : Dev nD) (t : Fin cfg3.N) :
    (dat3 (F := Ideal) V c).flushed 5 t = ((cfg3.win 5).blk t).view.read (Elt Ideal)
      (Cert.Spec.fin (V c main_v58) (V c main_v45) (V c main_arg9) (V c main_v59) (V c main_arg11)) := by
  show (cfg3.win 5).cut (grid3.coords t) ((dat3 V c).after 5 t) = _
  rw [after3_5]
  unfold out3_5
  rw [View.canon_unit_zero hz3]
  simp only [View.ld_unit_zero (S := S2000x128) hz3, View.ld_unit_zero (S := S128x128) hz3, View.ld_unit_zero (S := S1x128) hz3]
  obtain ⟨-, -, -, -, -, -, -, -, -, -, e0, e1⟩ := idx_facts3 t
  funext j
  show k3_pay1 (F := Ideal) (iblk3 V c 0 t) (iblk3 V c 2 t) (iblk3 V c 3 t) (iblk3 V c 1 t) (iblk3 V c 4 t) j
    = Cert.Spec.fin (V c main_v58) (V c main_v45) (V c main_arg9) (V c main_v59) (V c main_arg11) (((cfg3.win 5).blk t).view.emb j)
  refine blockfin3 _ _ _ _ _ _ _ _ _ _ t.val (iblk3_0_apply V c t) (iblk3_1_apply V c t) (iblk3_2_eq V c t) (iblk3_3_eq V c t) (iblk3_4_eq V c t) j _ ?_ ?_
  · show win3_5.index t (0 : Fin 2) * 2000 + 1 * (j 0).val = 2000 * t.val + (j 0).val
    rw [e0]; omega
  · show win3_5.index t (1 : Fin 2) * 128 + 1 * (j 1).val = (j 1).val
    rw [e1]; omega

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v60).slice (win3_5.rect t)).set ↔ _
  rw [View.set_slice_whole, Rect.mem_set_unit]
  exact Iff.rfl

/-- Every row `r` of the array is in the block of point `r / 2000`, and every point writes back. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 50 := N_3
  have ht : (i 0).val / 2000 < cfg3.N := by show _ < grid3.N; rw [hN]; omega
  refine ⟨⟨(i 0).val / 2000, ht⟩, flush3_5 _, ?_⟩
  obtain ⟨-, -, -, -, -, -, -, -, -, -, e0, e1⟩ := idx_facts3 ⟨(i 0).val / 2000, ht⟩
  rw [mem_blk3]
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ (1 : Fin 2) * 128 ≤ (i 1).val ∧ (i 1).val < win3_5.index ⟨(i 0).val / 2000, ht⟩ (1 : Fin 2) * 128 + 128
    rw [e1]; omega

/-- The output array after the region: the last layer of the arrays as the region finds them. -/
theorem final3 (c : Dev nD) : (dat3 (F := Ideal) V c).arrAt 5 cfg3.N
    = Cert.Spec.fin (V c main_v58) (V c main_v45) (V c main_arg9) (V c main_v59) (V c main_arg11) :=
  (dat3 V c).arrAt_eq_of_cover 5 (Cert.Spec.fin (V c main_v58) (V c main_v45) (V c main_arg9) (V c main_v59) (V c main_arg11))
    (fun t _ => flushed3_eq V c t) (fun i => cover3 i)

end Cert.KernelIdeal.Val

end
-- ==== Proof.KI.Agg.lean ====
/-
  The host stretches between the regions, as functions of the buffers' contents, at any float instance.
  From the edge list: the source and target node of each edge (its two rows, each made a vector); the in-degree of
  each node (ones scattered and added at the targets) and its guarded reciprocal, 1 / max(deg, 1) where the degree
  is positive and 0 elsewhere. Before each layer: the mean aggregation of the previous layer's rows — the rows
  gathered at the sources (a negative source wrapped by the node count), scattered and added at the targets, each
  row times the reciprocal degree of its node — and the layer's bias made a row.
-/
import proofs.«147368_j81793357185798_1_alg».proof.Proof.Gen.KernelIdeal.Launch
import Idealize.ShloMosaic.Lib.StableHlo.Run

set_option maxRecDepth 16384

noncomputable section

namespace Cert.KernelIdeal.Agg

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the edge list. -/
def src (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' target nodes: row 1 of the edge list. -/
def dst (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The in-degree of each node: a one per edge, added at the edge's target. -/
def deg (ei : (⟨S2x800000, .i32⟩ : BufTy).Contents (Elt F)) : (⟨S100000, .f32⟩ : BufTy).Contents (Elt F) :=
  Host.scatterAdd scatter_S100000_S800000x1_S800000_n_0_0_1
    (broadcastInDim S100000 ![] bcast_S_S100000 (constant (F := F) S_ .f32 0x00000000#32))
    (broadcastInDim S800000x1 ![0] bcast_S800000_S800000x1_0 (dst ei))
    (broadcastInDim S800000 ![] bcast_S_S800000 (constant (F := F) S_ .f32 0x3F800000#32))

/-- The reciprocal degree: 1 / max(deg, 1) where the degree is positive, 0 elsewhere. -/
def degInv (ei : (⟨S2x800000, .i32⟩ : BufTy).Contents (Elt F)) : (⟨S100000, .f32⟩ : BufTy).Contents (Elt F) :=
  select (cmpf .ogt (deg ei) (broadcastInDim S100000 ![] bcast_S_S100000 (constant (F := F) S_ .f32 0x00000000#32)))
    (Host.divf (broadcastInDim S100000 ![] bcast_S_S100000 (constant (F := F) S_ .f32 0x3F800000#32))
      (maximumf (deg ei) (broadcastInDim S100000 ![] bcast_S_S100000 (constant (F := F) S_ .f32 0x3F800000#32))))
    (broadcastInDim S100000 ![] bcast_S_S100000 (id (constant (F := F) S_ .f32 0x00000000#32)))

/-- The mean aggregation of the rows of h over each node's incoming edges. -/
def aggCore (s d : (⟨S800000, .i32⟩ : BufTy).Contents (Elt F)) (dinv : (⟨S100000, .f32⟩ : BufTy).Contents (Elt F))
    (h : (⟨S100000x128, .f32⟩ : BufTy).Contents (Elt F)) : (⟨S100000x128, .f32⟩ : BufTy).Contents (Elt F) :=
  mulf
    (Host.scatterAdd scatter_S100000x128_S800000x1_S800000x128_1_0_0_1
      (broadcastInDim S100000x128 ![] bcast_S_S100000x128 (constant (F := F) S_ .f32 0x00000000#32))
      (broadcastInDim S800000x1 ![0] bcast_S800000_S800000x1_0 d)
      (Host.gather gather_S100000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 100000#32))) s))))
    (broadcastInDim S100000x128 ![0, 1] bcast_S100000x1_S100000x128_0_1 (broadcastInDim S100000x1 ![0] bcast_S100000_S100000x1_0 dinv))

variable (W : Valuation τ sig (Elt F))

/-! ## The edge list's rows and the reciprocal degree -/

theorem ops0_v1 : StableHlo.after hostOps0 W (Proc.devRef .tc main_v1) = src (F := F) (W (Proc.devRef .tc main_arg1)) := by
  show StableHlo.after hostOps0 W (Proc.devRef .tc main_v1) = _
  after_results
  rfl

theorem ops0_v3 : StableHlo.after hostOps0 W (Proc.devRef .tc main_v3) = dst (F := F) (W (Proc.devRef .tc main_arg1)) := by
  show StableHlo.after hostOps0 W (Proc.devRef .tc main_v3) = _
  after_results
  rfl

set_option maxHeartbeats 2000000 in
theorem ops01_v14 : StableHlo.after hostOps0_1 (StableHlo.after hostOps0 W) (Proc.devRef .tc main_v14) = degInv (F := F) (W (Proc.devRef .tc main_arg1)) := by
  show StableHlo.after hostOps0_1 (StableHlo.after hostOps0 W) (Proc.devRef .tc main_v14) = _
  after_results_simp
  rfl

/-! ## Before each layer: the aggregation and the bias row -/

set_option maxHeartbeats 2000000 in
theorem ops1_v28 : StableHlo.after hostOps1 W (Proc.devRef .tc main_v28)
    = aggCore (F := F) (W (Proc.devRef .tc main_v1)) (W (Proc.devRef .tc main_v3)) (W (Proc.devRef .tc main_v14)) (W (Proc.devRef .tc main_v15)) := by
  show StableHlo.after hostOps1 W (Proc.devRef .tc main_v28) = _
  after_results_simp
  rfl

theorem ops1_v29 : StableHlo.after hostOps1 W (Proc.devRef .tc main_v29) = shapeCast S1x128 (W (Proc.devRef .tc main_arg4)) shapeCasts_S128_S1x128 := by
  show StableHlo.after hostOps1 W (Proc.devRef .tc main_v29) = _
  after_results
  rfl

set_option maxHeartbeats 2000000 in
theorem ops2_v43 : StableHlo.after hostOps2 W (Proc.devRef .tc main_v43)
    = aggCore (F := F) (W (Proc.devRef .tc main_v1)) (W (Proc.devRef .tc main_v3)) (W (Proc.devRef .tc main_v14)) (W (Proc.devRef .tc main_v30)) := by
  show StableHlo.after hostOps2 W (Proc.devRef .tc main_v43) = _
  after_results_simp
  rfl

theorem ops2_v44 : StableHlo.after hostOps2 W (Proc.devRef .tc main_v44) = shapeCast S1x128 (W (Proc.devRef .tc main_arg7)) shapeCasts_S128_S1x128 := by
  show StableHlo.after hostOps2 W (Proc.devRef .tc main_v44) = _
  after_results
  rfl

set_option maxHeartbeats 2000000 in
theorem ops3_v58 : StableHlo.after hostOps3 W (Proc.devRef .tc main_v58)
    = aggCore (F := F) (W (Proc.devRef .tc main_v1)) (W (Proc.devRef .tc main_v3)) (W (Proc.devRef .tc main_v14)) (W (Proc.devRef .tc main_v45)) := by
  show StableHlo.after hostOps3 W (Proc.devRef .tc main_v58) = _
  after_results_simp
  rfl

theorem ops3_v59 : StableHlo.after hostOps3 W (Proc.devRef .tc main_v59) = shapeCast S1x128 (W (Proc.devRef .tc main_arg10)) shapeCasts_S128_S1x128 := by
  show StableHlo.after hostOps3 W (Proc.devRef .tc main_v59) = _
  after_results
  rfl

end Cert.KernelIdeal.Agg

end
-- ==== Proof.Glue.lean ====
/-
  The reference's host stages written with the kernel program's host functions. The two programs declare their shapes
  and layout facts separately, with equal contents, so each of the reference's stages between two feature arrays is,
  by unfolding, the kernel side's function of the same arrays: the edges' sources and targets, the guarded reciprocal
  degree, the mean aggregation of a feature array (gather at the sources, scatter-add at the targets, times the
  reciprocal degree), and a bias made a row — which the reference does by a broadcast along axis 1 and the kernel
  program by a reshape, the same [1, 128] array.
-/
import proofs.«147368_j81793357185798_1_alg».proof.Proof.RefRead
import proofs.«147368_j81793357185798_1_alg».proof.Proof.KI.Agg
import proofs.«147368_j81793357185798_1_alg».proof.Proof.LibLayout

set_option maxRecDepth 16384

noncomputable section

namespace Cert.Glue

open Cert.ReferenceIdeal Cert.ReferenceIdeal.Gen Cert.ReferenceIdeal.ReadP Idealize.ShloMosaic Idealize.ShloMosaic.ValueIdx

variable {F : FTy → Type} [FloatOps F]

/-! ## The edge list's rows and the reciprocal degree -/

/-- The reference's source nodes are the kernel side's. -/
theorem ref_v1 (x1 : (⟨S2x800000, .i32⟩ : BufTy).Contents (Elt F)) : val_main_v1 (F := F) x1 = Cert.KernelIdeal.Agg.src x1 := by
  unfold val_main_v1 val_main_v0 Cert.KernelIdeal.Agg.src
  rfl

/-- The reference's target nodes are the kernel side's. -/
theorem ref_v3 (x1 : (⟨S2x800000, .i32⟩ : BufTy).Contents (Elt F)) : val_main_v3 (F := F) x1 = Cert.KernelIdeal.Agg.dst x1 := by
  unfold val_main_v3 val_main_v2 Cert.KernelIdeal.Agg.dst
  rfl

/-- The reference's reciprocal degree is the kernel side's. -/
theorem ref_v14 (x1 : (⟨S2x800000, .i32⟩ : BufTy).Contents (Elt F)) : val_main_v14 (F := F) x1 = Cert.KernelIdeal.Agg.degInv x1 := by
  unfold val_main_v14 val_main_v9 val_main_v13 val_main_call0_v1 val_main_call0_v0 val_main_cst_4 val_main_v12 val_main_cst_3
    val_main_v11 val_main_v10 val_main_cst_2 val_main_v8 val_main_cst_1 val_main_v7 val_main_v6 val_main_v5 val_main_cst_0
    val_main_v4 val_main_cst val_main_v3 val_main_v2 Cert.KernelIdeal.Agg.degInv Cert.KernelIdeal.Agg.deg Cert.KernelIdeal.Agg.dst
  rfl

/-! ## The aggregation before each layer -/

/-- Before the first middle layer: the aggregation of the projected features. -/
theorem ref_v29 (x0 : (⟨S100000x128, .f32⟩ : BufTy).Contents (Elt F)) (x1 : (⟨S2x800000, .i32⟩ : BufTy).Contents (Elt F)) (x2 : (⟨S128x128, .f32⟩ : BufTy).Contents (Elt F)) :
    val_main_v29 (F := F) x0 x1 x2
      = Cert.KernelIdeal.Agg.aggCore (val_main_v1 x1) (val_main_v3 x1) (val_main_v14 x1) (val_main_v16 x0 x2) := by
  unfold val_main_v29 val_main_v28 val_main_v27 val_main_v26 val_main_v25 val_main_v24 val_main_cst_6 val_main_v23 val_main_v22
    val_main_v21 val_main_v20 val_main_v19 val_main_c_5 val_main_v18 val_main_v17 val_main_c Cert.KernelIdeal.Agg.aggCore
  rfl

/-- Before the second middle layer: the aggregation of the first middle layer's result. -/
theorem ref_v52 (x0 : (⟨S100000x128, .f32⟩ : BufTy).Contents (Elt F)) (x1 : (⟨S2x800000, .i32⟩ : BufTy).Contents (Elt F)) (x2 : (⟨S128x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) :
    val_main_v52 (F := F) x0 x1 x2 x3 x4 x5
      = Cert.KernelIdeal.Agg.aggCore (val_main_v1 x1) (val_main_v3 x1) (val_main_v14 x1) (val_main_v39 x0 x1 x2 x3 x4 x5) := by
  unfold val_main_v52 val_main_v51 val_main_v50 val_main_v49 val_main_v48 val_main_v47 val_main_cst_9 val_main_v46 val_main_v45
    val_main_v44 val_main_v43 val_main_v42 val_main_c_8 val_main_v41 val_main_v40 val_main_c_7 Cert.KernelIdeal.Agg.aggCore
  rfl

/-- Before the last layer: the aggregation of the second middle layer's result. -/
theorem ref_v75 (x0 : (⟨S100000x128, .f32⟩ : BufTy).Contents (Elt F)) (x1 : (⟨S2x800000, .i32⟩ : BufTy).Contents (Elt F)) (x2 : (⟨S128x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) :
    val_main_v75 (F := F) x0 x1 x2 x3 x4 x5 x6 x7 x8
      = Cert.KernelIdeal.Agg.aggCore (val_main_v1 x1) (val_main_v3 x1) (val_main_v14 x1) (val_main_v62 x0 x1 x2 x3 x4 x5 x6 x7 x8) := by
  unfold val_main_v75 val_main_v74 val_main_v73 val_main_v72 val_main_v71 val_main_v70 val_main_cst_12 val_main_v69 val_main_v68
    val_main_v67 val_main_v66 val_main_v65 val_main_c_11 val_main_v64 val_main_v63 val_main_c_10 Cert.KernelIdeal.Agg.aggCore
  rfl

/-! ## A bias made a row -/

/-- A [128] array broadcast along axis 1 of [1, 128] is the array reshaped to [1, 128]: both read, at (u, c), entry c. -/
theorem bcast_row_eq_reshape (x : (⟨Cert.KernelIdeal.S128, .f32⟩ : BufTy).Contents (Elt F)) :
    broadcastInDim S1x128 ![1] bcast_S128_S1x128_1 x
      = shapeCast Cert.KernelIdeal.S1x128 x Cert.KernelIdeal.Gen.shapeCasts_S128_S1x128 := by
  funext i
  obtain ⟨u, c, rfl⟩ : ∃ (u : Fin 1) (c : Fin 128), i = ix2 u c := ⟨i 0, i 1, eq_ix2 i⟩
  rw [Cert.LibLayout.broadcastInDim_b_1b_apply]
  symm
  refine shapeCast_apply x _ _ (ix1 c) ?_
  have hu : u.val = 0 := by omega
  rw [Shape.rowMajor_val_two, Shape.rowMajor_val_one]
  show c.val = u.val * 128 + c.val
  omega

/-- The first middle layer's bias row. -/
theorem bias_row (x : (⟨Cert.KernelIdeal.S128, .f32⟩ : BufTy).Contents (Elt F)) :
    val_main_v32 (F := F) x = shapeCast Cert.KernelIdeal.S1x128 x Cert.KernelIdeal.Gen.shapeCasts_S128_S1x128 :=
  bcast_row_eq_reshape x

/-- The second middle layer's bias row. -/
theorem bias_row55 (x : (⟨Cert.KernelIdeal.S128, .f32⟩ : BufTy).Contents (Elt F)) :
    val_main_v55 (F := F) x = shapeCast Cert.KernelIdeal.S1x128 x Cert.KernelIdeal.Gen.shapeCasts_S128_S1x128 :=
  bcast_row_eq_reshape x

/-- The last layer's bias row. -/
theorem bias_row78 (x : (⟨Cert.KernelIdeal.S128, .f32⟩ : BufTy).Contents (Elt F)) :
    val_main_v78 (F := F) x = shapeCast Cert.KernelIdeal.S1x128 x Cert.KernelIdeal.Gen.shapeCasts_S128_S1x128 :=
  bcast_row_eq_reshape x

end Cert.Glue

end
-- ==== Proof.RefStages.lean ====
/-
  The reference's four feature stages as the specification's functions of the stages before them, entry by entry over the
  extended reals. The reference computes each x · wᵀ as a transposition of w followed by a contraction of x's axis 1 with
  the transposed matrix's axis 0, so its entry (p, q) is ∑ k, x[p, k] · w[q, k] = `lin x w p q`; a bias is broadcast
  first to a row [1, 128] and then down the rows; the positive part is a maximum with a broadcast zero; the row norm is
  the square root of a row sum of squares started at zero, kept above the literal 1e-12, and broadcast along the row.
-/
import proofs.«147368_j81793357185798_1_alg».proof.Proof.RefRead
import proofs.«147368_j81793357185798_1_alg».proof.Proof.Spec
import proofs.«147368_j81793357185798_1_alg».proof.Proof.LibLayout
import Idealize.ShloMosaic.Lib.ValueIdx
import Idealize.ShloMosaic.PureOps.Ideal.Laws

set_option maxRecDepth 16384

noncomputable section

namespace Cert.RefStages

open Cert.ReferenceIdeal Cert.ReferenceIdeal.ReadP Idealize.ShloMosaic Idealize.ShloMosaic.ValueIdx
open Cert.Spec (SN SW SB)

/-! ## The shapes of a layer, over any arrays -/

/-- A contraction of row `p` of `m` with column `q` of `wt`, the transposed `w`, read at indices `li k`, `ri k` that are
    `(p, k)` and `(k, q)`: the entry `(p, q)` of `m · wᵀ`. -/
theorem lin_at (m : SN.Idx → EReal) (w wt : SW.Idx → EReal) (hwt : ∀ a b : Fin 128, wt (ix2 a b) = w (ix2 b a))
    (p : Fin 100000) (q : Fin 128) (li : Fin 128 → SN.Idx) (ri : Fin 128 → SW.Idx)
    (hli : ∀ k, li k = ix2 p k) (hri : ∀ k, ri k = ix2 k q) :
    ∑ k : Fin 128, m (li k) * wt (ri k) = Cert.Spec.lin m w p q := by
  unfold Cert.Spec.lin
  refine Finset.sum_congr rfl fun k _ => ?_
  rw [hli, hri, hwt]

/-- Three summands that are the two products' entries and the bias's make `pre`. -/
theorem pre_of (mean h : SN.Idx → EReal) (wl : SW.Idx → EReal) (b : SB.Idx → EReal) (wr : SW.Idx → EReal)
    (p : Fin 100000) (q : Fin 128) (A B C : EReal) (hA : A = Cert.Spec.lin mean wl p q) (hB : B = b (ix2 (0 : Fin 1) q))
    (hC : C = Cert.Spec.lin h wr p q) : A + B + C = Cert.Spec.pre mean h wl b wr p q := by
  subst hA hB hC; rfl

/-! ## The input projection -/

/-- The projection x · w₀ᵀ. -/
theorem v16_eq (x0 : (⟨S100000x128, .f32⟩ : BufTy).Contents (Elt Ideal)) (x2 : (⟨S128x128, .f32⟩ : BufTy).Contents (Elt Ideal)) : val_main_v16 (F := Ideal) x0 x2 = Cert.Spec.proj x0 x2 := by
  funext i
  obtain ⟨p, q, rfl⟩ : ∃ (p : Fin 100000) (q : Fin 128), i = ix2 p q := ⟨i 0, i 1, eq_ix2 i⟩
  rw [val_main_v16_apply]
  exact lin_at x0 x2 (val_main_v15 (F := Ideal) x2) (fun a b => by rw [val_main_v15_apply]; exact congrArg x2 (funext fun a => by match a with | ⟨0, _⟩ => rfl | ⟨1, _⟩ => rfl)) p q (lidx_main_v16 (ix2 p q)) (ridx_main_v16 (ix2 p q))
    (fun k => (funext fun a => by match a with | ⟨0, _⟩ => rfl | ⟨1, _⟩ => rfl)) (fun k => (funext fun a => by match a with | ⟨0, _⟩ => rfl | ⟨1, _⟩ => rfl))

/-! ## The first middle layer -/

/-- The first layer before its nonlinearity: (mean · wlᵀ + b) + h · wrᵀ at `(p, q)`. -/
theorem v37_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 : (⟨S128x128, .f32⟩ : BufTy).Contents (Elt Ideal)) (p : Fin 100000) (q : Fin 128) :
    val_main_v37 (F := Ideal) x0 x1 x2 x3 x4 x5 (ix2 p q)
      = Cert.Spec.pre (val_main_v29 (F := Ideal) x0 x1 x2) (val_main_v16 (F := Ideal) x0 x2) x3 (val_main_v32 (F := Ideal) x4) x5 p q := by
  rw [val_main_v37_apply, val_main_v34_apply, val_main_v31_apply, val_main_v33_apply, val_main_v36_apply]
  simp only [Ideal.addf_def]
  refine pre_of _ _ _ _ _ p q _ _ _ ?_ ?_ ?_
  · exact lin_at _ x3 (val_main_v30 (F := Ideal) x3) (fun a b => by rw [val_main_v30_apply]; exact congrArg x3 (funext fun a => by match a with | ⟨0, _⟩ => rfl | ⟨1, _⟩ => rfl)) p q (lidx_main_v31 (ix2 p q)) (ridx_main_v31 (ix2 p q))
      (fun k => (funext fun a => by match a with | ⟨0, _⟩ => rfl | ⟨1, _⟩ => rfl)) (fun k => (funext fun a => by match a with | ⟨0, _⟩ => rfl | ⟨1, _⟩ => rfl))
  · exact congrArg (val_main_v32 (F := Ideal) x4) (funext fun a => by match a with | ⟨0, _⟩ => rfl | ⟨1, _⟩ => rfl)
  · exact lin_at _ x5 (val_main_v35 (F := Ideal) x5) (fun a b => by rw [val_main_v35_apply]; exact congrArg x5 (funext fun a => by match a with | ⟨0, _⟩ => rfl | ⟨1, _⟩ => rfl)) p q (lidx_main_v36 (ix2 p q)) (ridx_main_v36 (ix2 p q))
      (fun k => (funext fun a => by match a with | ⟨0, _⟩ => rfl | ⟨1, _⟩ => rfl)) (fun k => (funext fun a => by match a with | ⟨0, _⟩ => rfl | ⟨1, _⟩ => rfl))

/-- The first layer: the positive part of its `pre`, plus the input features. -/
theorem v39_eq (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v39 (F := Ideal) x0 x1 x2 x3 x4 x5 = Cert.Spec.mid (val_main_v29 (F := Ideal) x0 x1 x2) (val_main_v16 (F := Ideal) x0 x2) x3 (val_main_v32 (F := Ideal) x4) x5 x0 := by
  funext i
  obtain ⟨p, q, rfl⟩ : ∃ (p : Fin 100000) (q : Fin 128), i = ix2 p q := ⟨i 0, i 1, eq_ix2 i⟩
  rw [val_main_v39_apply, val_main_v38_apply, val_main_call1_v0_apply, val_main_call1_cst_apply, v37_at ]
  unfold Cert.Spec.mid
  simp only [Ideal.addf_def, Ideal.maximumf_def, Ideal.ofBits_def]
  try rfl

/-! ## The second middle layer -/

/-- The second layer before its nonlinearity at `(p, q)`. -/
theorem v60_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) (p : Fin 100000) (q : Fin 128) :
    val_main_v60 (F := Ideal) x0 x1 x2 x3 x4 x5 x6 x7 x8 (ix2 p q)
      = Cert.Spec.pre (val_main_v52 (F := Ideal) x0 x1 x2 x3 x4 x5) (val_main_v39 (F := Ideal) x0 x1 x2 x3 x4 x5) x6 (val_main_v55 (F := Ideal) x7) x8 p q := by
  rw [val_main_v60_apply, val_main_v57_apply, val_main_v54_apply, val_main_v56_apply, val_main_v59_apply]
  simp only [Ideal.addf_def]
  refine pre_of _ _ _ _ _ p q _ _ _ ?_ ?_ ?_
  · exact lin_at _ x6 (val_main_v53 (F := Ideal) x6) (fun a b => by rw [val_main_v53_apply]; exact congrArg x6 (funext fun a => by match a with | ⟨0, _⟩ => rfl | ⟨1, _⟩ => rfl)) p q (lidx_main_v54 (ix2 p q)) (ridx_main_v54 (ix2 p q))
      (fun k => (funext fun a => by match a with | ⟨0, _⟩ => rfl | ⟨1, _⟩ => rfl)) (fun k => (funext fun a => by match a with | ⟨0, _⟩ => rfl | ⟨1, _⟩ => rfl))
  · exact congrArg (val_main_v55 (F := Ideal) x7) (funext fun a => by match a with | ⟨0, _⟩ => rfl | ⟨1, _⟩ => rfl)
  · exact lin_at _ x8 (val_main_v58 (F := Ideal) x8) (fun a b => by rw [val_main_v58_apply]; exact congrArg x8 (funext fun a => by match a with | ⟨0, _⟩ => rfl | ⟨1, _⟩ => rfl)) p q (lidx_main_v59 (ix2 p q)) (ridx_main_v59 (ix2 p q))
      (fun k => (funext fun a => by match a with | ⟨0, _⟩ => rfl | ⟨1, _⟩ => rfl)) (fun k => (funext fun a => by match a with | ⟨0, _⟩ => rfl | ⟨1, _⟩ => rfl))

/-- The second layer: the positive part of its `pre`, plus the first layer's output. -/
theorem v62_eq (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v62 (F := Ideal) x0 x1 x2 x3 x4 x5 x6 x7 x8 = Cert.Spec.mid (val_main_v52 (F := Ideal) x0 x1 x2 x3 x4 x5) (val_main_v39 (F := Ideal) x0 x1 x2 x3 x4 x5) x6 (val_main_v55 (F := Ideal) x7) x8 (val_main_v39 (F := Ideal) x0 x1 x2 x3 x4 x5) := by
  funext i
  obtain ⟨p, q, rfl⟩ : ∃ (p : Fin 100000) (q : Fin 128), i = ix2 p q := ⟨i 0, i 1, eq_ix2 i⟩
  rw [val_main_v62_apply, val_main_v61_apply, val_main_call2_v0_apply, val_main_call2_cst_apply, v60_at ]
  unfold Cert.Spec.mid
  simp only [Ideal.addf_def, Ideal.maximumf_def, Ideal.ofBits_def]
  try rfl

/-! ## The last layer -/

/-- The last layer before its normalization at `(p, q)`. -/
theorem v83_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (p : Fin 100000) (q : Fin 128) :
    val_main_v83 (F := Ideal) x0 x1 x2 x3 x4 x5 x6 x7 x8 x9 x10 x11 (ix2 p q)
      = Cert.Spec.pre (val_main_v75 (F := Ideal) x0 x1 x2 x3 x4 x5 x6 x7 x8) (val_main_v62 (F := Ideal) x0 x1 x2 x3 x4 x5 x6 x7 x8) x9 (val_main_v78 (F := Ideal) x10) x11 p q := by
  rw [val_main_v83_apply, val_main_v80_apply, val_main_v77_apply, val_main_v79_apply, val_main_v82_apply]
  simp only [Ideal.addf_def]
  refine pre_of _ _ _ _ _ p q _ _ _ ?_ ?_ ?_
  · exact lin_at _ x9 (val_main_v76 (F := Ideal) x9) (fun a b => by rw [val_main_v76_apply]; exact congrArg x9 (funext fun a => by match a with | ⟨0, _⟩ => rfl | ⟨1, _⟩ => rfl)) p q (lidx_main_v77 (ix2 p q)) (ridx_main_v77 (ix2 p q))
      (fun k => (funext fun a => by match a with | ⟨0, _⟩ => rfl | ⟨1, _⟩ => rfl)) (fun k => (funext fun a => by match a with | ⟨0, _⟩ => rfl | ⟨1, _⟩ => rfl))
  · exact congrArg (val_main_v78 (F := Ideal) x10) (funext fun a => by match a with | ⟨0, _⟩ => rfl | ⟨1, _⟩ => rfl)
  · exact lin_at _ x11 (val_main_v81 (F := Ideal) x11) (fun a b => by rw [val_main_v81_apply]; exact congrArg x11 (funext fun a => by match a with | ⟨0, _⟩ => rfl | ⟨1, _⟩ => rfl)) p q (lidx_main_v82 (ix2 p q)) (ridx_main_v82 (ix2 p q))
      (fun k => (funext fun a => by match a with | ⟨0, _⟩ => rfl | ⟨1, _⟩ => rfl)) (fun k => (funext fun a => by match a with | ⟨0, _⟩ => rfl | ⟨1, _⟩ => rfl))

/-- The row sum of squares of the last layer's `pre`: the reduction starts at the constant zero, which is the number 0. -/
theorem v85_at (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (p : Fin 100000) :
    val_main_v85 (F := Ideal) x0 x1 x2 x3 x4 x5 x6 x7 x8 x9 x10 x11 (ix1 p)
      = Cert.Spec.sq (val_main_v75 (F := Ideal) x0 x1 x2 x3 x4 x5 x6 x7 x8) (val_main_v62 (F := Ideal) x0 x1 x2 x3 x4 x5 x6 x7 x8) x9 (val_main_v78 (F := Ideal) x10) x11 p := by
  rw [val_main_v85_apply, val_main_cst_13_apply, Ideal.ofBits_def, Ideal.ofBits_zero_f32, zero_add]
  unfold Cert.Spec.sq
  refine Finset.sum_congr rfl fun k _ => ?_
  rw [show idx_main_v85 (ix1 p) k = ix2 p k from (funext fun a => by match a with | ⟨0, _⟩ => rfl | ⟨1, _⟩ => rfl), val_main_v84_apply, Ideal.mulf_def, v83_at]

/-- The last layer: each row of `pre` over its length, the length kept above the literal 1e-12. -/
theorem v91_eq (x0 : (⟨S100000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v91 (F := Ideal) x0 x1 x2 x3 x4 x5 x6 x7 x8 x9 x10 x11
      = Cert.Spec.fin (val_main_v75 (F := Ideal) x0 x1 x2 x3 x4 x5 x6 x7 x8) (val_main_v62 (F := Ideal) x0 x1 x2 x3 x4 x5 x6 x7 x8) x9 (val_main_v78 (F := Ideal) x10) x11 := by
  funext i
  obtain ⟨p, q, rfl⟩ : ∃ (p : Fin 100000) (q : Fin 128), i = ix2 p q := ⟨i 0, i 1, eq_ix2 i⟩
  rw [val_main_v91_apply, val_main_v90_apply, val_main_v89_apply, val_main_v87_apply, val_main_v86_apply, val_main_v88_apply,
    val_main_cst_14_apply, v83_at, show idx_main_v86 (idx_main_v90 (ix2 p q)) = ix1 p from (funext fun a => by match a with | ⟨0, _⟩ => rfl), v85_at]
  unfold Cert.Spec.fin
  simp only [Ideal.hostDivf_def, Ideal.maximumf_def, Ideal.hostUnary_sqrt_def, Ideal.ofBits_def]
  try rfl

end Cert.RefStages

end
-- ==== Proof.KI.Value.lean ====
/-
  The kernel program's result as the reference's last stage of the launch arguments, by walking the boundaries of
  @main. At region 0's entry the buffers hold the edge list's source and target rows and the reciprocal degrees, as
  the reference's stages of the edge list, and every argument as launched; no later host stretch or region writes
  these. Region 0 leaves the projection; before each later region the host aggregates the previous region's result
  and makes the layer's bias a row — the reference's stages of the same arrays —, and the region leaves the layer's
  function of its operand arrays, which is the reference's stage. The last region leaves the reference's result.
-/
import proofs.«147368_j81793357185798_1_alg».proof.Proof.KI.Fold
import proofs.«147368_j81793357185798_1_alg».proof.Proof.KI.Val0
import proofs.«147368_j81793357185798_1_alg».proof.Proof.KI.Val1
import proofs.«147368_j81793357185798_1_alg».proof.Proof.KI.Val2
import proofs.«147368_j81793357185798_1_alg».proof.Proof.KI.Val3
import proofs.«147368_j81793357185798_1_alg».proof.Proof.KI.Agg
import proofs.«147368_j81793357185798_1_alg».proof.Proof.Glue
import proofs.«147368_j81793357185798_1_alg».proof.Proof.RefStages

set_option maxRecDepth 16384

noncomputable section

namespace Cert.KernelIdeal.Val

open Cert.KernelIdeal Cert.KernelIdeal.Gen Idealize.ShloMosaic Idealize.ShloMosaic.TcCoe Idealize.SL.Sem
open Cert.ReferenceIdeal.ReadP
open Cert.Spec (SN SW SB)

/-! ## Equal operands, equal results -/

theorem proj_congr {x x' : SN.Idx → EReal} {w w' : SW.Idx → EReal} (hx : x = x') (hw : w = w') :
    Cert.Spec.proj x w = Cert.Spec.proj x' w' := by subst hx hw; rfl

theorem mid_congr {a a' h h' r r' : SN.Idx → EReal} {wl wl' wr wr' : SW.Idx → EReal} {b b' : SB.Idx → EReal}
    (ha : a = a') (hh : h = h') (hwl : wl = wl') (hb : b = b') (hwr : wr = wr') (hr : r = r') :
    Cert.Spec.mid a h wl b wr r = Cert.Spec.mid a' h' wl' b' wr' r' := by subst ha hh hwl hb hwr hr; rfl

theorem fin_congr {a a' h h' : SN.Idx → EReal} {wl wl' wr wr' : SW.Idx → EReal} {b b' : SB.Idx → EReal}
    (ha : a = a') (hh : h = h') (hwl : wl = wl') (hb : b = b') (hwr : wr = wr') :
    Cert.Spec.fin a h wl b wr = Cert.Spec.fin a' h' wl' b' wr' := by subst ha hh hwl hb hwr; rfl

theorem agg_congr {s s' d d' : (⟨S800000, .i32⟩ : BufTy).Contents (Elt Ideal)} {e e' : (⟨S100000, .f32⟩ : BufTy).Contents (Elt Ideal)}
    {h h' : (⟨S100000x128, .f32⟩ : BufTy).Contents (Elt Ideal)} (hs : s = s') (hd : d = d') (he : e = e') (hh : h = h') :
    Agg.aggCore (F := Ideal) s d e h = Agg.aggCore s' d' e' h' := by subst hs hd he hh; rfl

theorem row_congr {x x' : (⟨S128, .f32⟩ : BufTy).Contents (Elt Ideal)} (hx : x = x') :
    shapeCast S1x128 x shapeCasts_S128_S1x128 = shapeCast S1x128 x' shapeCasts_S128_S1x128 := by subst hx; rfl

/-! ## What no later item writes -/

/-- The edge list's rows, the reciprocal degrees and the arguments: written by no host stretch after region 0's entry
    and by no region. -/
abbrev kept : List (Ref sig .tc) :=
  [main_v1, main_v3, main_v14, main_arg0, main_arg1, main_arg2, main_arg3, main_arg4, main_arg5, main_arg6, main_arg7, main_arg8,
    main_arg9, main_arg10, main_arg11]

theorem kept_free : ∀ r ∈ kept, r ∉ hostOps1_W ∧ r ∉ hostOps2_W ∧ r ∉ hostOps3_W
    ∧ r ∉ ([main_v15] : List (Ref sig .tc)) ∧ r ∉ ([main_v30] : List (Ref sig .tc)) ∧ r ∉ ([main_v45] : List (Ref sig .tc)) := by
  decide

variable (m : (ℓ : Loc nD τ sig) → Buf (Elt Ideal) ℓ) (c : Dev nD)

/-- A host stretch leaves a buffer it does not write as it was; a region leaves every buffer but its output array. -/
theorem after1_of (W : Valuation τ sig (Elt Ideal)) (r : Ref sig .tc) (h : r ∉ hostOps1_W) : StableHlo.after hostOps1 W r = W r :=
  StableHlo.after_of_writes_sub hostOps1 W hostOps1_writes h
theorem after2_of (W : Valuation τ sig (Elt Ideal)) (r : Ref sig .tc) (h : r ∉ hostOps2_W) : StableHlo.after hostOps2 W r = W r :=
  StableHlo.after_of_writes_sub hostOps2 W hostOps2_writes h
theorem after3_of (W : Valuation τ sig (Elt Ideal)) (r : Ref sig .tc) (h : r ∉ hostOps3_W) : StableHlo.after hostOps3 W r = W r :=
  StableHlo.after_of_writes_sub hostOps3 W hostOps3_writes h

theorem u3_of (r : Ref sig .tc) (h : r ∉ ([main_v15] : List (Ref sig .tc))) : Fr.U3 m c r = Fr.T2 m c r := by
  show Function.update (Fr.T2 m c) main_v15 (Fr.x3 m c) r = _
  exact Function.update_of_ne (StableHlo.devRef_ne_of_ne (List.ne_of_not_mem_cons h)) _ _
theorem u5_of (r : Ref sig .tc) (h : r ∉ ([main_v30] : List (Ref sig .tc))) : Fr.U5 m c r = Fr.T4 m c r := by
  show Function.update (Fr.T4 m c) main_v30 (Fr.x5 m c) r = _
  exact Function.update_of_ne (StableHlo.devRef_ne_of_ne (List.ne_of_not_mem_cons h)) _ _
theorem u7_of (r : Ref sig .tc) (h : r ∉ ([main_v45] : List (Ref sig .tc))) : Fr.U7 m c r = Fr.T6 m c r := by
  show Function.update (Fr.T6 m c) main_v45 (Fr.x7 m c) r = _
  exact Function.update_of_ne (StableHlo.devRef_ne_of_ne (List.ne_of_not_mem_cons h)) _ _

theorem u3_keep (r : Ref sig .tc) (hr : r ∈ kept) : Fr.U3 m c r = Fr.T2 m c r := u3_of m c r (kept_free r hr).2.2.2.1
theorem t4_keep (r : Ref sig .tc) (hr : r ∈ kept) : Fr.T4 m c r = Fr.T2 m c r :=
  (after1_of (Fr.U3 m c) r (kept_free r hr).1).trans (u3_keep m c r hr)
theorem u5_keep (r : Ref sig .tc) (hr : r ∈ kept) : Fr.U5 m c r = Fr.T2 m c r :=
  (u5_of m c r (kept_free r hr).2.2.2.2.1).trans (t4_keep m c r hr)
theorem t6_keep (r : Ref sig .tc) (hr : r ∈ kept) : Fr.T6 m c r = Fr.T2 m c r :=
  (after2_of (Fr.U5 m c) r (kept_free r hr).2.1).trans (u5_keep m c r hr)
theorem u7_keep (r : Ref sig .tc) (hr : r ∈ kept) : Fr.U7 m c r = Fr.T2 m c r :=
  (u7_of m c r (kept_free r hr).2.2.2.2.2).trans (t6_keep m c r hr)
theorem t8_keep (r : Ref sig .tc) (hr : r ∈ kept) : Fr.T8 m c r = Fr.T2 m c r :=
  (after3_of (Fr.U7 m c) r (kept_free r hr).2.2.1).trans (u7_keep m c r hr)

/-! ## Region 0's entry -/

theorem t2_v1 : Fr.T2 m c main_v1 = (val_main_v1 (F := Ideal) (m ((c : Thread nD τ).loc main_arg1))) :=
  (V2_of m c main_v1 (by decide)).trans ((Agg.ops0_v1 (V0 m c)).trans (Cert.Glue.ref_v1 _).symm)
theorem t2_v3 : Fr.T2 m c main_v3 = (val_main_v3 (F := Ideal) (m ((c : Thread nD τ).loc main_arg1))) :=
  (V2_of m c main_v3 (by decide)).trans ((Agg.ops0_v3 (V0 m c)).trans (Cert.Glue.ref_v3 _).symm)
theorem t2_v14 : Fr.T2 m c main_v14 = (val_main_v14 (F := Ideal) (m ((c : Thread nD τ).loc main_arg1))) :=
  (Agg.ops01_v14 (V0 m c)).trans (Cert.Glue.ref_v14 _).symm
theorem t2_arg0 : Fr.T2 m c main_arg0 = (m ((c : Thread nD τ).loc main_arg0)) :=
  (V2_of m c main_arg0 (by decide)).trans ((V1_of m c main_arg0 (by decide)).trans rfl)
theorem t2_arg1 : Fr.T2 m c main_arg1 = (m ((c : Thread nD τ).loc main_arg1)) :=
  (V2_of m c main_arg1 (by decide)).trans ((V1_of m c main_arg1 (by decide)).trans rfl)
theorem t2_arg2 : Fr.T2 m c main_arg2 = (m ((c : Thread nD τ).loc main_arg2)) :=
  (V2_of m c main_arg2 (by decide)).trans ((V1_of m c main_arg2 (by decide)).trans rfl)
theorem t2_arg3 : Fr.T2 m c main_arg3 = (m ((c : Thread nD τ).loc main_arg3)) :=
  (V2_of m c main_arg3 (by decide)).trans ((V1_of m c main_arg3 (by decide)).trans rfl)
theorem t2_arg4 : Fr.T2 m c main_arg4 = (m ((c : Thread nD τ).loc main_arg4)) :=
  (V2_of m c main_arg4 (by decide)).trans ((V1_of m c main_arg4 (by decide)).trans rfl)
theorem t2_arg5 : Fr.T2 m c main_arg5 = (m ((c : Thread nD τ).loc main_arg5)) :=
  (V2_of m c main_arg5 (by decide)).trans ((V1_of m c main_arg5 (by decide)).trans rfl)
theorem t2_arg6 : Fr.T2 m c main_arg6 = (m ((c : Thread nD τ).loc main_arg6)) :=
  (V2_of m c main_arg6 (by decide)).trans ((V1_of m c main_arg6 (by decide)).trans rfl)
theorem t2_arg7 : Fr.T2 m c main_arg7 = (m ((c : Thread nD τ).loc main_arg7)) :=
  (V2_of m c main_arg7 (by decide)).trans ((V1_of m c main_arg7 (by decide)).trans rfl)
theorem t2_arg8 : Fr.T2 m c main_arg8 = (m ((c : Thread nD τ).loc main_arg8)) :=
  (V2_of m c main_arg8 (by decide)).trans ((V1_of m c main_arg8 (by decide)).trans rfl)
theorem t2_arg9 : Fr.T2 m c main_arg9 = (m ((c : Thread nD τ).loc main_arg9)) :=
  (V2_of m c main_arg9 (by decide)).trans ((V1_of m c main_arg9 (by decide)).trans rfl)
theorem t2_arg10 : Fr.T2 m c main_arg10 = (m ((c : Thread nD τ).loc main_arg10)) :=
  (V2_of m c main_arg10 (by decide)).trans ((V1_of m c main_arg10 (by decide)).trans rfl)
theorem t2_arg11 : Fr.T2 m c main_arg11 = (m ((c : Thread nD τ).loc main_arg11)) :=
  (V2_of m c main_arg11 (by decide)).trans ((V1_of m c main_arg11 (by decide)).trans rfl)

/-! ## Region 0, and region 1's entry -/

theorem x3_eq : Fr.x3 m c = (val_main_v16 (F := Ideal) (m ((c : Thread nD τ).loc main_arg0)) (m ((c : Thread nD τ).loc main_arg2))) :=
  (final0 (Fr.onRefs (Fr.T2 m)) c).trans ((proj_congr (t2_arg0 m c) (t2_arg2 m c)).trans (Cert.RefStages.v16_eq _ _).symm)

theorem u3_v15 : Fr.U3 m c main_v15 = (val_main_v16 (F := Ideal) (m ((c : Thread nD τ).loc main_arg0)) (m ((c : Thread nD τ).loc main_arg2))) := by
  refine Eq.trans ?_ (x3_eq m c)
  show Function.update (Fr.T2 m c) main_v15 (Fr.x3 m c) main_v15 = _
  exact Function.update_self _ _ _
theorem u3_v1 : Fr.U3 m c main_v1 = (val_main_v1 (F := Ideal) (m ((c : Thread nD τ).loc main_arg1))) :=
  (u3_keep m c main_v1 (by decide)).trans (t2_v1 m c)
theorem u3_v3 : Fr.U3 m c main_v3 = (val_main_v3 (F := Ideal) (m ((c : Thread nD τ).loc main_arg1))) :=
  (u3_keep m c main_v3 (by decide)).trans (t2_v3 m c)
theorem u3_v14 : Fr.U3 m c main_v14 = (val_main_v14 (F := Ideal) (m ((c : Thread nD τ).loc main_arg1))) :=
  (u3_keep m c main_v14 (by decide)).trans (t2_v14 m c)
theorem u3_arg4 : Fr.U3 m c main_arg4 = (m ((c : Thread nD τ).loc main_arg4)) :=
  (u3_keep m c main_arg4 (by decide)).trans (t2_arg4 m c)

theorem t4_v15 : Fr.T4 m c main_v15 = (val_main_v16 (F := Ideal) (m ((c : Thread nD τ).loc main_arg0)) (m ((c : Thread nD τ).loc main_arg2))) :=
  (after1_of (Fr.U3 m c) main_v15 (by decide)).trans (u3_v15 m c)
theorem t4_v28 : Fr.T4 m c main_v28 = (val_main_v29 (F := Ideal) (m ((c : Thread nD τ).loc main_arg0)) (m ((c : Thread nD τ).loc main_arg1)) (m ((c : Thread nD τ).loc main_arg2))) :=
  (Agg.ops1_v28 (Fr.U3 m c)).trans ((agg_congr (u3_v1 m c) (u3_v3 m c) (u3_v14 m c) (u3_v15 m c)).trans (Cert.Glue.ref_v29 _ _ _).symm)
theorem t4_v29 : Fr.T4 m c main_v29 = (val_main_v32 (F := Ideal) (m ((c : Thread nD τ).loc main_arg4))) :=
  (Agg.ops1_v29 (Fr.U3 m c)).trans ((row_congr (u3_arg4 m c)).trans (Cert.Glue.bias_row _).symm)
theorem t4_arg0 : Fr.T4 m c main_arg0 = (m ((c : Thread nD τ).loc main_arg0)) :=
  (t4_keep m c main_arg0 (by decide)).trans (t2_arg0 m c)
theorem t4_arg3 : Fr.T4 m c main_arg3 = (m ((c : Thread nD τ).loc main_arg3)) :=
  (t4_keep m c main_arg3 (by decide)).trans (t2_arg3 m c)
theorem t4_arg5 : Fr.T4 m c main_arg5 = (m ((c : Thread nD τ).loc main_arg5)) :=
  (t4_keep m c main_arg5 (by decide)).trans (t2_arg5 m c)

/-! ## Region 1, and region 2's entry -/

theorem x5_eq : Fr.x5 m c = (val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (final1 (Fr.onRefs (Fr.T4 m)) c).trans
    ((mid_congr (t4_v28 m c) (t4_v15 m c) (t4_arg3 m c) (t4_v29 m c) (t4_arg5 m c) (t4_arg0 m c)).trans (Cert.RefStages.v39_eq _ _ _ _ _ _).symm)

theorem u5_v30 : Fr.U5 m c main_v30 = (val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine Eq.trans ?_ (x5_eq m c)
  show Function.update (Fr.T4 m c) main_v30 (Fr.x5 m c) main_v30 = _
  exact Function.update_self _ _ _
theorem u5_v1 : Fr.U5 m c main_v1 = (val_main_v1 (F := Ideal) (m ((c : Thread nD τ).loc main_arg1))) :=
  (u5_keep m c main_v1 (by decide)).trans (t2_v1 m c)
theorem u5_v3 : Fr.U5 m c main_v3 = (val_main_v3 (F := Ideal) (m ((c : Thread nD τ).loc main_arg1))) :=
  (u5_keep m c main_v3 (by decide)).trans (t2_v3 m c)
theorem u5_v14 : Fr.U5 m c main_v14 = (val_main_v14 (F := Ideal) (m ((c : Thread nD τ).loc main_arg1))) :=
  (u5_keep m c main_v14 (by decide)).trans (t2_v14 m c)
theorem u5_arg7 : Fr.U5 m c main_arg7 = (m ((c : Thread nD τ).loc main_arg7)) :=
  (u5_keep m c main_arg7 (by decide)).trans (t2_arg7 m c)

theorem t6_v30 : Fr.T6 m c main_v30 = (val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (after2_of (Fr.U5 m c) main_v30 (by decide)).trans (u5_v30 m c)
theorem t6_v43 : Fr.T6 m c main_v43 = (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (Agg.ops2_v43 (Fr.U5 m c)).trans ((agg_congr (u5_v1 m c) (u5_v3 m c) (u5_v14 m c) (u5_v30 m c)).trans (Cert.Glue.ref_v52 _ _ _ _ _ _).symm)
theorem t6_v44 : Fr.T6 m c main_v44 = (val_main_v55 (F := Ideal) (m ((c : Thread nD τ).loc main_arg7))) :=
  (Agg.ops2_v44 (Fr.U5 m c)).trans ((row_congr (u5_arg7 m c)).trans (Cert.Glue.bias_row55 _).symm)
theorem t6_arg6 : Fr.T6 m c main_arg6 = (m ((c : Thread nD τ).loc main_arg6)) :=
  (t6_keep m c main_arg6 (by decide)).trans (t2_arg6 m c)
theorem t6_arg8 : Fr.T6 m c main_arg8 = (m ((c : Thread nD τ).loc main_arg8)) :=
  (t6_keep m c main_arg8 (by decide)).trans (t2_arg8 m c)

/-! ## Region 2, and region 3's entry -/

theorem x7_eq : Fr.x7 m c = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (final2 (Fr.onRefs (Fr.T6 m)) c).trans
    ((mid_congr (t6_v43 m c) (t6_v30 m c) (t6_arg6 m c) (t6_v44 m c) (t6_arg8 m c) (t6_v30 m c)).trans (Cert.RefStages.v62_eq _ _ _ _ _ _ _ _ _).symm)

theorem u7_v45 : Fr.U7 m c main_v45 = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine Eq.trans ?_ (x7_eq m c)
  show Function.update (Fr.T6 m c) main_v45 (Fr.x7 m c) main_v45 = _
  exact Function.update_self _ _ _
theorem u7_v1 : Fr.U7 m c main_v1 = (val_main_v1 (F := Ideal) (m ((c : Thread nD τ).loc main_arg1))) :=
  (u7_keep m c main_v1 (by decide)).trans (t2_v1 m c)
theorem u7_v3 : Fr.U7 m c main_v3 = (val_main_v3 (F := Ideal) (m ((c : Thread nD τ).loc main_arg1))) :=
  (u7_keep m c main_v3 (by decide)).trans (t2_v3 m c)
theorem u7_v14 : Fr.U7 m c main_v14 = (val_main_v14 (F := Ideal) (m ((c : Thread nD τ).loc main_arg1))) :=
  (u7_keep m c main_v14 (by decide)).trans (t2_v14 m c)
theorem u7_arg10 : Fr.U7 m c main_arg10 = (m ((c : Thread nD τ).loc main_arg10)) :=
  (u7_keep m c main_arg10 (by decide)).trans (t2_arg10 m c)

theorem t8_v45 : Fr.T8 m c main_v45 = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (after3_of (Fr.U7 m c) main_v45 (by decide)).trans (u7_v45 m c)
theorem t8_v58 : Fr.T8 m c main_v58 = (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (Agg.ops3_v58 (Fr.U7 m c)).trans ((agg_congr (u7_v1 m c) (u7_v3 m c) (u7_v14 m c) (u7_v45 m c)).trans (Cert.Glue.ref_v75 _ _ _ _ _ _ _ _ _).symm)
theorem t8_v59 : Fr.T8 m c main_v59 = (val_main_v78 (F := Ideal) (m ((c : Thread nD τ).loc main_arg10))) :=
  (Agg.ops3_v59 (Fr.U7 m c)).trans ((row_congr (u7_arg10 m c)).trans (Cert.Glue.bias_row78 _).symm)
theorem t8_arg9 : Fr.T8 m c main_arg9 = (m ((c : Thread nD τ).loc main_arg9)) :=
  (t8_keep m c main_arg9 (by decide)).trans (t2_arg9 m c)
theorem t8_arg11 : Fr.T8 m c main_arg11 = (m ((c : Thread nD τ).loc main_arg11)) :=
  (t8_keep m c main_arg11 (by decide)).trans (t2_arg11 m c)

/-! ## Region 3: the result -/

/-- What the last region leaves in the result array is the reference's result of the launch arguments. -/
theorem x9_eq : Fr.x9 m c = (val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (final3 (Fr.onRefs (Fr.T8 m)) c).trans
    ((fin_congr (t8_v58 m c) (t8_v45 m c) (t8_arg9 m c) (t8_v59 m c) (t8_arg11 m c)).trans (Cert.RefStages.v91_eq _ _ _ _ _ _ _ _ _ _ _ _).symm)

end Cert.KernelIdeal.Val

end
-- ==== Proof.RefChunks.lean ====
/-
  The reference's 115 host operations cut into four stretches, one per stage of the network, with, for each stretch,
  the references it writes and the fact that a reference outside that list keeps its contents over the stretch. The whole
  list is the four stretches in a row, so the contents after all of it are the four stretches' effects one after another.
-/
import proofs.«147368_j81793357185798_1_alg».proof.Proof.RefOps

set_option maxRecDepth 16384

noncomputable section

namespace Cert.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two lines in a row are the second line's effect on the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The first stretch: the edge list's two rows and the reciprocal in-degrees (the operations up to `main_v14`). -/
abbrev s1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v12 (broadcastInDim S100000 ![] bcast_S_S100000 : (⟨S_, .f32⟩ : BufTy).Contents (Elt F) → (⟨S100000, .f32⟩ : BufTy).Contents (Elt F)),
    binary main_v12 main_v11 main_v13 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v13) (TRef.of (T := ⟨S100000, .f32⟩) main_call0_v1) (TRef.of (T := ⟨S100000, .f32⟩) main_v14) select ]

/-- The references the stretch writes, in order. -/
abbrev s1_W : List (Ref sig .tc) :=
  [main_v0, main_v1, main_v2, main_v3, main_cst, main_v4, main_cst_0, main_v5, main_v6, main_v7, main_cst_1, main_v8, main_v9, main_cst_2, main_v10, main_v11, main_cst_3, main_v12, main_v13, main_cst_4, main_call0_v0, main_call0_v1, main_v14]

set_option maxHeartbeats 4000000 in
theorem s1_writes : (s1 : List (HloOp τ sig (Elt F))).Forall fun op => op.writes ⊆ (s1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A reference the stretch does not write keeps its contents. -/
theorem s1_keeps (W : Valuation τ sig (Elt F)) (r : Ref sig .tc) (h : r ∉ s1_W) :
    after (s1 (F := F)) W (Proc.devRef .tc r) = W (Proc.devRef .tc r) :=
  after_of_writes_sub s1 W s1_writes h

/-- The second stretch: the input projection and the first layer (up to `main_v39`). -/
abbrev s2 : List (HloOp τ sig (Elt F)) :=
  [ unary main_arg2 main_v15 ((transpose S128x128 [1, 0] · transposes_S128x128_S128x128_1_0) : (⟨S128x128, .f32⟩ : BufTy).Contents (Elt F) → (⟨S128x128, .f32⟩ : BufTy).Contents (Elt F)),
    binary main_arg0 main_v15 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v24 (broadcastInDim S100000x128 ![] bcast_S_S100000x128 : (⟨S_, .f32⟩ : BufTy).Contents (Elt F) → (⟨S100000x128, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v14 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    unary main_arg3 main_v30 ((transpose S128x128 [1, 0] · transposes_S128x128_S128x128_1_0) : (⟨S128x128, .f32⟩ : BufTy).Contents (Elt F) → (⟨S128x128, .f32⟩ : BufTy).Contents (Elt F)),
    binary main_v29 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    unary main_arg5 main_v35 ((transpose S128x128 [1, 0] · transposes_S128x128_S128x128_1_0) : (⟨S128x128, .f32⟩ : BufTy).Contents (Elt F) → (⟨S128x128, .f32⟩ : BufTy).Contents (Elt F)),
    binary main_v16 main_v35 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v34 main_v36 main_v37 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v37) (TRef.of (T := ⟨S100000x128, .f32⟩) main_call1_v0) (TRef.of (T := ⟨S100000x128, .f32⟩) main_v38) maximumf,
    binary main_v38 main_arg0 main_v39 (addf : (⟨S100000x128, .f32⟩ : BufTy).Contents (Elt F) → (⟨S100000x128, .f32⟩ : BufTy).Contents (Elt F) → (⟨S100000x128, .f32⟩ : BufTy).Contents (Elt F)) ]

/-- The references the stretch writes, in order. -/
abbrev s2_W : List (Ref sig .tc) :=
  [main_v15, main_v16, main_c, main_v17, main_v18, main_c_5, main_v19, main_v20, main_v21, main_v22, main_v23, main_cst_6, main_v24, main_v25, main_v26, main_v27, main_v28, main_v29, main_v30, main_v31, main_v32, main_v33, main_v34, main_v35, main_v36, main_v37, main_call1_cst, main_call1_v0, main_v38, main_v39]

set_option maxHeartbeats 4000000 in
theorem s2_writes : (s2 : List (HloOp τ sig (Elt F))).Forall fun op => op.writes ⊆ (s2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A reference the stretch does not write keeps its contents. -/
theorem s2_keeps (W : Valuation τ sig (Elt F)) (r : Ref sig .tc) (h : r ∉ s2_W) :
    after (s2 (F := F)) W (Proc.devRef .tc r) = W (Proc.devRef .tc r) :=
  after_of_writes_sub s2 W s2_writes h

/-- The third stretch: the second layer (up to `main_v62`). -/
abbrev s3 : List (HloOp τ sig (Elt F)) :=
  [ nullary main_c_7 (constantI S_ 32 0#32),
    unary main_c_7 main_v40 (broadcastInDim S800000 ![] bcast_S_S800000 : (⟨S_, .i32⟩ : BufTy).Contents (Elt F) → (⟨S800000, .i32⟩ : BufTy).Contents (Elt F)),
    binary main_v1 main_v40 main_v41 (cmpi .slt : (⟨S800000, .i32⟩ : BufTy).Contents (Elt F) → (⟨S800000, .i32⟩ : BufTy).Contents (Elt F) → (⟨S800000, .i1⟩ : BufTy).Contents (Elt F)),
    nullary main_c_8 (constantI S_ 32 100000#32),
    unary main_c_8 main_v42 (broadcastInDim S800000 ![] bcast_S_S800000 : (⟨S_, .i32⟩ : BufTy).Contents (Elt F) → (⟨S800000, .i32⟩ : BufTy).Contents (Elt F)),
    binary main_v1 main_v42 main_v43 (addi : (⟨S800000, .i32⟩ : BufTy).Contents (Elt F) → (⟨S800000, .i32⟩ : BufTy).Contents (Elt F) → (⟨S800000, .i32⟩ : BufTy).Contents (Elt F)),
    ternary main_v41 main_v43 main_v1 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v44 main_v45 (broadcastInDim S800000x1 ![0] bcast_S800000_S800000x1_0 : (⟨S800000, .i32⟩ : BufTy).Contents (Elt F) → (⟨S800000x1, .i32⟩ : BufTy).Contents (Elt F)),
    binary main_v39 main_v45 main_v46 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v47 (broadcastInDim S100000x128 ![] bcast_S_S100000x128 : (⟨S_, .f32⟩ : BufTy).Contents (Elt F) → (⟨S100000x128, .f32⟩ : BufTy).Contents (Elt F)),
    unary main_v3 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v14 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x128 ![0, 1] bcast_S100000x1_S100000x128_0_1 : (⟨S100000x1, .f32⟩ : BufTy).Contents (Elt F) → (⟨S100000x128, .f32⟩ : BufTy).Contents (Elt F)),
    binary main_v49 main_v51 main_v52 (mulf : (⟨S100000x128, .f32⟩ : BufTy).Contents (Elt F) → (⟨S100000x128, .f32⟩ : BufTy).Contents (Elt F) → (⟨S100000x128, .f32⟩ : BufTy).Contents (Elt F)),
    unary main_arg6 main_v53 ((transpose S128x128 [1, 0] · transposes_S128x128_S128x128_1_0) : (⟨S128x128, .f32⟩ : BufTy).Contents (Elt F) → (⟨S128x128, .f32⟩ : BufTy).Contents (Elt F)),
    binary main_v52 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    unary main_arg8 main_v58 ((transpose S128x128 [1, 0] · transposes_S128x128_S128x128_1_0) : (⟨S128x128, .f32⟩ : BufTy).Contents (Elt F) → (⟨S128x128, .f32⟩ : BufTy).Contents (Elt F)),
    binary main_v39 main_v58 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v60) (TRef.of (T := ⟨S100000x128, .f32⟩) main_call2_v0) (TRef.of (T := ⟨S100000x128, .f32⟩) main_v61) maximumf,
    binary main_v61 main_v39 main_v62 (addf : (⟨S100000x128, .f32⟩ : BufTy).Contents (Elt F) → (⟨S100000x128, .f32⟩ : BufTy).Contents (Elt F) → (⟨S100000x128, .f32⟩ : BufTy).Contents (Elt F)) ]

/-- The references the stretch writes, in order. -/
abbrev s3_W : List (Ref sig .tc) :=
  [main_c_7, main_v40, main_v41, main_c_8, main_v42, main_v43, main_v44, main_v45, main_v46, main_cst_9, main_v47, main_v48, main_v49, main_v50, main_v51, main_v52, main_v53, main_v54, main_v55, main_v56, main_v57, main_v58, main_v59, main_v60, main_call2_cst, main_call2_v0, main_v61, main_v62]

set_option maxHeartbeats 4000000 in
theorem s3_writes : (s3 : List (HloOp τ sig (Elt F))).Forall fun op => op.writes ⊆ (s3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A reference the stretch does not write keeps its contents. -/
theorem s3_keeps (W : Valuation τ sig (Elt F)) (r : Ref sig .tc) (h : r ∉ s3_W) :
    after (s3 (F := F)) W (Proc.devRef .tc r) = W (Proc.devRef .tc r) :=
  after_of_writes_sub s3 W s3_writes h

/-- The fourth stretch: the last layer and its row normalization (up to `main_v91`). -/
abbrev s4 : List (HloOp τ sig (Elt F)) :=
  [ nullary main_c_10 (constantI S_ 32 0#32),
    unary main_c_10 main_v63 (broadcastInDim S800000 ![] bcast_S_S800000 : (⟨S_, .i32⟩ : BufTy).Contents (Elt F) → (⟨S800000, .i32⟩ : BufTy).Contents (Elt F)),
    binary main_v1 main_v63 main_v64 (cmpi .slt : (⟨S800000, .i32⟩ : BufTy).Contents (Elt F) → (⟨S800000, .i32⟩ : BufTy).Contents (Elt F) → (⟨S800000, .i1⟩ : BufTy).Contents (Elt F)),
    nullary main_c_11 (constantI S_ 32 100000#32),
    unary main_c_11 main_v65 (broadcastInDim S800000 ![] bcast_S_S800000 : (⟨S_, .i32⟩ : BufTy).Contents (Elt F) → (⟨S800000, .i32⟩ : BufTy).Contents (Elt F)),
    binary main_v1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_v1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v62 main_v68 main_v69 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v70 (broadcastInDim S100000x128 ![] bcast_S_S100000x128 : (⟨S_, .f32⟩ : BufTy).Contents (Elt F) → (⟨S100000x128, .f32⟩ : BufTy).Contents (Elt F)),
    unary main_v3 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v14 main_v73 (broadcastInDim S100000x1 ![0] bcast_S100000_S100000x1_0 : (⟨S100000, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_arg9 main_v76 ((transpose S128x128 [1, 0] · transposes_S128x128_S128x128_1_0) : (⟨S128x128, .f32⟩ : BufTy).Contents (Elt F) → (⟨S128x128, .f32⟩ : BufTy).Contents (Elt F)),
    binary main_v75 main_v76 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v77 main_v79 main_v80 (addf : (⟨S100000x128, .f32⟩ : BufTy).Contents (Elt F) → (⟨S100000x128, .f32⟩ : BufTy).Contents (Elt F) → (⟨S100000x128, .f32⟩ : BufTy).Contents (Elt F)),
    unary main_arg11 main_v81 ((transpose S128x128 [1, 0] · transposes_S128x128_S128x128_1_0) : (⟨S128x128, .f32⟩ : BufTy).Contents (Elt F) → (⟨S128x128, .f32⟩ : BufTy).Contents (Elt F)),
    binary main_v62 main_v81 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v80 main_v82 main_v83 (addf : (⟨S100000x128, .f32⟩ : BufTy).Contents (Elt F) → (⟨S100000x128, .f32⟩ : BufTy).Contents (Elt F) → (⟨S100000x128, .f32⟩ : BufTy).Contents (Elt F)),
    binary main_v83 main_v83 main_v84 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v84 main_cst_13 main_v85 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (Host.sqrt : (⟨S100000x1, .f32⟩ : BufTy).Contents (Elt F) → (⟨S100000x1, .f32⟩ : BufTy).Contents (Elt F)),
    nullary main_cst_14 (constant S_ .f32 0x2B8CBCCC#32),
    unary main_cst_14 main_v88 (broadcastInDim S100000x1 ![] bcast_S_S100000x1 : (⟨S_, .f32⟩ : BufTy).Contents (Elt F) → (⟨S100000x1, .f32⟩ : BufTy).Contents (Elt F)),
    binary main_v87 main_v88 main_v89 (maximumf : (⟨S100000x1, .f32⟩ : BufTy).Contents (Elt F) → (⟨S100000x1, .f32⟩ : BufTy).Contents (Elt F) → (⟨S100000x1, .f32⟩ : BufTy).Contents (Elt F)),
    unary main_v89 main_v90 (broadcastInDim S100000x128 ![0, 1] bcast_S100000x1_S100000x128_0_1 : (⟨S100000x1, .f32⟩ : BufTy).Contents (Elt F) → (⟨S100000x128, .f32⟩ : BufTy).Contents (Elt F)),
    binary main_v83 main_v90 main_v91 (Host.divf : (⟨S100000x128, .f32⟩ : BufTy).Contents (Elt F) → (⟨S100000x128, .f32⟩ : BufTy).Contents (Elt F) → (⟨S100000x128, .f32⟩ : BufTy).Contents (Elt F)) ]

/-- The references the stretch writes, in order. -/
abbrev s4_W : List (Ref sig .tc) :=
  [main_c_10, main_v63, main_v64, main_c_11, main_v65, main_v66, main_v67, main_v68, main_v69, main_cst_12, main_v70, main_v71, main_v72, main_v73, main_v74, main_v75, main_v76, main_v77, main_v78, main_v79, main_v80, main_v81, main_v82, main_v83, main_v84, main_cst_13, main_v85, main_v86, main_v87, main_cst_14, main_v88, main_v89, main_v90, main_v91]

set_option maxHeartbeats 4000000 in
theorem s4_writes : (s4 : List (HloOp τ sig (Elt F))).Forall fun op => op.writes ⊆ (s4_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A reference the stretch does not write keeps its contents. -/
theorem s4_keeps (W : Valuation τ sig (Elt F)) (r : Ref sig .tc) (h : r ∉ s4_W) :
    after (s4 (F := F)) W (Proc.devRef .tc r) = W (Proc.devRef .tc r) :=
  after_of_writes_sub s4 W s4_writes h

set_option maxHeartbeats 4000000 in
/-- The whole list is the four stretches in a row. -/
theorem ops_split : (ops : List (HloOp τ sig (Elt F))) = s1 ++ (s2 ++ (s3 ++ s4)) := rfl

/-- So the contents after the whole list are the stretches' effects one after another. -/
theorem after_ops (V : Valuation τ sig (Elt F)) : after (ops (F := F)) V = after s4 (after s3 (after s2 (after s1 V))) := by
  rw [ops_split, after_app, after_app, after_app]

end Cert.RefRun

end
-- ==== Proof.RefRunA.lean ====
/-
  The first two stretches of the reference's run, from any contents `W` of the buffers: after the first stretch the
  edge list's two rows and the reciprocal in-degrees are the stage functions of the edge list; after the second, the
  first layer's output is the stage function of the features, the edge list and the first five parameters, given that
  `W` holds the first stretch's three results.
-/
import proofs.«147368_j81793357185798_1_alg».proof.Proof.RefChunks
import proofs.«147368_j81793357185798_1_alg».proof.Proof.RefRead

set_option maxRecDepth 16384

noncomputable section

namespace Cert.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

set_option maxHeartbeats 2000000 in
/-- The edge list's first row, flattened. -/
theorem stage1_v1 (W : Valuation τ sig (Elt F)) (x1 : (⟨S2x800000, .i32⟩ : BufTy).Contents (Elt F)) (h1 : W (Proc.devRef .tc main_arg1) = x1) :
    after (s1 (F := F)) W (Proc.devRef .tc main_v1) = val_main_v1 (F := F) x1 := by
  show after _ W _ = _
  after_results_simp
  try simp only [TRef.ofBuf, TRef.toBuf, cast_eq]
  rw [h1]
  rfl

set_option maxHeartbeats 2000000 in
/-- The edge list's second row, flattened. -/
theorem stage1_v3 (W : Valuation τ sig (Elt F)) (x1 : (⟨S2x800000, .i32⟩ : BufTy).Contents (Elt F)) (h1 : W (Proc.devRef .tc main_arg1) = x1) :
    after (s1 (F := F)) W (Proc.devRef .tc main_v3) = val_main_v3 (F := F) x1 := by
  show after _ W _ = _
  after_results_simp
  try simp only [TRef.ofBuf, TRef.toBuf, cast_eq]
  rw [h1]
  rfl

set_option maxHeartbeats 2000000 in
/-- The reciprocal in-degrees. -/
theorem stage1_v14 (W : Valuation τ sig (Elt F)) (x1 : (⟨S2x800000, .i32⟩ : BufTy).Contents (Elt F)) (h1 : W (Proc.devRef .tc main_arg1) = x1) :
    after (s1 (F := F)) W (Proc.devRef .tc main_v14) = val_main_v14 (F := F) x1 := by
  show after _ W _ = _
  after_results_simp
  try simp only [TRef.ofBuf, TRef.toBuf, cast_eq]
  rw [h1]
  rfl

set_option maxHeartbeats 4000000 in
/-- The first layer's output. -/
theorem stage2 (W : Valuation τ sig (Elt F)) (x0 : (⟨S100000x128, .f32⟩ : BufTy).Contents (Elt F)) (x1 : (⟨S2x800000, .i32⟩ : BufTy).Contents (Elt F)) (x2 x3 : (⟨S128x128, .f32⟩ : BufTy).Contents (Elt F)) (x4 : (⟨S128, .f32⟩ : BufTy).Contents (Elt F)) (x5 : (⟨S128x128, .f32⟩ : BufTy).Contents (Elt F))
    (hv1 : W (Proc.devRef .tc main_v1) = val_main_v1 (F := F) x1) (hv3 : W (Proc.devRef .tc main_v3) = val_main_v3 (F := F) x1)
    (hv14 : W (Proc.devRef .tc main_v14) = val_main_v14 (F := F) x1)
    (h0 : W (Proc.devRef .tc main_arg0) = x0) (h2 : W (Proc.devRef .tc main_arg2) = x2) (h3 : W (Proc.devRef .tc main_arg3) = x3)
    (h4 : W (Proc.devRef .tc main_arg4) = x4) (h5 : W (Proc.devRef .tc main_arg5) = x5) :
    after (s2 (F := F)) W (Proc.devRef .tc main_v39) = val_main_v39 (F := F) x0 x1 x2 x3 x4 x5 := by
  show after _ W _ = _
  after_results_simp
  try simp only [TRef.ofBuf, TRef.toBuf, cast_eq]
  rw [hv1, hv3, hv14, h0, h2, h3, h4, h5]
  rfl

end Cert.RefRun

end
-- ==== Proof.RefRunB.lean ====
/-
  The reference's second and third layers as stretches of host operations: whatever the buffers hold when a stretch
  begins, if the edge rows, the reciprocal degrees, the previous layer's result and the layer's own weights and
  bias are there, then after the stretch the layer's result buffer holds the layer's stage of the reference read
  one operation at a time.
-/
import proofs.«147368_j81793357185798_1_alg».proof.Proof.RefChunks
import proofs.«147368_j81793357185798_1_alg».proof.Proof.RefRead

set_option maxRecDepth 16384

noncomputable section

namespace Cert.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

set_option maxHeartbeats 4000000 in
/-- The second layer: from the first layer's result to the second's. -/
theorem stage3 (W : Valuation τ sig (Elt F))
    (x0 : (⟨S100000x128, .f32⟩ : BufTy).Contents (Elt F)) (x1 : (⟨S2x800000, .i32⟩ : BufTy).Contents (Elt F))
    (x2 x3 : (⟨S128x128, .f32⟩ : BufTy).Contents (Elt F)) (x4 : (⟨S128, .f32⟩ : BufTy).Contents (Elt F))
    (x5 x6 : (⟨S128x128, .f32⟩ : BufTy).Contents (Elt F)) (x7 : (⟨S128, .f32⟩ : BufTy).Contents (Elt F))
    (x8 : (⟨S128x128, .f32⟩ : BufTy).Contents (Elt F))
    (hv1 : W (Proc.devRef .tc main_v1) = val_main_v1 (F := F) x1) (hv3 : W (Proc.devRef .tc main_v3) = val_main_v3 (F := F) x1)
    (hv14 : W (Proc.devRef .tc main_v14) = val_main_v14 (F := F) x1)
    (hv39 : W (Proc.devRef .tc main_v39) = val_main_v39 (F := F) x0 x1 x2 x3 x4 x5)
    (h6 : W (Proc.devRef .tc main_arg6) = x6) (h7 : W (Proc.devRef .tc main_arg7) = x7) (h8 : W (Proc.devRef .tc main_arg8) = x8) :
    after (s3 (F := F)) W (Proc.devRef .tc main_v62) = val_main_v62 (F := F) x0 x1 x2 x3 x4 x5 x6 x7 x8 := by
  show after (s3 (F := F)) W (Proc.devRef .tc main_v62) = _
  after_results_simp
  try simp only [TRef.ofBuf, TRef.toBuf, cast_eq]
  rw [hv1, hv3, hv14, hv39, h6, h7, h8]
  rfl

set_option maxHeartbeats 4000000 in
/-- The last layer: from the second layer's result to the normalized output. -/
theorem stage4 (W : Valuation τ sig (Elt F))
    (x0 : (⟨S100000x128, .f32⟩ : BufTy).Contents (Elt F)) (x1 : (⟨S2x800000, .i32⟩ : BufTy).Contents (Elt F))
    (x2 x3 : (⟨S128x128, .f32⟩ : BufTy).Contents (Elt F)) (x4 : (⟨S128, .f32⟩ : BufTy).Contents (Elt F))
    (x5 x6 : (⟨S128x128, .f32⟩ : BufTy).Contents (Elt F)) (x7 : (⟨S128, .f32⟩ : BufTy).Contents (Elt F))
    (x8 x9 : (⟨S128x128, .f32⟩ : BufTy).Contents (Elt F)) (x10 : (⟨S128, .f32⟩ : BufTy).Contents (Elt F))
    (x11 : (⟨S128x128, .f32⟩ : BufTy).Contents (Elt F))
    (hv1 : W (Proc.devRef .tc main_v1) = val_main_v1 (F := F) x1) (hv3 : W (Proc.devRef .tc main_v3) = val_main_v3 (F := F) x1)
    (hv14 : W (Proc.devRef .tc main_v14) = val_main_v14 (F := F) x1)
    (hv62 : W (Proc.devRef .tc main_v62) = val_main_v62 (F := F) x0 x1 x2 x3 x4 x5 x6 x7 x8)
    (h9 : W (Proc.devRef .tc main_arg9) = x9) (h10 : W (Proc.devRef .tc main_arg10) = x10) (h11 : W (Proc.devRef .tc main_arg11) = x11) :
    after (s4 (F := F)) W (Proc.devRef .tc main_v91) = val_main_v91 (F := F) x0 x1 x2 x3 x4 x5 x6 x7 x8 x9 x10 x11 := by
  show after (s4 (F := F)) W (Proc.devRef .tc main_v91) = _
  after_results_simp
  try simp only [TRef.ofBuf, TRef.toBuf, cast_eq]
  rw [hv1, hv3, hv14, hv62, h9, h10, h11]
  rfl

end Cert.RefRun

end
-- ==== Proof.RefRun.lean ====
/-
  The reference's run over its stages. Every weakly fair execution of @main from any memory with zero counters
  terminates; each device's buffers then hold the fold of the 115 operations over their launch contents. The fold is
  taken one stretch at a time: each stretch's result is the stage function of the earlier stages' results, which the
  later stretches do not write, and no stretch writes an argument. So the last layer's output is `val_main_v91` of the
  twelve arguments' launch contents, and the arguments are unchanged.
-/
import proofs.«147368_j81793357185798_1_alg».proof.Proof.RefRunA
import proofs.«147368_j81793357185798_1_alg».proof.Proof.RefRunB

set_option maxRecDepth 16384

noncomputable section

namespace Cert.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

section Fold

variable (m : (ℓ : Loc nD τ sig) → Buf (Elt F) ℓ) (c : Dev nD)

/-- The device's contents at the launch, and after the first, second and third stretch. -/
abbrev V0 : Valuation τ sig (Elt F) := launchContents m c
abbrev V1 : Valuation τ sig (Elt F) := after s1 (V0 m c)
abbrev V2 : Valuation τ sig (Elt F) := after s2 (V1 m c)
abbrev V3 : Valuation τ sig (Elt F) := after s3 (V2 m c)

/-- A reference no stretch so far writes still holds its launch contents. -/
theorem keeps1 (r : Ref sig .tc) (h1 : r ∉ s1_W) : V1 m c (Proc.devRef .tc r) = m ((c.tc : Thread nD τ).loc r) :=
  s1_keeps _ r h1
theorem keeps2 (r : Ref sig .tc) (h1 : r ∉ s1_W) (h2 : r ∉ s2_W) : V2 m c (Proc.devRef .tc r) = m ((c.tc : Thread nD τ).loc r) :=
  (s2_keeps _ r h2).trans (keeps1 m c r h1)
theorem keeps3 (r : Ref sig .tc) (h1 : r ∉ s1_W) (h2 : r ∉ s2_W) (h3 : r ∉ s3_W) :
    V3 m c (Proc.devRef .tc r) = m ((c.tc : Thread nD τ).loc r) :=
  (s3_keeps _ r h3).trans (keeps2 m c r h1 h2)
/-- An argument is written by no operation: it holds its launch contents at the end. -/
theorem keeps (r : Ref sig .tc) (h1 : r ∉ s1_W) (h2 : r ∉ s2_W) (h3 : r ∉ s3_W) (h4 : r ∉ s4_W) :
    after (ops (F := F)) (launchContents m c) (Proc.devRef .tc r) = m ((c.tc : Thread nD τ).loc r) := by
  rw [after_ops]
  exact (s4_keeps _ r h4).trans (keeps3 m c r h1 h2 h3)

/-- The last layer's output at the end: the stage function of the arguments' launch contents. -/
theorem v91_after :
    after (ops (F := F)) (launchContents m c) (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops]
  -- the first stretch's three results, and that the later stretches keep them
  have a1 : V1 m c (Proc.devRef .tc main_v1) = val_main_v1 (F := F) (m ((c.tc : Thread nD τ).loc main_arg1)) := stage1_v1 _ _ rfl
  have a3 : V1 m c (Proc.devRef .tc main_v3) = val_main_v3 (F := F) (m ((c.tc : Thread nD τ).loc main_arg1)) := stage1_v3 _ _ rfl
  have a14 : V1 m c (Proc.devRef .tc main_v14) = val_main_v14 (F := F) (m ((c.tc : Thread nD τ).loc main_arg1)) := stage1_v14 _ _ rfl
  have b1 : V2 m c (Proc.devRef .tc main_v1) = val_main_v1 (F := F) (m ((c.tc : Thread nD τ).loc main_arg1)) := (s2_keeps _ main_v1 (by decide)).trans a1
  have b3 : V2 m c (Proc.devRef .tc main_v3) = val_main_v3 (F := F) (m ((c.tc : Thread nD τ).loc main_arg1)) := (s2_keeps _ main_v3 (by decide)).trans a3
  have b14 : V2 m c (Proc.devRef .tc main_v14) = val_main_v14 (F := F) (m ((c.tc : Thread nD τ).loc main_arg1)) := (s2_keeps _ main_v14 (by decide)).trans a14
  have c1 : V3 m c (Proc.devRef .tc main_v1) = val_main_v1 (F := F) (m ((c.tc : Thread nD τ).loc main_arg1)) := (s3_keeps _ main_v1 (by decide)).trans b1
  have c3 : V3 m c (Proc.devRef .tc main_v3) = val_main_v3 (F := F) (m ((c.tc : Thread nD τ).loc main_arg1)) := (s3_keeps _ main_v3 (by decide)).trans b3
  have c14 : V3 m c (Proc.devRef .tc main_v14) = val_main_v14 (F := F) (m ((c.tc : Thread nD τ).loc main_arg1)) := (s3_keeps _ main_v14 (by decide)).trans b14
  -- the layers, each from the one before
  have b39 : V2 m c (Proc.devRef .tc main_v39) = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    stage2 (V1 m c) _ _ _ _ _ _ a1 a3 a14 (keeps1 m c main_arg0 (by decide)) (keeps1 m c main_arg2 (by decide))
      (keeps1 m c main_arg3 (by decide)) (keeps1 m c main_arg4 (by decide)) (keeps1 m c main_arg5 (by decide))
  have c62 : V3 m c (Proc.devRef .tc main_v62) = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
    stage3 (V2 m c) _ _ _ _ _ _ _ _ _ b1 b3 b14 b39 (keeps2 m c main_arg6 (by decide) (by decide))
      (keeps2 m c main_arg7 (by decide) (by decide)) (keeps2 m c main_arg8 (by decide) (by decide))
  exact stage4 (V3 m c) _ _ _ _ _ _ _ _ _ _ _ _ c1 c3 c14 c62 (keeps3 m c main_arg9 (by decide) (by decide) (by decide))
    (keeps3 m c main_arg10 (by decide) (by decide) (by decide)) (keeps3 m c main_arg11 (by decide) (by decide) (by decide))

end Fold

set_option maxRecDepth 8192 in
set_option maxHeartbeats 46000000 in
/-- On every device, for any float values, from any memory with zero counters: every weakly fair execution of
    @main terminates with the last layer's output at its stage function of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v91).trans (v91_after m c),
      (h c main_arg0).trans (keeps m c main_arg0 (by decide) (by decide) (by decide) (by decide)),
      (h c main_arg1).trans (keeps m c main_arg1 (by decide) (by decide) (by decide) (by decide)),
      (h c main_arg2).trans (keeps m c main_arg2 (by decide) (by decide) (by decide) (by decide)),
      (h c main_arg3).trans (keeps m c main_arg3 (by decide) (by decide) (by decide) (by decide)),
      (h c main_arg4).trans (keeps m c main_arg4 (by decide) (by decide) (by decide) (by decide)),
      (h c main_arg5).trans (keeps m c main_arg5 (by decide) (by decide) (by decide) (by decide)),
      (h c main_arg6).trans (keeps m c main_arg6 (by decide) (by decide) (by decide) (by decide)),
      (h c main_arg7).trans (keeps m c main_arg7 (by decide) (by decide) (by decide) (by decide)),
      (h c main_arg8).trans (keeps m c main_arg8 (by decide) (by decide) (by decide) (by decide)),
      (h c main_arg9).trans (keeps m c main_arg9 (by decide) (by decide) (by decide) (by decide)),
      (h c main_arg10).trans (keeps m c main_arg10 (by decide) (by decide) (by decide) (by decide)),
      (h c main_arg11).trans (keeps m c main_arg11 (by decide) (by decide) (by decide) (by decide))⟩)
    (run_seq scopedRefs_eq scopedSems_eq defs main (fun _ => ops) main_eq (fun _ => ops_sub) m ρ)

end Cert.RefRun

end
-- ==== Proof.lean ====
/-
  The claim: a three-layer GraphSAGE network on 100000 nodes and 800000 edges, its dense parts — the input projection
  x · Wᵀ, two middle layers relu(mean · Wlᵀ + b + h · Wrᵀ) + residual, and a last layer whose rows are divided by their
  lengths — computed by four kernel regions over row tiles of 2000 nodes, against the same network written as host
  operations. Between the regions both programs run the SAME host operations (the in-degree and its guarded reciprocal,
  and per layer the gather of the source rows, their sum at the target nodes, and the scaling by the reciprocal degree),
  so the two results agree as soon as each region's output array is, index by index, the host's matrix product, bias,
  maximum, sum and quotient of the same arrays: at the exact instance a tile's product into a zero accumulator is the
  sum over the shared coordinate, row 2000·t + p of an array is row p of its tile t, and the 50 tiles cover the array.
  No law of the extended reals beyond rewriting equal terms is used, so the precondition is never opened.

  The frames: every region's body loads whole blocks and stores one whole block, so its triple is read off by symbolic
  execution; the regions are chained over "every unscoped buffer at the boundary's contents"; region 2 reads one array
  through two windows, which hold it at the two halves of the full share. The reference is a host program: its run is
  read stage by stage. KernelIdeal is Kernel's own text at the exact instance (the ledger is empty).
-/
import proofs.«147368_j81793357185798_1_alg».proof.Defs
import proofs.«147368_j81793357185798_1_alg».proof.Proof.K.Run
import proofs.«147368_j81793357185798_1_alg».proof.Proof.KI.RunVal
import proofs.«147368_j81793357185798_1_alg».proof.Proof.KI.Value
import proofs.«147368_j81793357185798_1_alg».proof.Proof.RefRun
import proofs.«147368_j81793357185798_1_alg».proof.Proof.Gen.Pre_finite_inputs

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- Both programs end with the result at the reference's last stage of the arguments: the kernel's by the chain of
    region values and shared host stretches, the reference's by its run; the arguments agree by hypothesis. -/
theorem algebraic : Cert.algebraic_KernelIdeal_ReferenceIdeal := by
  intro m ρ m' ρ' _ hagree
  refine ⟨fun c => Cert.KernelIdeal.Fr.x9 (F := Ideal) m c, Cert.KernelIdeal.Fr.run_value (F := Ideal) m ρ, ?_⟩
  refine (θ_run Cert.ReferenceIdeal.defs _ _).mono (fun _ h c => ⟨(h c).1.trans ?_, (h c).2⟩)
    (Cert.RefRun.run (F := Ideal) m' ρ')
  obtain ⟨a0, a1, a2, a3, a4, a5, a6, a7, a8, a9, a10, a11⟩ := hagree c
  rw [a0, a1, a2, a3, a4, a5, a6, a7, a8, a9, a10, a11]
  exact (Cert.KernelIdeal.Val.x9_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
